-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 100000#32
  let main_v13 : IVec S512 32 := broadcastInDim S512 ![] bcast_S_S512 main_c_4
  let main_v14 : IVec S512 1 := cmpi .slt main_arg1 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x512 : Shape := ⟨2, ![512, 512]⟩
abbrev S512 : Shape := ⟨1, ![512]⟩
abbrev S100000x512 : Shape := ⟨2, ![100000, 512]⟩
abbrev S512x1 : Shape := ⟨2, ![512, 1]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩
abbrev S1x2000 : Shape := ⟨2, ![1, 2000]⟩
abbrev S_ : Shape := ⟨0, ![]⟩

abbrev nBuf : Space → Nat
  | .hbm => 63
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x1, .i32⟩
  | .hbm, ⟨4, _⟩ => ⟨S2x512x1, .f32⟩
  | .hbm, ⟨5, _⟩ => ⟨S2x512x1, .f32⟩
  | .hbm, ⟨6, _⟩ => ⟨S2x512x1, .f32⟩
  | .hbm, ⟨7, _⟩ => ⟨S1x512x1, .f32⟩
  | .hbm, ⟨8, _⟩ => ⟨S512, .f32⟩
  | .hbm, ⟨9, _⟩ => ⟨S1x512x1, .f32⟩
  | .hbm, ⟨10, _⟩ => ⟨S512, .f32⟩
  | .hbm, ⟨11, _⟩ => ⟨S1x512x1, .f32⟩
  | .hbm, ⟨12, _⟩ => ⟨S512, .f32⟩
  | .hbm, ⟨13, _⟩ => ⟨S1x512x1, .f32⟩
  | .hbm, ⟨14, _⟩ => ⟨S512, .f32⟩
  | .hbm, ⟨15, _⟩ => ⟨S1x512x1, .f32⟩
  | .hbm, ⟨16, _⟩ => ⟨S512, .f32⟩
  | .hbm, ⟨17, _⟩ => ⟨S1x512x1, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .i1⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S512x512, .f32⟩
  | .local _ .vmem, ⟨1, _⟩ => ⟨S2000x512, .f32⟩
  | .local _ .vmem, ⟨2, _⟩ => ⟨S2000x512, .f32⟩
  | .local _ .vmem, ⟨3, _⟩ => ⟨S512x1, .i32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x512, .bf16⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v60 : BitVec 1 := Scalar.cmpi .eq arg1 c24_i32
  let v61 : BitVec 32 := Scalar.extui v60
  let c0_i32_28 : BitVec 32 := 0#32
  let v62 : BitVec 1 := Scalar.cmpi .ne v61 c0_i32_28
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S512_S512x1 : S512.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  iota_S1x2000_d1_w32 : S1x2000.Iotas .tc 32 [1]
  broadcasts_S512x1_S512x2000 : S512x1.Broadcasts S512x2000
  broadcasts_S1x2000_S512x2000 : S1x2000.Broadcasts S512x2000
  reduces_S512x2000_S512 : S512x2000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  shapeCasts_S1x512x1_S512 : S1x512x1.ShapeCasts S512
  slices_S2x512x1_S1x512x1_1_0_0 : S2x512x1.Slices ![1, 0, 0] S1x512x1
  bcast_S_S512 : S_.BroadcastsInDim S512 (![] : Fin 0 → Fin S512.rank)
  reducesTo_S512_S_d0 : S512.ReducesTo [0] S_
  h_S_ : 0 < S_.numel
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S512x100000, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S512x100000, .f32⟩
  | .hbm, ⟨39, _⟩ => ⟨S512x100000, .i1⟩
  | .hbm, ⟨40, _⟩ => ⟨S_, .f32⟩
  | .hbm, ⟨41, _⟩ => ⟨S512x100000, .f32⟩
  | .hbm, ⟨42, _⟩ => ⟨S512x100000, .f32⟩
  | .hbm, ⟨43, _⟩ => ⟨S512x100000, .f32⟩
  | .hbm, ⟨44, _⟩ => ⟨S512x1, .i32⟩
  | .hbm, ⟨45, _⟩ => ⟨S1x100000, .i32⟩
  | .hbm, ⟨46, _⟩ => ⟨S512x100000, .i32⟩
  | .hbm, ⟨47, _⟩ => ⟨S512x100000, .i32⟩
  | .hbm, ⟨48, _⟩ => ⟨S512x100000, .i1⟩
  | .hbm, ⟨49, _⟩ => ⟨S512x100000, .f32⟩
  | .hbm, ⟨50, _⟩ => ⟨S512x100000, .f32⟩
  | .hbm, ⟨51, _⟩ => ⟨S_, .f32⟩
  | .hbm, ⟨52, _⟩ => ⟨S512x100000, .f32⟩
  | .hbm, ⟨53, _⟩ => ⟨S512x100000, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512x100000, .f32⟩
  | .hbm, ⟨58, _⟩ => ⟨S512x100000, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S512x1, .f32⟩
  | .hbm, ⟨65, _⟩ => ⟨S512x100000, .f32⟩
  | .hbm, ⟨66, _⟩ => ⟨S512x100000, .f32⟩
  | .hbm, ⟨67, _⟩ => ⟨S512x100000, .f32⟩
  | .hbm, ⟨68, _⟩ => ⟨S_, .f32⟩
  | .hbm, ⟨69, _⟩ => ⟨S512, .f32⟩
  | .hbm, ⟨70, _⟩ => ⟨S512x1, .f32⟩
  | .hbm, ⟨71, _⟩ => ⟨S512x1, .f32⟩
  | .hbm, ⟨72, _⟩ => ⟨S512x100000, .f32⟩
  | .hbm, ⟨73, _⟩ => ⟨S512x100000, .f32⟩
  | .hbm, ⟨74, _⟩ => ⟨S512x1, .i32⟩
  | .hbm, ⟨75, _⟩ => ⟨S_, .i32⟩
  | .hbm, ⟨76, _⟩ => ⟨S512x1, .i32⟩
  | .hbm, ⟨77, _⟩ => ⟨S512x1, .i1⟩
  | .hbm, ⟨78, _⟩ => ⟨S_, .i32⟩
  | .hbm, ⟨79, _⟩ => ⟨S512x1, .i32⟩
  | .hbm, ⟨80, _⟩ => ⟨S512x1, .i32⟩
  | .hbm, ⟨81, _⟩ => ⟨S512x1, .i32⟩
  | .hbm, ⟨82, _⟩ => ⟨S512x1x1, .i32⟩
  | .hbm, ⟨83, _⟩ => ⟨S1, .i32⟩
  | .hbm, ⟨84, _⟩ => ⟨S_, .i32⟩
  | .hbm, ⟨85, _⟩ => ⟨S512x1x1, .i32⟩
  | .hbm, ⟨86, _⟩ => ⟨S512x1x1, .i1⟩
  | .hbm, ⟨87, _⟩ => ⟨S1x1x1, .i32⟩
  | .hbm, ⟨88, _⟩ => ⟨S512x1x1, .i32⟩
  | .hbm, ⟨89, _⟩ => ⟨S512x1x1, .i1⟩
  | .hbm, ⟨90, _⟩ => ⟨S512x1x1, .i1⟩
  | .hbm, ⟨91, _⟩ => ⟨S_, .i1⟩
  | .hbm, ⟨92, _⟩ => ⟨S512x1, .i1⟩
  | .hbm, ⟨93, _⟩ => ⟨S512x1, .f32⟩
  | .hbm, ⟨94, _⟩ => ⟨S_, .f32⟩
  | .hbm, ⟨95, _⟩ => ⟨S512x1, .f32⟩
  | .hbm, ⟨96, _⟩ => ⟨S512x1, .f32⟩
  | .hbm, ⟨97, _⟩ => ⟨S512, .f32⟩
  | .hbm, ⟨98, _⟩ => ⟨S512, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_call4_cst : Ref sig .tc := ⟨.hbm, 59, rfl⟩
abbrev main_call4_v0 : Ref sig .tc := ⟨.hbm, 60, rfl⟩
abbrev main_call4_cst_0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_cst_1 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_v34 : Ref sig .tc := ⟨.hbm, 73, rfl⟩
abbrev main_v35 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_8 : Ref sig .tc := ⟨.hbm, 99, rfl⟩
abbrev main_v39 : Ref sig .tc := ⟨.hbm, 100, rfl⟩
abbrev main_cst_9 : Ref sig .tc := ⟨.hbm, 101, rfl⟩
abbrev main_v40 : Ref sig .tc := ⟨.hbm, 102, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S512x100000_S512x100000_1_0_0_1_n_n_wf : DotDims.WF S512x512 S512x100000 S512x100000 [1] [0] [0] [1] [] []
  gather_S512x100000_S512x1x1_S512x1_n_1_0_0_1_2_11_wf : GatherDims.WF S512x100000 S512x1x1 S512x1 [] [1] [0] [1] [0] 2 ![1, 1]

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.Coe.lean ====
/- Real-valued data inside the extended reals: the sums, maxima, quotients, roots, logarithms and
   exponentials of the ideal instance, taken at (coerced) real arguments, are the coerced real results. -/
import Idealize.ShloMosaic.PureOps.Ideal

noncomputable section

namespace ArcFace.Coe

open Idealize.ShloMosaic

open scoped BigOperators

/-- A finite sum of coerced reals is the coerced real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- The coercion preserves binary maxima (it is monotone on a linear order). -/
theorem max_coe (a b : ℝ) : max ((a : ℝ) : EReal) ((b : ℝ) : EReal) = ((max a b : ℝ) : EReal) :=
  (EReal.coe_strictMono.monotone.map_max).symm

/-- The maximum over `Fin (n + 1)` folded from `-∞` is the coerced real supremum: the fold from the
    bottom element is the lattice supremum, which over a nonempty index set is the supremum without a
    bottom, and the coercion commutes with binary maxima. -/
theorem fold_max_coe {n : ℕ} (f : Fin (n + 1) → ℝ) :
    (Finset.univ : Finset (Fin (n + 1))).fold max (⊥ : EReal) (fun k => ((f k : ℝ) : EReal))
      = (((Finset.univ : Finset (Fin (n + 1))).sup' Finset.univ_nonempty f : ℝ) : EReal) := by
  have h1 : (Finset.univ : Finset (Fin (n + 1))).fold max (⊥ : EReal) (fun k => ((f k : ℝ) : EReal))
      = (Finset.univ : Finset (Fin (n + 1))).sup (fun k => ((f k : ℝ) : EReal)) := rfl
  rw [h1, ← Finset.sup'_eq_sup Finset.univ_nonempty,
    Finset.apply_sup'_eq_sup'_comp Finset.univ_nonempty (fun r : ℝ => (r : EReal))
      (fun x y => (max_coe x y).symm)]
  rfl

/-- Division by a nonzero real, of a real, is the real quotient. -/
theorem div_coe_coe (x d : ℝ) (hd : d ≠ 0) :
    Ideal.div ((x : ℝ) : EReal) ((d : ℝ) : EReal) = ((x / d : ℝ) : EReal) := by
  rw [Ideal.div_coe hd, ← EReal.coe_mul, mul_one_div]

theorem sqrt_coe_of_nonneg {r : ℝ} (hr : 0 ≤ r) :
    Ideal.sqrt ((r : ℝ) : EReal) = ((Real.sqrt r : ℝ) : EReal) := by
  rw [Ideal.sqrt_coe, if_neg (not_lt.mpr hr)]

theorem log_coe_of_pos {r : ℝ} (hr : 0 < r) :
    Ideal.log ((r : ℝ) : EReal) = ((Real.log r : ℝ) : EReal) := by
  rw [Ideal.log_coe, if_neg (not_le.mpr hr)]

theorem exp_coe' (r : ℝ) : Ideal.exp ((r : ℝ) : EReal) = ((Real.exp r : ℝ) : EReal) :=
  Ideal.exp_coe r

theorem bot_sub_coe (r : ℝ) : (⊥ : EReal) - ((r : ℝ) : EReal) = ⊥ :=
  EReal.bot_sub _

theorem max_bot_coe (r : ℝ) : max (⊥ : EReal) ((r : ℝ) : EReal) = ((r : ℝ) : EReal) :=
  max_bot_left _

/-- An extended real whose absolute value `max x (-x)` is below `+∞` is a real, and conversely. -/
theorem abs_lt_top_iff (x : EReal) : max x (-x) < ⊤ ↔ ∃ r : ℝ, x = ((r : ℝ) : EReal) := by
  constructor
  · intro h
    rw [max_lt_iff] at h
    induction x using EReal.rec with
    | bot => exact absurd h.2 (by simp)
    | coe r => exact ⟨r, rfl⟩
    | top => exact absurd h.1 (lt_irrefl _)
  · rintro ⟨r, rfl⟩
    rw [← EReal.coe_neg, max_coe]
    exact EReal.coe_lt_top _

end ArcFace.Coe

end
-- ==== Proof.Consts.lean ====
/- The float constants this certificate's programs spell, as the extended reals their bit patterns
   denote at the ideal instance. A normal binary32 pattern with biased exponent `E` and trailing
   significand `T` denotes `(2^23 + T) · 2^(E - 150)`, with the sign of its top bit; an all-ones exponent
   with a zero significand denotes an infinity. -/
import Idealize.ShloMosaic.PureOps.Ideal

noncomputable section

namespace ArcFace.Consts

open Idealize.ShloMosaic

/-- The value of `0x2B8CBCCC`: exponent field `87`, significand `2^23 + 834764 = 9223372`, so
    `9223372 · 2^(-63)`. -/
def epsR : ℝ := 9223372 * (2 : ℝ) ^ (-63 : ℤ)

theorem ofBits_eps : Ideal.ofBits .f32 0x2B8CBCCC#32 = ((epsR : ℝ) : EReal) := by
  simp [Ideal.ofBits, Ideal.ieee, epsR, -EReal.coe_mul]

theorem epsR_pos : 0 < epsR := by
  unfold epsR; positivity

/-- The value of `0x3F7490EF`: exponent field `126`, significand `2^23 + 7639279 = 16027887`, so
    `16027887 · 2^(-24)`. -/
def cmR : ℝ := 16027887 * (2 : ℝ) ^ (-24 : ℤ)

/-- The value of `0x3E974E6D`: exponent field `125`, significand `2^23 + 1527405 = 9916013`, so
    `9916013 · 2^(-25)`. -/
def smR : ℝ := 9916013 * (2 : ℝ) ^ (-25 : ℤ)

/-- The value of `0xBF7490EF`: the pattern of `cmR` with the sign bit set, so `-cmR`. -/
def thR : ℝ := -(16027887 * (2 : ℝ) ^ (-24 : ℤ))

/-- The value of `0x3DB5914F`: exponent field `123`, significand `2^23 + 3510607 = 11899215`, so
    `11899215 · 2^(-27)`. -/
def mmR : ℝ := 11899215 * (2 : ℝ) ^ (-27 : ℤ)

theorem ofBits_cm : Ideal.ofBits .f32 0x3F7490EF#32 = ((cmR : ℝ) : EReal) := by
  simp [Ideal.ofBits, Ideal.ieee, cmR, -EReal.coe_mul]

theorem ofBits_sm : Ideal.ofBits .f32 0x3E974E6D#32 = ((smR : ℝ) : EReal) := by
  simp [Ideal.ofBits, Ideal.ieee, smR, -EReal.coe_mul]

theorem ofBits_th : Ideal.ofBits .f32 0xBF7490EF#32 = ((thR : ℝ) : EReal) := by
  simp [Ideal.ofBits, Ideal.ieee, thR, -EReal.coe_mul]

theorem ofBits_mm : Ideal.ofBits .f32 0x3DB5914F#32 = ((mmR : ℝ) : EReal) := by
  simp [Ideal.ofBits, Ideal.ieee, mmR, -EReal.coe_mul]

/-- `0x42F00000`: exponent field `133`, significand `15728640 = 120 · 2^17`, so `120`. -/
theorem ofBits_scale : Ideal.ofBits .f32 0x42F00000#32 = ((120 : ℝ) : EReal) := by
  simp [Ideal.ofBits, Ideal.ieee, -EReal.coe_mul]; norm_num

/-- `0x44000000`: exponent field `136`, significand `2^23`, so `2^9 = 512`. -/
theorem ofBits_512 : Ideal.ofBits .f32 0x44000000#32 = ((512 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

/-- `0xFF800000`: all-ones exponent, zero significand, sign bit set: `-∞`. -/
theorem ofBits_neg_inf : Ideal.ofBits .f32 0xFF800000#32 = (⊥ : EReal) := by
  simp [Ideal.ofBits, Ideal.ieee]

/-- `0x7F800000`: all-ones exponent, zero significand, sign bit clear: `+∞`. -/
theorem ofBits_pos_inf : Ideal.ofBits .f32 0x7F800000#32 = (⊤ : EReal) := by
  simp [Ideal.ofBits, Ideal.ieee]

end ArcFace.Consts

end
-- ==== Proof.PreFacts.lean ====
/- What the precondition says of the inputs. The printed predicate is a conjunction of four
   all-quantified elementwise tests: every entry of the two float arrays has absolute value below `+∞`, and
   every label word is, read as a signed 32-bit integer, at least `0` and below `100000`. An extended real
   whose absolute value is below `+∞` is a real; a word in `[0, 100000)` signed has its top bit clear, so
   it reads the same unsigned and is the word of its own value. -/
import proofs.«406980_j40630390620832_2_alg».proof.Pre_finite_inputs
import Idealize.ShloMosaic.Lib.ValueIdx
import Idealize.ShloMosaic.Lib.ReduceAll
import Idealize.ShloMosaic.Lib.StableHlo.Predicate
import proofs.«406980_j40630390620832_2_alg».proof.Proof.Coe
import proofs.«406980_j40630390620832_2_alg».proof.Proof.Consts

noncomputable section

namespace ArcFace.PreFacts

open Idealize.ShloMosaic Idealize.ShloMosaic.ValueIdx

/-- The scalar shape has one index. -/
instance subsingleton_scalar_idx : Subsingleton Cert.Pre_finite_inputs.S_.Idx :=
  ⟨fun a b => funext fun d => d.elim0⟩

/-- One element of `|x| < +∞`: the comparison word is `1` exactly when `max x (-x) < ⊤`, and then `x` is
    a real. -/
theorem real_of_abs_lt (x : EReal)
    (h : Ideal.cmp .olt (max x (-x)) (Ideal.ofBits .f32 0x7F800000#32) = 1#1) :
    ∃ r : ℝ, x = ((r : ℝ) : EReal) := by
  rw [Consts.ofBits_pos_inf] at h
  have h' : BitVec.ofBool (decide (max x (-x) < (⊤ : EReal))) = 1#1 := h
  rw [StableHlo.Predicate.ofBool_eq_one_iff, decide_eq_true_eq] at h'
  exact (Coe.abs_lt_top_iff x).1 h'

/-- A 32-bit word that is, read signed, at least `0` and below `100000` has an unsigned value below
    `100000`: a nonnegative signed reading means the top bit is clear, and then both readings agree. -/
theorem toNat_lt_of_signed (v : BitVec 32) (h0 : (0#32 : BitVec 32).toInt ≤ v.toInt)
    (h1 : v.toInt < (100000#32 : BitVec 32).toInt) : v.toNat < 100000 := by
  have e0 : (0#32 : BitVec 32).toInt = 0 := by decide
  have e1 : (100000#32 : BitVec 32).toInt = 100000 := by decide
  rw [e0] at h0
  rw [e1] at h1
  have hm : 2 * v.toNat < 2 ^ 32 := BitVec.toInt_pos_iff.1 h0
  have hv : v.toInt = v.toNat := BitVec.toInt_eq_toNat_of_lt hm
  omega

variable [Cert.Pre_finite_inputs.Facts]

/-- THE PRECONDITION DECODED: both float inputs are real everywhere, and every label is the word of a
    natural number below `100000`. -/
theorem decode (x : FVec Ideal Cert.Pre_finite_inputs.S512x512 .f32) (lab : IVec Cert.Pre_finite_inputs.S512 32)
    (w : FVec Ideal Cert.Pre_finite_inputs.S100000x512 .f32)
    (h : Cert.Pre_finite_inputs.fn (F := Ideal) x lab w = fun _ => 1#1) :
    (∃ xr : Fin 512 → Fin 512 → ℝ, ∀ (b : Fin 512) (k : Fin 512), x (ix2 b k) = ((xr b k : ℝ) : EReal))
    ∧ (∃ wr : ℕ → Fin 512 → ℝ, ∀ (j : Fin 100000) (k : Fin 512), w (ix2 j k) = ((wr j.val k : ℝ) : EReal))
    ∧ (∃ yv : Fin 512 → ℕ, (∀ b, yv b < 100000) ∧ ∀ b : Fin 512, lab (ix1 b) = BitVec.ofNat 32 (yv b)) := by
  have e := congrFun h ix0
  dsimp only [Cert.Pre_finite_inputs.fn, Cert.Pre_finite_inputs.fn_part1] at e
  obtain ⟨e123, hl1⟩ := IntOp.andi_eq_one.1 e
  obtain ⟨e12, hl0⟩ := IntOp.andi_eq_one.1 e123
  obtain ⟨hx, hw⟩ := IntOp.andi_eq_one.1 e12
  -- each conjunct is an all-quantified test: read it at one element
  have hxe : ∀ (b : Fin 512) (k : Fin 512), ∃ r : ℝ, x (ix2 b k) = ((r : ℝ) : EReal) := fun b k =>
    real_of_abs_lt _ (Host.reduce_andi_all _ _ _ _ _ hx (ix2 b k))
  have hwe : ∀ (j : Fin 100000) (k : Fin 512), ∃ r : ℝ, w (ix2 j k) = ((r : ℝ) : EReal) := fun j k =>
    real_of_abs_lt _ (Host.reduce_andi_all _ _ _ _ _ hw (ix2 j k))
  have hl0e : ∀ b : Fin 512, (0#32 : BitVec 32).toInt ≤ (lab (ix1 b)).toInt := fun b =>
    IntOp.cmpi_sge.1 (Host.reduce_andi_all _ _ _ _ _ hl0 (ix1 b))
  have hl1e : ∀ b : Fin 512, (lab (ix1 b)).toInt < (100000#32 : BitVec 32).toInt := fun b =>
    IntOp.cmpi_slt.1 (Host.reduce_andi_all _ _ _ _ _ hl1 (ix1 b))
  refine ⟨⟨fun b k => (x (ix2 b k)).toReal, fun b k => ?_⟩,
    ⟨fun n k => if hn : n < 100000 then (w (ix2 (⟨n, hn⟩ : Fin 100000) k)).toReal else 0, fun j k => ?_⟩,
    ⟨fun b => (lab (ix1 b)).toNat, fun b => toNat_lt_of_signed _ (hl0e b) (hl1e b), fun b => ?_⟩⟩
  · obtain ⟨r, hr⟩ := hxe b k
    show x (ix2 b k) = (((x (ix2 b k)).toReal : ℝ) : EReal)
    rw [hr, EReal.toReal_coe]
  · obtain ⟨r, hr⟩ := hwe j k
    have hwr : (if hn : j.val < 100000 then (w (ix2 (⟨j.val, hn⟩ : Fin 100000) k)).toReal else 0)
        = (w (ix2 j k)).toReal := dif_pos j.isLt
    show w (ix2 j k) = (((if hn : j.val < 100000 then (w (ix2 (⟨j.val, hn⟩ : Fin 100000) k)).toReal else 0 : ℝ)) : EReal)
    rw [hwr, hr, EReal.toReal_coe]
  · show lab (ix1 b) = BitVec.ofNat 32 (lab (ix1 b)).toNat
    rw [BitVec.ofNat_toNat, BitVec.setWidth_eq]

end ArcFace.PreFacts

end
-- ==== Proof.KerBlocks.lean ====
/-
  The input windows' blocks as entries of the argument arrays.

  The kernel runs over 50 grid points `t`. At every point the first window is the whole 512×512 input, the second
  window is rows `2000 t … 2000 t + 1999` of the 100000×512 weight, and the third is the 512×1 column of labels
  (the label vector reshaped by the host before the call).
-/
import proofs.«406980_j40630390620832_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The input block at point `t`. -/
abbrev xblk (c : Dev nD) (t : Fin cfg0.N) : Vec F S512x512 .f32 := iblk m c 0 t
/-- The weight tile at point `t`. -/
abbrev wblk (c : Dev nD) (t : Fin cfg0.N) : Vec F S2000x512 .f32 := iblk m c 1 t
/-- The label column at point `t`. -/
abbrev lblk (c : Dev nD) (t : Fin cfg0.N) : Vec F S512x1 .i32 := iblk m c 2 t

/-- The input array. -/
abbrev xarr (c : Dev nD) : Vec F S512x512 .f32 := m ((c : Thread nD τ).loc main_arg0)
/-- The label vector. -/
abbrev larr (c : Dev nD) : Vec F S512 .i32 := m ((c : Thread nD τ).loc main_arg1)
/-- The weight array. -/
abbrev warr (c : Dev nD) : Vec F S100000x512 .f32 := m ((c : Thread nD τ).loc main_arg2)

/-- The first window never moves. -/
theorem index0 : ∀ t : Fin cfg0.N, win0_0.index t (0 : Fin 2) = 0 ∧ win0_0.index t (1 : Fin 2) = 0 :=
  (by decide +kernel : ∀ t : Fin grid0.N, _)

/-- The second window's row-block index is the point's number. -/
theorem index1 : ∀ t : Fin cfg0.N, win0_1.index t (0 : Fin 2) = t.val ∧ win0_1.index t (1 : Fin 2) = 0 :=
  (by decide +kernel : ∀ t : Fin grid0.N, _)

/-- The third window never moves. -/
theorem index2 : ∀ t : Fin cfg0.N, win0_2.index t (0 : Fin 2) = 0 ∧ win0_2.index t (1 : Fin 2) = 0 :=
  (by decide +kernel : ∀ t : Fin grid0.N, _)

/-- The grid's coordinates of point `t` are `(t / 25, t % 25)`, so `25 · first + second = t`. -/
theorem coords_val : ∀ t : Fin cfg0.N, ((grid0.coords t) 0).val * 25 + ((grid0.coords t) 1).val = t.val :=
  (by decide +kernel : ∀ t : Fin grid0.N, _)

/-- The input block is the input. -/
theorem xblk_apply (c : Dev nD) (t : Fin cfg0.N) (b k : Fin 512) :
    xblk m c t (ix2 b k) = xarr m c (ix2 b k) := by
  show ((cfg0.win 0).blk t).view.read (Elt F) (V m c (Pipeline.arrRef spec0 0)) (ix2 b k) = _
  rw [View.read_apply]
  show V m c main_arg0 _ = m ((c : Thread nD τ).loc main_arg0) _
  rw [V_main_arg0]
  congr 1
  funext a
  apply Fin.ext
  match a with
  | ⟨0, _⟩ => show win0_0.index t 0 * 512 + 1 * b.val = b.val; rw [(index0 t).1]; omega
  | ⟨1, _⟩ => show win0_0.index t 1 * 512 + 1 * k.val = k.val; rw [(index0 t).2]; omega

/-- Row `r` of the weight tile at point `t` is row `2000 t + r` of the weight. -/
theorem wblk_apply (c : Dev nD) (t : Fin cfg0.N) (r : Fin 2000) (k : Fin 512) (hj : t.val * 2000 + r.val < 100000) :
    wblk m c t (ix2 r k) = warr m c (ix2 (⟨t.val * 2000 + r.val, hj⟩ : Fin 100000) k) := by
  show ((cfg0.win 1).blk t).view.read (Elt F) (V m c (Pipeline.arrRef spec0 1)) (ix2 r k) = _
  rw [View.read_apply]
  show V m c main_arg2 _ = m ((c : Thread nD τ).loc main_arg2) _
  rw [V_main_arg2]
  congr 1
  funext a
  apply Fin.ext
  match a with
  | ⟨0, _⟩ => show win0_1.index t 0 * 2000 + 1 * r.val = t.val * 2000 + r.val; rw [(index1 t).1]; omega
  | ⟨1, _⟩ => show win0_1.index t 1 * 512 + 1 * k.val = k.val; rw [(index1 t).2]; omega

/-- The label column the host prepares before the call is the label vector reshaped. -/
theorem V_labels (c : Dev nD) :
    (V m c main_v0 : S512x1.Idx → Elt F .i32) = shapeCast S512x1 (larr m c) shapeCasts_S512_S512x1 := by
  dsimp only [V, V0]
  simp only [hostOps0, List.flatten_cons, List.flatten_nil, List.append_nil, List.cons_append, List.nil_append]
  after_results
  rfl

/-- Entry `b` of the label column at any point is label `b`. -/
theorem lblk_apply (c : Dev nD) (t : Fin cfg0.N) (b : Fin 512) :
    lblk m c t (ix2 b (0 : Fin 1)) = larr m c (ix1 b) := by
  show ((cfg0.win 2).blk t).view.read (Elt F) (V m c (Pipeline.arrRef spec0 2)) (ix2 b 0) = _
  rw [View.read_apply]
  show (V m c main_v0 : S512x1.Idx → Elt F .i32) _ = _
  rw [V_labels]
  refine shapeCast_apply _ _ _ (ix1 b) ?_
  rw [Shape.rowMajor_val_one, Shape.rowMajor_val_two]
  show b.val = (win0_2.index t 0 * 512 + 1 * b.val) * 1 + (win0_2.index t 1 * 1 + 1 * 0)
  rw [(index2 t).1, (index2 t).2]
  omega

end Cert.KernelIdeal.Blocks

end
-- ==== Proof.Spec.lean ====
/-
  The mathematics of the ArcFace loss that both programs compute, over the real numbers, one batch row at a time.

  A row of the batch has logits `a j = s · cos(x, w_j)` over the classes `j`, a label `y`, and at the label the
  margin-adjusted logit `φ`. The loss of the row is `log (∑_{j ≠ y} exp (a j) + exp φ) − φ`.

  * The reference subtracts the maximum `M` of the adjusted logits before exponentiating (`refRow`).
  * The kernel streams the classes in 50 tiles of 2000, in two halves of 25 tiles. Per half it keeps a running
    maximum (`runMax`) of the UNADJUSTED logits and a running sum (`runSum`) of `exp (a j − running max)` over the
    classes other than the label, rescaled whenever the maximum grows; it also accumulates the label's cosine
    (`runPick`). The two halves are merged and the label's adjusted term is added at the end (`kerRow`).

  Both are shifts of the same log-sum-exp, which does not depend on the shift.
-/
import Idealize.ShloMosaic.PureOps.Ideal

noncomputable section

namespace ArcFace

open Finset

/-- The Euclidean norm of a row, clamped below by `ε`. -/
def den {n : ℕ} (ε : ℝ) (v : Fin n → ℝ) : ℝ := max (Real.sqrt (∑ k, v k * v k)) ε

/-- The cosine of two rows: the inner product of the rows each divided by its clamped norm. -/
def cosine {n : ℕ} (ε : ℝ) (x w : Fin n → ℝ) : ℝ := ∑ k, (x k / den ε x) * (w k / den ε w)

/-- The additive angular margin on a cosine `c`: `cos(θ + m) = c·cos m − √(1 − c²)·sin m` above the threshold, the
    linear fallback `c − mm` below it. -/
def margin (cm sm th mm c : ℝ) : ℝ := if th < c then c * cm - Real.sqrt (1 - c * c) * sm else c - mm

/-- The largest logit of tile `g` (classes `2000 g … 2000 g + 1999`). -/
def tileMax (a : ℕ → ℝ) (g : ℕ) : ℝ :=
  (Finset.univ : Finset (Fin 2000)).sup' Finset.univ_nonempty (fun r => a (g * 2000 + r.val))

/-- The sum over tile `g`, the label's class left out, of `exp (logit − m)`. -/
def tileSum (a : ℕ → ℝ) (y : ℕ) (m : ℝ) (g : ℕ) : ℝ :=
  ∑ r : Fin 2000, if y = g * 2000 + r.val then 0 else Real.exp (a (g * 2000 + r.val) - m)

/-- The value `c` takes at the label if the label lies in tile `g`, else `0`. -/
def tilePick (c : ℕ → ℝ) (y : ℕ) (g : ℕ) : ℝ :=
  ∑ r : Fin 2000, if y = g * 2000 + r.val then c (g * 2000 + r.val) else 0

/-- The running maximum of half `h` after its tiles `0 … i`. -/
def runMax (a : ℕ → ℝ) (h : ℕ) : ℕ → ℝ
  | 0 => tileMax a (h * 25)
  | i + 1 => max (runMax a h i) (tileMax a (h * 25 + (i + 1)))

/-- The running sum of half `h` after its tiles `0 … i`: the old sum rescaled to the new maximum, plus the new tile's. -/
def runSum (a : ℕ → ℝ) (y : ℕ) (h : ℕ) : ℕ → ℝ
  | 0 => tileSum a y (runMax a h 0) (h * 25)
  | i + 1 => Real.exp (runMax a h i - runMax a h (i + 1)) * runSum a y h i
      + tileSum a y (runMax a h (i + 1)) (h * 25 + (i + 1))

/-- The label's cosine accumulated over the tiles `0 … i` of half `h`. -/
def runPick (c : ℕ → ℝ) (y : ℕ) (h : ℕ) : ℕ → ℝ
  | 0 => tilePick c y (h * 25)
  | i + 1 => runPick c y h i + tilePick c y (h * 25 + (i + 1))

/-- The row's loss as the kernel computes it: the halves merged at the larger maximum, the label's adjusted term
    `exp (φ − max)` added, then `max + log (sum) − φ`. -/
def kerRow (a : ℕ → ℝ) (y : ℕ) (φ : ℝ) : ℝ :=
  (max (runMax a 0 24) (runMax a 1 24)
    + Real.log ((runSum a y 0 24 * Real.exp (runMax a 0 24 - max (runMax a 0 24) (runMax a 1 24))
        + runSum a y 1 24 * Real.exp (runMax a 1 24 - max (runMax a 0 24) (runMax a 1 24)))
      + Real.exp (φ - max (runMax a 0 24) (runMax a 1 24)))) - φ

/-- The adjusted logits: `φ` at the label, `a` elsewhere. -/
def adj (a : ℕ → ℝ) (y : ℕ) (φ : ℝ) (j : ℕ) : ℝ := if y = j then φ else a j

/-- The largest adjusted logit over the 100000 classes. -/
def adjMax (a : ℕ → ℝ) (y : ℕ) (φ : ℝ) : ℝ :=
  (Finset.univ : Finset (Fin 100000)).sup' Finset.univ_nonempty (fun j => adj a y φ j.val)

/-- The row's loss as the reference computes it: minus the log-softmax of the adjusted logits at the label. -/
def refRow (a : ℕ → ℝ) (y : ℕ) (φ : ℝ) : ℝ :=
  -((φ - adjMax a y φ) - Real.log (∑ j : Fin 100000, Real.exp (adj a y φ j.val - adjMax a y φ)))

/-- The batch loss: the mean over the 512 rows of a row loss `row` (the kernel's or the reference's) at the row's
    logits `s · cos(x_b, w_j)`, its label, and the label's margin-adjusted logit `s · margin (cos(x_b, w_y))`. The
    sum starts from `0` and is divided by `512`, as both programs do. -/
def loss (ε s cm sm th mm : ℝ) (xr : Fin 512 → Fin 512 → ℝ) (wr : ℕ → Fin 512 → ℝ) (yv : Fin 512 → ℕ)
    (row : (ℕ → ℝ) → ℕ → ℝ → ℝ) : ℝ :=
  (0 + ∑ b : Fin 512, row (fun j => s * cosine ε (xr b) (wr j)) (yv b)
      (s * margin cm sm th mm (cosine ε (xr b) (wr (yv b))))) / 512

end ArcFace

end
-- ==== Proof.RealMath.lean ====
/-
  Real-number facts about the ArcFace row loss.

  * The clamped norm is positive and dominates the Euclidean norm, so by the Cauchy-Schwarz inequality a cosine has
    square at most one.
  * The running sums are sums of exponentials, hence non-negative, and the arguments of both logarithms are positive.
  * The 50 tiles of 2000 classes, visited as two halves of 25 tiles, enumerate the classes `0 … 99999` once each.
    Hence the label's cosine is picked exactly once, and the streamed sum is the sum over all classes other than the
    label of `exp (a j − M)` at the final maximum `M`.
  * A log-sum-exp does not depend on the shift: `M + log (Z · exp (−M)) = log Z`. Both row losses therefore equal
    `log (∑_{j ≠ y} exp (a j) + exp φ) − φ`.
-/
import proofs.«406980_j40630390620832_2_alg».proof.Proof.Spec

noncomputable section

namespace ArcFace

open Finset

/-! ### Square roots, clamped norms, cosines -/

theorem sqrt_max_zero (x : ℝ) : Real.sqrt (max x 0) = Real.sqrt x := by
  rcases le_total 0 x with h | h
  · rw [max_eq_left h]
  · rw [max_eq_right h, Real.sqrt_zero, Real.sqrt_eq_zero_of_nonpos h]

theorem den_pos {n : ℕ} {ε : ℝ} (hε : 0 < ε) (v : Fin n → ℝ) : 0 < den ε v :=
  lt_max_of_lt_right hε

/-- A row divided by its clamped norm has sum of squares at most one: the clamped norm is at least the Euclidean
    norm, whose square is the sum of squares. -/
theorem normalised_sq_le_one {n : ℕ} {ε : ℝ} (hε : 0 < ε) (v : Fin n → ℝ) :
    ∑ k, (v k / den ε v) ^ 2 ≤ 1 := by
  have hd : 0 < den ε v := den_pos hε v
  have hS : 0 ≤ ∑ k, v k * v k := Finset.sum_nonneg (fun k _ => mul_self_nonneg (v k))
  have hle : Real.sqrt (∑ k, v k * v k) ≤ den ε v := le_max_left _ _
  have hsq : ∑ k, v k * v k ≤ den ε v ^ 2 := by
    calc ∑ k, v k * v k = Real.sqrt (∑ k, v k * v k) ^ 2 := (Real.sq_sqrt hS).symm
      _ ≤ den ε v ^ 2 := pow_le_pow_left₀ (Real.sqrt_nonneg _) hle 2
  have hrw : ∑ k, (v k / den ε v) ^ 2 = (∑ k, v k * v k) / den ε v ^ 2 := by
    rw [Finset.sum_div]
    refine Finset.sum_congr rfl (fun k _ => ?_)
    rw [div_pow, sq (v k)]
  rw [hrw, div_le_one (pow_pos hd 2)]
  exact hsq

theorem cosine_mul_self_le_one {n : ℕ} {ε : ℝ} (hε : 0 < ε) (x w : Fin n → ℝ) :
    cosine ε x w * cosine ε x w ≤ 1 := by
  have h := Finset.sum_mul_sq_le_sq_mul_sq Finset.univ (fun k => x k / den ε x) (fun k => w k / den ε w)
  have hx := normalised_sq_le_one hε x
  have hw := normalised_sq_le_one hε w
  calc cosine ε x w * cosine ε x w = (∑ k, (x k / den ε x) * (w k / den ε w)) ^ 2 := by
        rw [sq]; rfl
    _ ≤ (∑ k, (x k / den ε x) ^ 2) * ∑ k, (w k / den ε w) ^ 2 := h
    _ ≤ 1 * 1 := mul_le_mul hx hw (Finset.sum_nonneg (fun k _ => sq_nonneg _)) zero_le_one
    _ = 1 := one_mul 1

/-! ### Signs -/

theorem tileSum_nonneg (a : ℕ → ℝ) (y : ℕ) (m : ℝ) (g : ℕ) : 0 ≤ tileSum a y m g := by
  unfold tileSum
  refine Finset.sum_nonneg (fun r _ => ?_)
  split_ifs
  · exact le_rfl
  · exact (Real.exp_pos _).le

theorem runSum_nonneg (a : ℕ → ℝ) (y h i : ℕ) : 0 ≤ runSum a y h i := by
  induction i with
  | zero => rw [runSum]; exact tileSum_nonneg _ _ _ _
  | succ i ih =>
    rw [runSum]
    exact add_nonneg (mul_nonneg (Real.exp_pos _).le ih) (tileSum_nonneg _ _ _ _)

theorem ker_log_arg_pos (a : ℕ → ℝ) (y : ℕ) (φ : ℝ) :
    0 < (runSum a y 0 24 * Real.exp (runMax a 0 24 - max (runMax a 0 24) (runMax a 1 24))
        + runSum a y 1 24 * Real.exp (runMax a 1 24 - max (runMax a 0 24) (runMax a 1 24)))
      + Real.exp (φ - max (runMax a 0 24) (runMax a 1 24)) :=
  add_pos_of_nonneg_of_pos
    (add_nonneg (mul_nonneg (runSum_nonneg _ _ _ _) (Real.exp_pos _).le)
      (mul_nonneg (runSum_nonneg _ _ _ _) (Real.exp_pos _).le))
    (Real.exp_pos _)

theorem ref_log_arg_pos (a : ℕ → ℝ) (y : ℕ) (φ : ℝ) :
    0 < ∑ j : Fin 100000, Real.exp (adj a y φ j.val - adjMax a y φ) :=
  Finset.sum_pos (fun j _ => Real.exp_pos _) Finset.univ_nonempty

/-! ### The tiles enumerate the classes -/

/-- `G` consecutive tiles of `n` classes are the first `G * n` classes. -/
theorem sum_tiles (F : ℕ → ℝ) (n G : ℕ) :
    ∑ g ∈ range G, ∑ r : Fin n, F (g * n + r.val) = ∑ j ∈ range (G * n), F j := by
  induction G with
  | zero => simp
  | succ G ih =>
    rw [Finset.sum_range_succ, ih, add_mul, one_mul, Finset.sum_range_add,
      Fin.sum_univ_eq_sum_range (fun r => F (G * n + r)) n]

/-- The two halves of 25 tiles are the 50 tiles. -/
theorem sum_halves (f : ℕ → ℝ) :
    ∑ g ∈ range 25, f (0 * 25 + g) + ∑ g ∈ range 25, f (1 * 25 + g) = ∑ g ∈ range 50, f g := by
  have h : ∑ g ∈ range (25 + 25), f g = ∑ g ∈ range 25, f g + ∑ g ∈ range 25, f (25 + g) :=
    Finset.sum_range_add f 25 25
  simp only [zero_mul, zero_add, one_mul]
  exact h.symm

/-- The 50 tiles of 2000 classes, taken as two halves of 25, are the classes `0 … 99999`. -/
theorem sum_all_tiles (F : ℕ → ℝ) :
    ∑ g ∈ range 25, (∑ r : Fin 2000, F ((0 * 25 + g) * 2000 + r.val))
      + ∑ g ∈ range 25, (∑ r : Fin 2000, F ((1 * 25 + g) * 2000 + r.val))
      = ∑ j ∈ range 100000, F j := by
  rw [sum_halves (fun g => ∑ r : Fin 2000, F (g * 2000 + r.val)), sum_tiles F 2000 50]

/-! ### The label's cosine is picked once -/

theorem runPick_eq (c : ℕ → ℝ) (y h i : ℕ) :
    runPick c y h i = ∑ g ∈ range (i + 1), tilePick c y (h * 25 + g) := by
  induction i with
  | zero => rw [runPick]; simp
  | succ i ih =>
    rw [runPick, ih]
    exact (Finset.sum_range_succ _ (i + 1)).symm

theorem runPick_total (c : ℕ → ℝ) (y : ℕ) (hy : y < 100000) :
    runPick c y 0 24 + runPick c y 1 24 = c y := by
  have h0 : runPick c y 0 24 = ∑ g ∈ range 25, tilePick c y (0 * 25 + g) := runPick_eq c y 0 24
  have h1 : runPick c y 1 24 = ∑ g ∈ range 25, tilePick c y (1 * 25 + g) := runPick_eq c y 1 24
  have hall := sum_all_tiles (fun j => if y = j then c j else 0)
  rw [h0, h1]
  unfold tilePick
  rw [hall, Finset.sum_ite_eq, if_pos (Finset.mem_range.2 hy)]

/-! ### The streamed sum at a common shift -/

/-- Moving a tile's sum from the shift `m` to the shift `M`. -/
theorem tileSum_rescale (a : ℕ → ℝ) (y : ℕ) (m M : ℝ) (g : ℕ) :
    Real.exp (m - M) * tileSum a y m g = tileSum a y M g := by
  unfold tileSum
  rw [Finset.mul_sum]
  refine Finset.sum_congr rfl (fun r _ => ?_)
  split_ifs
  · exact mul_zero _
  · rw [← Real.exp_add]; congr 1; ring

/-- The running sum is the sum of the tiles seen so far, all at the current running maximum. -/
theorem runSum_eq (a : ℕ → ℝ) (y h i : ℕ) :
    runSum a y h i = ∑ g ∈ range (i + 1), tileSum a y (runMax a h i) (h * 25 + g) := by
  induction i with
  | zero => rw [runSum]; simp
  | succ i ih =>
    rw [runSum, ih, Finset.mul_sum, Finset.sum_range_succ _ (i + 1)]
    congr 1
    exact Finset.sum_congr rfl (fun g _ => tileSum_rescale _ _ _ _ _)

/-- The running sum moved to any shift `M`. -/
theorem runSum_shift (a : ℕ → ℝ) (y h i : ℕ) (M : ℝ) :
    runSum a y h i * Real.exp (runMax a h i - M) = ∑ g ∈ range (i + 1), tileSum a y M (h * 25 + g) := by
  rw [runSum_eq, Finset.sum_mul]
  refine Finset.sum_congr rfl (fun g _ => ?_)
  rw [mul_comm]
  exact tileSum_rescale _ _ _ _ _

/-- The two halves merged at a shift `M`: the sum over all classes other than the label. -/
theorem ker_sum_eq (a : ℕ → ℝ) (y : ℕ) (M : ℝ) :
    runSum a y 0 24 * Real.exp (runMax a 0 24 - M) + runSum a y 1 24 * Real.exp (runMax a 1 24 - M)
      = ∑ j ∈ range 100000, if y = j then 0 else Real.exp (a j - M) := by
  have h0 : runSum a y 0 24 * Real.exp (runMax a 0 24 - M)
      = ∑ g ∈ range 25, tileSum a y M (0 * 25 + g) := runSum_shift a y 0 24 M
  have h1 : runSum a y 1 24 * Real.exp (runMax a 1 24 - M)
      = ∑ g ∈ range 25, tileSum a y M (1 * 25 + g) := runSum_shift a y 1 24 M
  have hall := sum_all_tiles (fun j => if y = j then 0 else Real.exp (a j - M))
  rw [h0, h1]
  unfold tileSum
  exact hall

/-- The reference's sum: the label's term split off. -/
theorem ref_sum_eq (a : ℕ → ℝ) (y : ℕ) (hy : y < 100000) (φ A : ℝ) :
    ∑ j : Fin 100000, Real.exp (adj a y φ j.val - A)
      = (∑ j ∈ range 100000, if y = j then 0 else Real.exp (a j - A)) + Real.exp (φ - A) := by
  rw [Fin.sum_univ_eq_sum_range (fun j => Real.exp (adj a y φ j - A)) 100000]
  have hsplit : ∀ j ∈ range 100000, Real.exp (adj a y φ j - A)
      = (if y = j then 0 else Real.exp (a j - A)) + (if y = j then Real.exp (φ - A) else 0) := by
    intro j _
    unfold adj
    split_ifs
    · rw [zero_add]
    · rw [add_zero]
  rw [Finset.sum_congr rfl hsplit, Finset.sum_add_distrib, Finset.sum_ite_eq,
    if_pos (Finset.mem_range.2 hy)]

/-! ### The shift cancels -/

/-- The unshifted sum under the logarithm. -/
def zSum (a : ℕ → ℝ) (y : ℕ) (φ : ℝ) : ℝ :=
  (∑ j ∈ range 100000, if y = j then 0 else Real.exp (a j)) + Real.exp φ

theorem zSum_pos (a : ℕ → ℝ) (y : ℕ) (φ : ℝ) : 0 < zSum a y φ := by
  unfold zSum
  refine add_pos_of_nonneg_of_pos (Finset.sum_nonneg (fun j _ => ?_)) (Real.exp_pos _)
  split_ifs
  · exact le_rfl
  · exact (Real.exp_pos _).le

/-- A log-sum-exp does not depend on the shift. -/
theorem shift_log (a : ℕ → ℝ) (y : ℕ) (φ M : ℝ) :
    M + Real.log ((∑ j ∈ range 100000, if y = j then 0 else Real.exp (a j - M)) + Real.exp (φ - M))
      = Real.log (zSum a y φ) := by
  have hfac : (∑ j ∈ range 100000, if y = j then 0 else Real.exp (a j - M)) + Real.exp (φ - M)
      = zSum a y φ * Real.exp (-M) := by
    have hterm : ∀ j ∈ range 100000, (if y = j then 0 else Real.exp (a j - M))
        = (if y = j then 0 else Real.exp (a j)) * Real.exp (-M) := by
      intro j _
      split_ifs
      · exact (zero_mul _).symm
      · rw [← Real.exp_add, ← sub_eq_add_neg]
    unfold zSum
    rw [add_mul, Finset.sum_mul, ← Real.exp_add, ← sub_eq_add_neg, Finset.sum_congr rfl hterm]
  rw [hfac, Real.log_mul (zSum_pos a y φ).ne' (Real.exp_pos _).ne', Real.log_exp]
  ring

theorem kerRow_eq_refRow (a : ℕ → ℝ) (y : ℕ) (hy : y < 100000) (φ : ℝ) : kerRow a y φ = refRow a y φ := by
  have hk := shift_log a y φ (max (runMax a 0 24) (runMax a 1 24))
  have hr := shift_log a y φ (adjMax a y φ)
  unfold kerRow refRow
  rw [ker_sum_eq, ref_sum_eq a y hy φ]
  linarith

end ArcFace

end
-- ==== Proof.KerPieces.lean ====
/-
  The pieces the per-case runs of the ArcFace kernel body found, read back as payload terms.

  Per grid point the body keeps four scratches between points: the normalised input rows, the running
  row maximum m, the running row sum l and the label's cosine. Each case of the body (first point of a
  row of the grid, a middle point, the last point of a row) leaves in each scratch, and at the last point
  in each output block, the value of ONE covering store; that store's payload is a pure function of the
  blocks loaded and of what the scratches held before. Where a load follows a store to the same scratch
  inside one run of the body, the load reads the stored payload. Everything here holds for any float model.
-/
import proofs.«406980_j40630390620832_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 whole-buffer access, however spelt. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-! ## The first point of a row of the grid (reset, then update) -/

/-- The first point of a row: the scratch of normalised input rows holds the normalised block. -/
theorem sA0 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S2000x512 .f32) (x2 : Vec F S512x1 .i32) :
    sout0_A_0 c i arg2 harg2 arg3 harg3 arg4 harg4 arg5 harg5 arg6 harg6 arg7 harg7 arg8 harg8 arg9 harg9 arg10 harg10 arg11 harg11 hc0 hc1 x0 x1 x2 = k0_pay7 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-- The first point of a row: scratch 1 is reset, then updated; the update's loads read the reset
    values, and the update covers the scratch: the new running maximum over the reset one. -/
theorem sA1 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S2000x512 .f32) (x2 : Vec F S512x1 .i32) :
    sout0_A_1 c i arg2 harg2 arg3 harg3 arg4 harg4 arg5 harg5 arg6 harg6 arg7 harg7 arg8 harg8 arg9 harg9 arg10 harg10 arg11 harg11 hc0 hc1 x0 x1 x2 = k0_pay3 (k0_pay12 x1 (k0_pay7 x0)) k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-- The first point of a row: scratch 2 is reset, then updated; the update's loads read the reset
    values, and the update covers the scratch: the new running sum over the reset one. -/
theorem sA2 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S2000x512 .f32) (x2 : Vec F S512x1 .i32) :
    sout0_A_2 c i arg2 harg2 arg3 harg3 arg4 harg4 arg5 harg5 arg6 harg6 arg7 harg7 arg8 harg8 arg9 harg9 arg10 harg10 arg11 harg11 hc0 hc1 x0 x1 x2 = k0_pay2 (k0_pay12 x1 (k0_pay7 x0)) (k0_pay13 i x2) k0_pay8 k0_pay8 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-- The first point of a row: scratch 3 is reset, then updated; the update's loads read the reset
    values, and the update covers the scratch: the label's cosine over the reset one. -/
theorem sA3 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S2000x512 .f32) (x2 : Vec F S512x1 .i32) :
    sout0_A_3 c i arg2 harg2 arg3 harg3 arg4 harg4 arg5 harg5 arg6 harg6 arg7 harg7 arg8 harg8 arg9 harg9 arg10 harg10 arg11 harg11 hc0 hc1 x0 x1 x2 = k0_pay14 i x1 (k0_pay7 x0) x2 k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S512x1) hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-! ## A middle point (update only) -/

/-- A middle point stores nothing into the scratch of normalised input rows. -/
theorem sB0 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 xs0 xs1 xs2 xs3 = xs0 := rfl

/-- A middle point: what the body leaves in scratch 1 is its one covering store's payload. -/
theorem sB1 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 xs0 xs1 xs2 xs3 = k0_pay3 (k0_pay12 x1 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-- A middle point: what the body leaves in scratch 2 is its one covering store's payload. -/
theorem sB2 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 arg11 harg11 hc0 hc1 x0 x1 x2 xs0 xs1 xs2 xs3 = k0_pay2 (k0_pay12 x1 xs0) (k0_pay13 i x2) xs1 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-- A middle point: what the body leaves in scratch 3 is its one covering store's payload. -/
theorem sB3 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 arg11 harg11 hc0 hc1 x0 x1 x2 xs0 xs1 xs2 xs3 = k0_pay14 i x1 xs0 x2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-! ## The last point of a row (update, then the three outputs) -/

/-- The last point of a row stores nothing into the scratch of normalised input rows. -/
theorem sC0 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 xs0 xs1 xs2 xs3 = xs0 := rfl

/-- The last point of a row: what the body leaves in scratch 1 is its one covering store's payload. -/
theorem sC1 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 xs0 xs1 xs2 xs3 = k0_pay3 (k0_pay12 x1 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-- The last point of a row: what the body leaves in scratch 2 is its one covering store's payload. -/
theorem sC2 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 arg11 harg11 hc0 hc1 x0 x1 x2 xs0 xs1 xs2 xs3 = k0_pay2 (k0_pay12 x1 xs0) (k0_pay13 i x2) xs1 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-- The last point of a row: what the body leaves in scratch 3 is its one covering store's payload. -/
theorem sC3 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 arg11 harg11 hc0 hc1 x0 x1 x2 xs0 xs1 xs2 xs3 = k0_pay14 i x1 xs0 x2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2]

/-- The last point of a row: output block 3 is the reshape of the new running maximum, which the body loads back
    after storing it in the same run. -/
theorem oC3 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    out0_C_3 c i arg2 harg2 arg3 harg3 arg4 harg4 arg5 harg5 arg6 harg6 arg7 harg7 arg8 harg8 arg9 harg9 arg10 harg10 arg11 harg11 hc0 hc1 x0 x1 x2 xs0 xs1 xs2 xs3 = k0_pay4 (k0_pay3 (k0_pay12 x1 xs0) xs1) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-- The last point of a row: output block 4 is the reshape of the new running sum, which the body loads back
    after storing it in the same run. -/
theorem oC4 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 arg11 harg11 hc0 hc1 x0 x1 x2 xs0 xs1 xs2 xs3 = k0_pay5 (k0_pay2 (k0_pay12 x1 xs0) (k0_pay13 i x2) xs1 xs1 xs2) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

/-- The last point of a row: output block 5 is the reshape of the new label cosine, which the body loads back
    after storing it in the same run. -/
theorem oC5 (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x512 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    out0_C_5 c i arg2 harg2 arg3 harg3 arg4 harg4 arg5 harg5 arg6 harg6 arg7 harg7 arg8 harg8 arg9 harg9 arg10 harg10 arg11 harg11 hc0 hc1 x0 x1 x2 xs0 xs1 xs2 xs3 = k0_pay6 (k0_pay14 i x1 xs0 x2 xs3) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero hz3]
  simp only [View.readAt_eq_ld, harg2.read_unread, harg3.read_unread, harg4.read_unread, harg8.read_unread, harg9.read_unread, harg10.read_unread, harg11.read_unread, View.ld_unit_zero (S := S512x1) hz2, View.ld_unit_zero (S := S512x512) hz2, View.ld_unit_zero (S := S2000x512) hz2,
    View.readCov_unit_zero (S := S512x1) _ hz2, View.readCov_unit_zero (S := S512x512) _ hz2]

end Cert.KernelIdeal.Pieces

end
-- ==== Proof.KerPayloadL.lean ====
/- Layout operations and one-axis reductions of a matrix, read at an index given by its coordinates:
   a vector viewed as a column ([a] as [a, 1]), a column broadcast along the rows ([a, 1] to [a, b]),
   and the sum and the maximum of each row of an [a, b] matrix. -/
import Idealize.ShloMosaic.Lib.ValueIdx
import Idealize.ShloMosaic.Lib.Pipeline.Value
import Idealize.ShloMosaic.Lib.ValueLayout
import Idealize.ShloMosaic.PureOps.Ideal.Laws

noncomputable section

namespace ArcFace.KerPayload

open Idealize.ShloMosaic Idealize.ShloMosaic.ValueIdx

/-- A vector of length `a` viewed as an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The index of an `[a, b]` matrix over row `i` with column `k` put back is `(i, k)`. -/
theorem lift_row {a b : ℕ} (h : (⟨2, ![a, b]⟩ : Shape).Reduces [1] ⟨1, ![a]⟩) (i : Fin a) (k : Fin b) :
    h.lift (ix1 i) k = ix2 i k := by
  funext c
  match c with
  | ⟨0, _⟩ => rfl
  | ⟨1, _⟩ => rfl

/-- The sum along the rows of an `[a, b]` matrix of extended reals, at row `i`, is the sum over the
    columns of the row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  exact Finset.sum_congr rfl fun k _ => congrArg src (lift_row h i k)

/-- The maximum along the rows of an `[a, b]` matrix of extended reals, at row `i`, is the maximum,
    folded from `-∞`, of the row's entries. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src _ h hφ hacc (ix1 i)).trans ?_
  refine congrArg (fun f => (Finset.univ : Finset (Fin b)).fold max (Ideal.ofBits .f32 0xFF800000#32) f) ?_
  funext k
  exact congrArg src (lift_row h i k)

end ArcFace.KerPayload

end
-- ==== Proof.KerPayloadA.lean ====
/- The kernel's payload terms that need no matrix product, read at an index at the extended reals: the constant
   columns a half starts from, the three columns copied out at a half's end, the new running maximum, and the
   new running sum. -/
import proofs.«406980_j40630390620832_2_alg».proof.Proof.Gen.KernelIdeal.Skeleton
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.KerPayloadL
import Idealize.ShloMosaic.Lib.ValueIdx
import Idealize.ShloMosaic.Lib.Pipeline.Value
import Idealize.ShloMosaic.Lib.ValueLayout
import Idealize.ShloMosaic.PureOps.Ideal.Laws

noncomputable section

namespace ArcFace.KerPayload

open Idealize.ShloMosaic Idealize.ShloMosaic.ValueIdx Cert.KernelIdeal Cert.KernelIdeal.Gen ArcFace ArcFace.Consts

variable [Cert.KernelIdeal.Facts]

/-! ## The constant columns written when a half starts -/

/-- The running maximum starts at `-∞`. -/
theorem pay8_apply (b : Fin 512) : k0_pay8 (F := Ideal) (ix2 b 0) = (⊥ : EReal) := by
  unfold k0_pay8
  rw [shapeCast_self]
  exact ofBits_neg_inf

/-- The running sum starts at `0`. -/
theorem pay9_apply (b : Fin 512) : k0_pay9 (F := Ideal) (ix2 b 0) = ((0 : ℝ) : EReal) := by
  unfold k0_pay9
  rw [shapeCast_self]
  exact ofBits_zero

/-- The label's cosine starts at `0`. -/
theorem pay10_apply (b : Fin 512) : k0_pay10 (F := Ideal) (ix2 b 0) = ((0 : ℝ) : EReal) := by
  unfold k0_pay10
  rw [shapeCast_self]
  exact ofBits_zero

/-! ## The three columns copied out: a `[512, 1]` column stored as a `[1, 512, 1]` block -/

theorem pay4_apply (v : Vec Ideal S512x1 .f32) (b : Fin 512) :
    k0_pay4 (F := Ideal) v (ix3 (0 : Fin 1) b (0 : Fin 1)) = v (ix2 b 0) := by
  unfold k0_pay4
  exact shapeCast_ab_1ab_apply v _ (0 : Fin 1) b (0 : Fin 1)

theorem pay5_apply (v : Vec Ideal S512x1 .f32) (b : Fin 512) :
    k0_pay5 (F := Ideal) v (ix3 (0 : Fin 1) b (0 : Fin 1)) = v (ix2 b 0) := by
  unfold k0_pay5
  exact shapeCast_ab_1ab_apply v _ (0 : Fin 1) b (0 : Fin 1)

theorem pay6_apply (v : Vec Ideal S512x1 .f32) (b : Fin 512) :
    k0_pay6 (F := Ideal) v (ix3 (0 : Fin 1) b (0 : Fin 1)) = v (ix2 b 0) := by
  unfold k0_pay6
  exact shapeCast_ab_1ab_apply v _ (0 : Fin 1) b (0 : Fin 1)

/-! ## The new running maximum: the old one against the tile's row maximum -/

theorem pay1_apply (v16 : FVec Ideal S512x2000 .f32) (v39 : Vec Ideal S512x1 .f32) (a : Fin 512 → Fin 2000 → ℝ)
    (ha : ∀ b r, v16 (ix2 b r) = ((a b r : ℝ) : EReal)) (b : Fin 512) :
    k0_pay1 (F := Ideal) v16 v39 (ix2 b 0)
      = max (v39 (ix2 b 0)) (((Finset.univ : Finset (Fin 2000)).sup' Finset.univ_nonempty (a b) : ℝ) : EReal) := by
  unfold k0_pay1
  dsimp only
  rw [maximumf_apply]
  refine congrArg (max (v39 (ix2 b 0))) ?_
  refine (shapeCast_a_a1_apply _ _ b 0).trans ?_
  refine (rowMax_apply v16 _ (.inl rfl) rfl b).trans ?_
  rw [ofBits_neg_inf, show (fun k => v16 (ix2 b k)) = fun k => ((a b k : ℝ) : EReal) from funext fun k => ha b k]
  exact Coe.fold_max_coe (n := 1999) (a b)

theorem pay3_apply (v16 : FVec Ideal S512x2000 .f32) (v39 : Vec Ideal S512x1 .f32) (a : Fin 512 → Fin 2000 → ℝ)
    (ha : ∀ b r, v16 (ix2 b r) = ((a b r : ℝ) : EReal)) (b : Fin 512) :
    k0_pay3 (F := Ideal) v16 v39 (ix2 b 0)
      = max (v39 (ix2 b 0)) (((Finset.univ : Finset (Fin 2000)).sup' Finset.univ_nonempty (a b) : ℝ) : EReal) := by
  unfold k0_pay3
  rw [shapeCast_self]
  exact pay1_apply v16 v39 a ha b

/-! ## The new running sum: the old one rescaled to the new maximum, plus the tile's exponentials with the
    label's class left out -/

theorem pay2_apply (v16 : FVec Ideal S512x2000 .f32) (v27 : IVec S512x2000 1) (v39 v41 v49 : Vec Ideal S512x1 .f32)
    (a : Fin 512 → Fin 2000 → ℝ) (p : Fin 512 → Fin 2000 → Prop) [∀ b r, Decidable (p b r)] (mnew : Fin 512 → ℝ)
    (ha : ∀ b r, v16 (ix2 b r) = ((a b r : ℝ) : EReal))
    (hp : ∀ b r, v27 (ix2 b r) = if p b r then 1#1 else 0#1)
    (hnew : ∀ b, k0_pay1 (F := Ideal) v16 v39 (ix2 b 0) = ((mnew b : ℝ) : EReal)) (b : Fin 512) :
    k0_pay2 (F := Ideal) v16 v27 v39 v41 v49 (ix2 b 0)
      = Ideal.exp (v41 (ix2 b 0) - ((mnew b : ℝ) : EReal)) * v49 (ix2 b 0)
        + ((∑ r : Fin 2000, if p b r then 0 else Real.exp (a b r - mnew b) : ℝ) : EReal) := by
  unfold k0_pay2
  rw [shapeCast_self, addf_apply, mulf_apply]
  show Ideal.exp (v41 (ix2 b 0) - k0_pay1 (F := Ideal) v16 v39 (ix2 b 0)) * v49 (ix2 b 0) + _ = _
  rw [hnew b]
  refine congrArg (fun z => Ideal.exp (v41 (ix2 b 0) - ((mnew b : ℝ) : EReal)) * v49 (ix2 b 0) + z) ?_
  refine (shapeCast_a_a1_apply _ _ b 0).trans ?_
  refine (rowSum_apply _ _ (.inl rfl) rfl b).trans ?_
  rw [← Coe.sum_coe]
  refine Finset.sum_congr rfl fun r _ => ?_
  rw [select_apply, hp b r]
  by_cases h : p b r
  · rw [if_pos h, if_pos h, select_one]
    exact ofBits_zero
  · rw [if_neg h, if_neg h, select_zero]
    show Ideal.exp (v16 (ix2 b r) - broadcastTo S512x2000 (k0_pay1 (F := Ideal) v16 v39) _ (ix2 b r)) = _
    rw [broadcastTo_a1_ab_apply, hnew b, ha b r, ← EReal.coe_sub, Coe.exp_coe']

end ArcFace.KerPayload

end
-- ==== Proof.KerPayloadN.lean ====
/- Row normalisation read at an index: for a matrix of real entries, the column of clamped row norms
   `max (√(∑ₖ x²)) ε` is the real `den ε` of each row, and the matrix divided by that column, broadcast
   along the rows, has the real quotients as entries. -/
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.KerPayloadL

noncomputable section

namespace ArcFace.KerPayload

open Idealize.ShloMosaic Idealize.ShloMosaic.ValueIdx ArcFace ArcFace.Consts

/-- A row's clamped norm is positive, because the clamp is. -/
theorem den_pos {m : ℕ} (v : Fin m → ℝ) : 0 < den epsR v := lt_max_of_lt_right epsR_pos

/-- The column of clamped row norms of a matrix with real entries `xr`, at row `i`, is `den ε (xr i)`: the row's sum
    of squares is a nonnegative real, its root the real root, and the maximum with the real `ε` a real maximum. -/
theorem denCol_apply {n m : ℕ} (x : FVec Ideal ⟨2, ![n, m]⟩ .f32) (xr : Fin n → Fin m → ℝ)
    (hx : ∀ i k, x (ix2 i k) = ((xr i k : ℝ) : EReal))
    (h : (⟨2, ![n, m]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (i : Fin n) :
    maximumf (sqrt (shapeCast ⟨2, ![n, 1]⟩ (multiReduction .add [1] ⟨1, ![n]⟩ (mulf x x) 0x00000000#32 h hφ hacc) hc))
        (broadcast ⟨2, ![n, 1]⟩ (FloatOps.ofBits (F := Ideal) .f32 0x2B8CBCCC#32)) (ix2 i (0 : Fin 1))
      = ((den epsR (xr i) : ℝ) : EReal) := by
  have hs : shapeCast ⟨2, ![n, 1]⟩ (multiReduction .add [1] ⟨1, ![n]⟩ (mulf x x) 0x00000000#32 h hφ hacc) hc
        (ix2 i (0 : Fin 1)) = ((∑ k, xr i k * xr i k : ℝ) : EReal) := by
    refine (shapeCast_a_a1_apply _ hc i 0).trans ?_
    refine (rowSum_apply _ h hφ hacc i).trans ?_
    rw [← Coe.sum_coe]
    refine Finset.sum_congr rfl fun k _ => ?_
    rw [mulf_apply, hx i k, ← EReal.coe_mul]
  show max (Ideal.sqrt (shapeCast ⟨2, ![n, 1]⟩ _ hc (ix2 i (0 : Fin 1)))) (Ideal.ofBits .f32 0x2B8CBCCC#32) = _
  rw [hs, ofBits_eps, Coe.sqrt_coe_of_nonneg (Finset.sum_nonneg fun k _ => mul_self_nonneg _), Coe.max_coe]
  rfl

/-- The matrix divided by its column of clamped row norms has, at `(i, k)`, the real quotient `xr i k / den ε (xr i)`:
    the divisor is a nonzero real. -/
theorem normRow_apply {n m : ℕ} (x : FVec Ideal ⟨2, ![n, m]⟩ .f32) (xr : Fin n → Fin m → ℝ)
    (hx : ∀ i k, x (ix2 i k) = ((xr i k : ℝ) : EReal))
    (h : (⟨2, ![n, m]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩)
    (hb : (⟨2, ![n, 1]⟩ : Shape).Broadcasts ⟨2, ![n, m]⟩) (i : Fin n) (k : Fin m) :
    divf x (broadcastTo ⟨2, ![n, m]⟩
        (maximumf (sqrt (shapeCast ⟨2, ![n, 1]⟩ (multiReduction .add [1] ⟨1, ![n]⟩ (mulf x x) 0x00000000#32 h hφ hacc) hc))
          (broadcast ⟨2, ![n, 1]⟩ (FloatOps.ofBits (F := Ideal) .f32 0x2B8CBCCC#32))) hb) (ix2 i k)
      = ((xr i k / den epsR (xr i) : ℝ) : EReal) := by
  rw [divf_apply, broadcastTo_a1_ab_apply, denCol_apply x xr hx h hφ hacc hc i, hx i k]
  exact Coe.div_coe_coe _ _ (ne_of_gt (den_pos _))

end ArcFace.KerPayload

end
-- ==== Proof.KerPayloadB.lean ====
/- The kernel's payload terms read at an index at the extended reals: the normalised input rows kept in the
   scratch, and the mask that marks each row's label among a tile's classes. -/
import proofs.«406980_j40630390620832_2_alg».proof.Proof.Gen.KernelIdeal.Skeleton
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.KerPayloadL
import proofs.«406980_j40630390620832_2_alg».proof.Proof.KerPayloadN
import Idealize.ShloMosaic.Lib.ValueIdx
import Idealize.ShloMosaic.Lib.Pipeline.Value
import Idealize.ShloMosaic.Lib.ValueLayout
import Idealize.ShloMosaic.PureOps.Ideal.Laws

noncomputable section

namespace ArcFace.KerPayload

open Idealize.ShloMosaic Idealize.ShloMosaic.ValueIdx Cert.KernelIdeal Cert.KernelIdeal.Gen ArcFace ArcFace.Consts

variable [Cert.KernelIdeal.Facts]

/-! ## The normalised input rows -/

/-- The scratch of normalised input rows: each entry of `x` divided by its row's clamped norm (the change of
    format is the identity on extended reals). -/
theorem pay7_apply (x0 : Vec Ideal S512x512 .f32) (xr : Fin 512 → Fin 512 → ℝ)
    (hx : ∀ b k, x0 (ix2 b k) = ((xr b k : ℝ) : EReal)) (b k : Fin 512) :
    k0_pay7 (F := Ideal) x0 (ix2 b k) = ((xr b k / den epsR (xr b) : ℝ) : EReal) := by
  unfold k0_pay7
  rw [shapeCast_self, truncf_apply]
  exact normRow_apply x0 xr hx _ (.inl rfl) rfl _ _ b k

/-! ## The label mask of a tile -/

/-- The class number of column `r` of the tile at grid point `(h, c)`, computed in 32-bit words, is the word of the
    natural number `(h · 25 + c) · 2000 + r`: the word of a sum or product is the sum or product of the words. -/
theorem classWord (h c r : ℕ) :
    IntOp.addi (Scalar.muli (Scalar.addi (Scalar.muli (BitVec.ofNat 32 h) 25#32) (BitVec.ofNat 32 c)) 2000#32)
        (BitVec.ofNat 32 r) = BitVec.ofNat 32 ((h * 25 + c) * 2000 + r) := by
  simp only [Scalar.addi, Scalar.muli, IntOp.addi, IntOp.muli]
  rw [BitVec.ofNat_add, BitVec.ofNat_mul, BitVec.ofNat_add, BitVec.ofNat_mul]

/-- Two naturals below `2 ^ 32` have equal 32-bit words exactly when they are equal. -/
theorem cmpi_eq_ofNat (m n : ℕ) (hm : m < 2 ^ 32) (hn : n < 2 ^ 32) :
    IntOp.cmpi .eq (BitVec.ofNat 32 m) (BitVec.ofNat 32 n) = if m = n then 1#1 else 0#1 := by
  unfold IntOp.cmpi
  by_cases h : m = n
  · subst h; simp
  · rw [if_neg h]
    have hne : BitVec.ofNat 32 m ≠ BitVec.ofNat 32 n := fun e => h (by
      have := congrArg BitVec.toNat e
      rwa [BitVec.toNat_ofNat, BitVec.toNat_ofNat, Nat.mod_eq_of_lt hm, Nat.mod_eq_of_lt hn] at this)
    rw [show (BitVec.ofNat 32 m == BitVec.ofNat 32 n) = false from beq_false_of_ne hne]
    rfl

/-- The mask at `(b, r)` says whether row `b`'s label is the class of the tile's column `r`: labels and class
    numbers are below `100000`, so the 32-bit arithmetic does not wrap. -/
theorem pay13_apply (i : grid0.Coords) (x2 : Vec Ideal S512x1 .i32) (yv : Fin 512 → ℕ) (hy : ∀ b, yv b < 100000)
    (hl : ∀ b, x2 (ix2 b 0) = BitVec.ofNat 32 (yv b)) (b : Fin 512) (r : Fin 2000) :
    k0_pay13 (F := Ideal) i x2 (ix2 b r)
      = if yv b = ((i 0).val * 25 + (i 1).val) * 2000 + r.val then 1#1 else 0#1 := by
  have h0 : (i 0).val < 2 := (i 0).isLt
  have h1 : (i 1).val < 25 := (i 1).isLt
  unfold k0_pay13
  show IntOp.cmpi .eq (broadcastTo S512x2000 (shapeCast S512x1 x2 _) _ (ix2 b r))
      (broadcastTo S512x2000 (addi (broadcast S1x2000 _) (iota .tc S1x2000 32 [1] _)) _ (ix2 b r)) = _
  rw [broadcastTo_a1_ab_apply, broadcastTo_1b_ab_apply, shapeCast_self, hl b]
  show IntOp.cmpi .eq _ (IntOp.addi _ (iota .tc S1x2000 32 [1] _ (ix2 (0 : Fin 1) r))) = _
  rw [iota_single_apply, broadcast_apply, classWord]
  exact cmpi_eq_ofNat (yv b) (((i 0).val * 25 + (i 1).val) * 2000 + r.val)
    (by have := hy b; omega) (by have := r.isLt; omega)

end ArcFace.KerPayload

end
-- ==== Proof.KerPayloadC.lean ====
/- The kernel's payload terms built on the matrix product, read at an index at the extended reals: the tile of
   cosines (normalised input rows against normalised weight rows), the tile of logits, and the label's cosine
   accumulated over a tile. -/
import proofs.«406980_j40630390620832_2_alg».proof.Proof.Gen.KernelIdeal.Skeleton
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.KerPayloadL
import proofs.«406980_j40630390620832_2_alg».proof.Proof.KerPayloadN
import proofs.«406980_j40630390620832_2_alg».proof.Proof.KerPayloadB
import Idealize.ShloMosaic.Lib.ValueIdx
import Idealize.ShloMosaic.Lib.Pipeline.Value
import Idealize.ShloMosaic.Lib.ValueLayout
import Idealize.ShloMosaic.PureOps.Ideal.Laws

noncomputable section

namespace ArcFace.KerPayload

open Idealize.ShloMosaic Idealize.ShloMosaic.ValueIdx Cert.KernelIdeal Cert.KernelIdeal.Gen ArcFace ArcFace.Consts

/-! ## The product's operand indices

The product contracts axis 1 of both operands: at the output index `(b, r)` and contraction coordinate `k` the left
operand is read at `(b, k)` and the right one at `(r, k)`. -/

theorem lhs_dot_0 (j : S512x2000.Idx) (q : dot_S512x512_S2000x512_S512x2000_1_1_0_0_n_n.contr.Idx) :
    (dot_S512x512_S2000x512_S512x2000_1_1_0_0_n_n.lhsIdx j q 0).val = (j 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_dot_1 (j : S512x2000.Idx) (q : dot_S512x512_S2000x512_S512x2000_1_1_0_0_n_n.contr.Idx) :
    (dot_S512x512_S2000x512_S512x2000_1_1_0_0_n_n.lhsIdx j q 1).val = (q ⟨0, by decide⟩).val :=
  dot_S512x512_S2000x512_S512x2000_1_1_0_0_n_n.lhsIdx_val_of_single rfl j q
theorem rhs_dot_0 (j : S512x2000.Idx) (q : dot_S512x512_S2000x512_S512x2000_1_1_0_0_n_n.contr.Idx) :
    (dot_S512x512_S2000x512_S512x2000_1_1_0_0_n_n.rhsIdx j q 0).val = (j 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_dot_1 (j : S512x2000.Idx) (q : dot_S512x512_S2000x512_S512x2000_1_1_0_0_n_n.contr.Idx) :
    (dot_S512x512_S2000x512_S512x2000_1_1_0_0_n_n.rhsIdx j q 1).val = (q ⟨0, by decide⟩).val :=
  dot_S512x512_S2000x512_S512x2000_1_1_0_0_n_n.rhsIdx_val_of_single rfl j q

/-- The product into the zero splat, at `(b, r)`: the sum over `k` of left row `b` times right row `r`. -/
theorem matmul_rows_apply (L : FVec Ideal S512x512 .bf16) (R : FVec Ideal S2000x512 .bf16) (b : Fin 512) (r : Fin 2000) :
    matmul dot_S512x512_S2000x512_S512x2000_1_1_0_0_n_n none L R (constant (F := Ideal) S512x2000 .f32 0x00000000#32) (ix2 b r)
      = ∑ k : Fin 512, L (ix2 b k) * R (ix2 r k) := by
  simp only [matmul]
  rw [Ideal.matmul_constant_zero_apply, ← Equiv.sum_comp (contrEquiv1 dot_S512x512_S2000x512_S512x2000_1_1_0_0_n_n 512 rfl rfl).symm]
  refine Finset.sum_congr rfl fun k _ => ?_
  have hk := contrEquiv1_symm_val dot_S512x512_S2000x512_S512x2000_1_1_0_0_n_n 512 rfl rfl k
  have el : dot_S512x512_S2000x512_S512x2000_1_1_0_0_n_n.lhsIdx (ix2 b r) ((contrEquiv1 dot_S512x512_S2000x512_S512x2000_1_1_0_0_n_n 512 rfl rfl).symm k) = ix2 b k := funext fun a => Fin.ext (by
    match a with
    | ⟨0, _⟩ => exact lhs_dot_0 _ _
    | ⟨1, _⟩ => exact (lhs_dot_1 _ _).trans hk)
  have er : dot_S512x512_S2000x512_S512x2000_1_1_0_0_n_n.rhsIdx (ix2 b r) ((contrEquiv1 dot_S512x512_S2000x512_S512x2000_1_1_0_0_n_n 512 rfl rfl).symm k) = ix2 r k := funext fun a => Fin.ext (by
    match a with
    | ⟨0, _⟩ => exact rhs_dot_0 _ _
    | ⟨1, _⟩ => exact (rhs_dot_1 _ _).trans hk)
  rw [el, er]

variable [Cert.KernelIdeal.Facts]

/-! ## The tile of cosines and the tile of logits -/

/-- The cosine of input row `b` and the tile's weight row `r`: the scratch holds the normalised input rows, the
    weight rows are normalised on the spot, and the product of two reals is a real. -/
theorem pay11_apply (x1 : Vec Ideal S2000x512 .f32) (xs0 : Vec Ideal S512x512 .bf16) (wt : Fin 2000 → Fin 512 → ℝ)
    (xq : Fin 512 → Fin 512 → ℝ) (hw : ∀ r k, x1 (ix2 r k) = ((wt r k : ℝ) : EReal))
    (hq : ∀ b k, xs0 (ix2 b k) = ((xq b k / den epsR (xq b) : ℝ) : EReal)) (b : Fin 512) (r : Fin 2000) :
    k0_pay11 (F := Ideal) x1 xs0 (ix2 b r) = ((cosine epsR (xq b) (wt r) : ℝ) : EReal) := by
  unfold k0_pay11
  refine (matmul_rows_apply _ _ b r).trans ?_
  unfold cosine
  rw [← Coe.sum_coe]
  refine Finset.sum_congr rfl fun k _ => ?_
  rw [hq b k, truncf_apply]
  refine (congrArg (fun z => ((xq b k / den epsR (xq b) : ℝ) : EReal) * z)
    (normRow_apply x1 wt hw _ (.inl rfl) rfl _ _ r k)).trans ?_
  exact (EReal.coe_mul _ _).symm

/-- The logits: `120` times the cosines. -/
theorem pay12_apply (x1 : Vec Ideal S2000x512 .f32) (xs0 : Vec Ideal S512x512 .bf16) (wt : Fin 2000 → Fin 512 → ℝ)
    (xq : Fin 512 → Fin 512 → ℝ) (hw : ∀ r k, x1 (ix2 r k) = ((wt r k : ℝ) : EReal))
    (hq : ∀ b k, xs0 (ix2 b k) = ((xq b k / den epsR (xq b) : ℝ) : EReal)) (b : Fin 512) (r : Fin 2000) :
    k0_pay12 (F := Ideal) x1 xs0 (ix2 b r) = ((120 * cosine epsR (xq b) (wt r) : ℝ) : EReal) := by
  unfold k0_pay12
  rw [mulf_apply, broadcast_apply, pay11_apply x1 xs0 wt xq hw hq b r]
  show Ideal.ofBits .f32 0x42F00000#32 * _ = _
  rw [ofBits_scale, ← EReal.coe_mul]

/-! ## The label's cosine -/

/-- The label's cosine after the tile: the carried value plus the tile's cosine at the label's column, if the label
    falls in the tile (every other column adds `0`). -/
theorem pay14_apply (i : grid0.Coords) (x1 : Vec Ideal S2000x512 .f32) (xs0 : Vec Ideal S512x512 .bf16)
    (x2 : Vec Ideal S512x1 .i32) (v32 : Vec Ideal S512x1 .f32) (wt : Fin 2000 → Fin 512 → ℝ)
    (xq : Fin 512 → Fin 512 → ℝ) (hw : ∀ r k, x1 (ix2 r k) = ((wt r k : ℝ) : EReal))
    (hq : ∀ b k, xs0 (ix2 b k) = ((xq b k / den epsR (xq b) : ℝ) : EReal))
    (yv : Fin 512 → ℕ) (hy : ∀ b, yv b < 100000) (hl : ∀ b, x2 (ix2 b 0) = BitVec.ofNat 32 (yv b)) (b : Fin 512) :
    k0_pay14 (F := Ideal) i x1 xs0 x2 v32 (ix2 b 0)
      = v32 (ix2 b 0) + ((∑ r : Fin 2000, if yv b = ((i 0).val * 25 + (i 1).val) * 2000 + r.val
          then cosine epsR (xq b) (wt r) else 0 : ℝ) : EReal) := by
  unfold k0_pay14
  rw [shapeCast_self, addf_apply]
  refine congrArg (fun z => v32 (ix2 b 0) + z) ?_
  refine (shapeCast_a_a1_apply _ _ b 0).trans ?_
  refine (rowSum_apply _ _ (.inl rfl) rfl b).trans ?_
  rw [← Coe.sum_coe]
  refine Finset.sum_congr rfl fun r _ => ?_
  rw [select_apply, pay13_apply i x2 yv hy hl b r, pay11_apply x1 xs0 wt xq hw hq b r]
  by_cases h : yv b = ((i 0).val * 25 + (i 1).val) * 2000 + r.val
  · rw [if_pos h, if_pos h, select_one]
  · rw [if_neg h, if_neg h, select_zero]
    exact ofBits_zero

end ArcFace.KerPayload

end
-- ==== Proof.KerPayload.lean ====
/- The kernel's payload terms read at an index at the extended reals, gathered: the columns and tiles that need no
   matrix product, the normalised input rows and the label mask, and the cosines, the logits and the label's
   cosine built on the product. -/
import proofs.«406980_j40630390620832_2_alg».proof.Proof.KerPayloadA
import proofs.«406980_j40630390620832_2_alg».proof.Proof.KerPayloadB
import proofs.«406980_j40630390620832_2_alg».proof.Proof.KerPayloadC
-- ==== Proof.KerInv.lean ====
/-
  What the kernel's carried scratches hold after each grid point, as real numbers.

  Point `n = 25 h + i` is tile `i` of half `h`. On finite inputs with in-range labels, after point `n` the first
  scratch holds the normalised input rows, and row `b` of the other three holds the running maximum, the running
  sum and the accumulated label cosine of the row's logits `120 · cos(x_b, w_j)` over the tiles `0 … i` of half `h`.
  By induction on the point: a first tile of a half starts afresh, every other tile updates what the point before left.
-/
import proofs.«406980_j40630390620832_2_alg».proof.Proof.KerBlocks
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.RealMath
import proofs.«406980_j40630390620832_2_alg».proof.Proof.KerPieces
import proofs.«406980_j40630390620832_2_alg».proof.Proof.KerPayload

set_option maxRecDepth 16384

noncomputable section

namespace ArcFace.KerInv

open Cert.KernelIdeal Cert.KernelIdeal.Gen Cert.KernelIdeal.Blocks
open Idealize.ShloMosaic Idealize.ShloMosaic.TcCoe Idealize.SL.Sem Idealize.ShloMosaic.ValueIdx
open ArcFace ArcFace.Consts

variable (m : (ℓ : Loc nD τ sig) → Buf (Elt Ideal) ℓ)
variable (xr : Fin 512 → Fin 512 → ℝ) (wr : ℕ → Fin 512 → ℝ) (yv : Fin 512 → ℕ)

/-- The inputs on core `c` are the real arrays `xr`, `wr` and the in-range labels `yv`. -/
structure Inputs (c : Dev nD) : Prop where
  hx : ∀ b k : Fin 512, xarr m c (ix2 b k) = ((xr b k : ℝ) : EReal)
  hw : ∀ (j : Fin 100000) (k : Fin 512), warr m c (ix2 j k) = ((wr j.val k : ℝ) : EReal)
  hy : ∀ b, yv b < 100000
  hl : ∀ b : Fin 512, larr m c (ix1 b) = BitVec.ofNat 32 (yv b)

/-- Row `b`'s cosines against every class. -/
def cs (b : Fin 512) : ℕ → ℝ := fun j => cosine epsR (xr b) (wr j)
/-- Row `b`'s logits. -/
def lg (b : Fin 512) : ℕ → ℝ := fun j => 120 * cosine epsR (xr b) (wr j)

/-- The four scratches after point `n`, for every way of writing `n` as tile `i` of half `h`. -/
structure State (c : Dev nD) (n : ℕ) (hn : n < cfg0.N) : Prop where
  s0 : ∀ b k : Fin 512, (outsAt0 m c n hn).2.2.2.1 (ix2 b k) = ((xr b k / den epsR (xr b) : ℝ) : EReal)
  s1 : ∀ (h i : ℕ), n = h * 25 + i → i < 25 → ∀ b : Fin 512,
    (outsAt0 m c n hn).2.2.2.2.1 (ix2 b (0 : Fin 1)) = ((runMax (lg xr wr b) h i : ℝ) : EReal)
  s2 : ∀ (h i : ℕ), n = h * 25 + i → i < 25 → ∀ b : Fin 512,
    (outsAt0 m c n hn).2.2.2.2.2.1 (ix2 b (0 : Fin 1)) = ((runSum (lg xr wr b) (yv b) h i : ℝ) : EReal)
  s3 : ∀ (h i : ℕ), n = h * 25 + i → i < 25 → ∀ b : Fin 512,
    (outsAt0 m c n hn).2.2.2.2.2.2 (ix2 b (0 : Fin 1)) = ((runPick (cs xr wr b) (yv b) h i : ℝ) : EReal)
  o3 : ∀ h : ℕ, n = h * 25 + 24 → ∀ b : Fin 512,
    (outsAt0 m c n hn).1 (ix3 (0 : Fin 1) b (0 : Fin 1)) = ((runMax (lg xr wr b) h 24 : ℝ) : EReal)
  o4 : ∀ h : ℕ, n = h * 25 + 24 → ∀ b : Fin 512,
    (outsAt0 m c n hn).2.1 (ix3 (0 : Fin 1) b (0 : Fin 1)) = ((runSum (lg xr wr b) (yv b) h 24 : ℝ) : EReal)
  o5 : ∀ h : ℕ, n = h * 25 + 24 → ∀ b : Fin 512,
    (outsAt0 m c n hn).2.2.1 (ix3 (0 : Fin 1) b (0 : Fin 1)) = ((runPick (cs xr wr b) (yv b) h 24 : ℝ) : EReal)

theorem N50 : cfg0.N = 50 := N_0

section Point

variable (c : Dev nD) (I : Inputs m xr wr yv c) (t : Fin cfg0.N) (g : ℕ) (hg : t.val = g)
include I hg

/-- The input block at any point is the real input. -/
theorem hx0 : ∀ b k : Fin 512, xblk m c t (ix2 b k) = ((xr b k : ℝ) : EReal) :=
  fun b k => (xblk_apply m c t b k).trans (I.hx b k)

/-- The weight tile at point `g` is rows `2000 g …` of the real weight. -/
theorem hx1 : ∀ (r : Fin 2000) (k : Fin 512), wblk m c t (ix2 r k) = ((wr (g * 2000 + r.val) k : ℝ) : EReal) := by
  intro r k
  have hN : cfg0.N = 50 := N_0
  have ht : t.val < 50 := by have := t.isLt; omega
  have hr := r.isLt
  subst hg
  exact (wblk_apply m c t r k (by omega)).trans (I.hw ⟨t.val * 2000 + r.val, by omega⟩ k)

/-- The label column at any point is the labels. -/
theorem hx2 : ∀ b : Fin 512, lblk m c t (ix2 b (0 : Fin 1)) = BitVec.ofNat 32 (yv b) :=
  fun b => (lblk_apply m c t b).trans (I.hl b)

/-- The grid coordinates of the point spell its number. -/
theorem hco : ((grid0.coords t) 0).val * 25 + ((grid0.coords t) 1).val = g := (coords_val t).trans hg

end Point

/-- The tile's logits: row `b`, offset `r` of tile `g`. -/
def tl (g : ℕ) (b : Fin 512) (r : Fin 2000) : ℝ := 120 * cosine epsR (xr b) (fun k => wr (g * 2000 + r.val) k)

theorem tl_eq (g : ℕ) (b : Fin 512) (r : Fin 2000) : tl xr wr g b r = lg xr wr b (g * 2000 + r.val) := rfl

theorem tileMax_eq (g : ℕ) (b : Fin 512) :
    (Finset.univ : Finset (Fin 2000)).sup' Finset.univ_nonempty (tl xr wr g b) = tileMax (lg xr wr b) g := rfl

/-- A first tile of a half. -/
theorem state_A (c : Dev nD) (I : Inputs m xr wr yv c) (t : Fin cfg0.N) (h0 : t.val % 25 = 0) :
    State m xr wr yv c t.val t.isLt := by
  have h1 : ¬t.val % 25 = 24 := by omega
  obtain ⟨g, hg⟩ : ∃ g, t.val = g := ⟨_, rfl⟩
  have X0 := hx0 m xr wr yv c I t g hg
  have X1 := hx1 m xr wr yv c I t g hg
  have X2 := hx2 m xr wr yv c I t g hg
  have CO := hco m xr wr yv c I t g hg
  have hq : ∀ b k : Fin 512, k0_pay7 (F := Ideal) (xblk m c t) (ix2 b k) = ((xr b k / den epsR (xr b) : ℝ) : EReal) :=
    fun b k => KerPayload.pay7_apply (xblk m c t) xr X0 b k
  have ha : ∀ (b : Fin 512) (r : Fin 2000), k0_pay12 (F := Ideal) (wblk m c t) (k0_pay7 (xblk m c t)) (ix2 b r)
      = ((tl xr wr g b r : ℝ) : EReal) :=
    fun b r => KerPayload.pay12_apply (wblk m c t) (k0_pay7 (xblk m c t)) (fun r k => wr (g * 2000 + r.val) k) xr X1 hq b r
  have hp : ∀ (b : Fin 512) (r : Fin 2000), k0_pay13 (F := Ideal) (grid0.coords t) (lblk m c t) (ix2 b r)
      = if yv b = g * 2000 + r.val then 1#1 else 0#1 := by
    intro b r
    rw [KerPayload.pay13_apply (grid0.coords t) (lblk m c t) yv I.hy X2 b r, CO]
  have hnew : ∀ b : Fin 512, k0_pay1 (F := Ideal) (k0_pay12 (wblk m c t) (k0_pay7 (xblk m c t))) (k0_pay8 (F := Ideal)) (ix2 b (0 : Fin 1))
      = ((tileMax (lg xr wr b) g : ℝ) : EReal) := by
    intro b
    rw [KerPayload.pay1_apply _ _ (tl xr wr g) ha b, KerPayload.pay8_apply, Coe.max_bot_coe, tileMax_eq]
  refine ⟨?_, ?_, ?_, ?_, fun h e => absurd e (by omega), fun h e => absurd e (by omega), fun h e => absurd e (by omega)⟩
  · intro b k
    rw [outsAt0_A m c t h0 h1]
    dsimp only
    rw [Cert.KernelIdeal.Pieces.sA0]
    exact hq b k
  · intro h i hni hi b
    obtain rfl : i = 0 := by omega
    obtain rfl : g = h * 25 := by omega
    rw [outsAt0_A m c t h0 h1]
    dsimp only
    rw [Cert.KernelIdeal.Pieces.sA1, KerPayload.pay3_apply _ _ (tl xr wr (h * 25)) ha b, KerPayload.pay8_apply, Coe.max_bot_coe, tileMax_eq]
    rfl
  · intro h i hni hi b
    obtain rfl : i = 0 := by omega
    obtain rfl : g = h * 25 := by omega
    rw [outsAt0_A m c t h0 h1]
    dsimp only
    rw [Cert.KernelIdeal.Pieces.sA2,
      KerPayload.pay2_apply _ _ _ _ _ (tl xr wr (h * 25)) (fun b r => yv b = h * 25 * 2000 + r.val) (fun b => tileMax (lg xr wr b) (h * 25)) ha hp hnew b,
      KerPayload.pay8_apply, KerPayload.pay9_apply, Coe.bot_sub_coe, Ideal.exp_bot, zero_mul, zero_add]
    rfl
  · intro h i hni hi b
    obtain rfl : i = 0 := by omega
    obtain rfl : g = h * 25 := by omega
    rw [outsAt0_A m c t h0 h1]
    dsimp only
    rw [Cert.KernelIdeal.Pieces.sA3,
      KerPayload.pay14_apply (grid0.coords t) (wblk m c t) (k0_pay7 (xblk m c t)) (lblk m c t) (k0_pay10 (F := Ideal)) (fun r k => wr (h * 25 * 2000 + r.val) k) xr X1 hq yv I.hy X2 b,
      KerPayload.pay10_apply, CO, ← EReal.coe_add, zero_add]
    rfl

/-- A later tile of a half, over what the point before left. -/
theorem state_BC (c : Dev nD) (I : Inputs m xr wr yv c) (t : Fin cfg0.N) (h0 : ¬t.val % 25 = 0)
    (prev : State m xr wr yv c (t.val - 1) (Nat.lt_of_le_of_lt (Nat.sub_le _ _) t.isLt)) :
    State m xr wr yv c t.val t.isLt := by
  obtain ⟨g, hg⟩ : ∃ g, t.val = g := ⟨_, rfl⟩
  have X1 := hx1 m xr wr yv c I t g hg
  have X2 := hx2 m xr wr yv c I t g hg
  have CO := hco m xr wr yv c I t g hg
  -- what the point before left
  have q0 := prev.s0
  have q1 := prev.s1
  have q2 := prev.s2
  have q3 := prev.s3
  generalize hP : outsAt0 m c (t.val - 1) (Nat.lt_of_le_of_lt (Nat.sub_le _ _) t.isLt) = P at q0 q1 q2 q3
  have ha : ∀ (b : Fin 512) (r : Fin 2000), k0_pay12 (F := Ideal) (wblk m c t) P.2.2.2.1 (ix2 b r) = ((tl xr wr g b r : ℝ) : EReal) :=
    fun b r => KerPayload.pay12_apply (wblk m c t) P.2.2.2.1 (fun r k => wr (g * 2000 + r.val) k) xr X1 q0 b r
  have hp : ∀ (b : Fin 512) (r : Fin 2000), k0_pay13 (F := Ideal) (grid0.coords t) (lblk m c t) (ix2 b r)
      = if yv b = g * 2000 + r.val then 1#1 else 0#1 := by
    intro b r
    rw [KerPayload.pay13_apply (grid0.coords t) (lblk m c t) yv I.hy X2 b r, CO]
  -- the three updated scratches at row b, for tile i' + 1 of half h
  have K1 : ∀ (h i' : ℕ), g = h * 25 + (i' + 1) → i' + 1 < 25 → ∀ b : Fin 512,
      k0_pay3 (F := Ideal) (k0_pay12 (wblk m c t) P.2.2.2.1) P.2.2.2.2.1 (ix2 b (0 : Fin 1))
        = ((runMax (lg xr wr b) h (i' + 1) : ℝ) : EReal) := by
    intro h i' e hi b
    subst e
    rw [KerPayload.pay3_apply _ _ (tl xr wr (h * 25 + (i' + 1))) ha b, q1 h i' (by omega) (by omega) b, Coe.max_coe, tileMax_eq]
    rfl
  have K1' : ∀ (h i' : ℕ), g = h * 25 + (i' + 1) → i' + 1 < 25 → ∀ b : Fin 512,
      k0_pay1 (F := Ideal) (k0_pay12 (wblk m c t) P.2.2.2.1) P.2.2.2.2.1 (ix2 b (0 : Fin 1))
        = ((runMax (lg xr wr b) h (i' + 1) : ℝ) : EReal) := by
    intro h i' e hi b
    subst e
    rw [KerPayload.pay1_apply _ _ (tl xr wr (h * 25 + (i' + 1))) ha b, q1 h i' (by omega) (by omega) b, Coe.max_coe, tileMax_eq]
    rfl
  have K2 : ∀ (h i' : ℕ), g = h * 25 + (i' + 1) → i' + 1 < 25 → ∀ b : Fin 512,
      k0_pay2 (F := Ideal) (k0_pay12 (wblk m c t) P.2.2.2.1) (k0_pay13 (grid0.coords t) (lblk m c t)) P.2.2.2.2.1 P.2.2.2.2.1 P.2.2.2.2.2.1 (ix2 b (0 : Fin 1))
        = ((runSum (lg xr wr b) (yv b) h (i' + 1) : ℝ) : EReal) := by
    intro h i' e hi b
    have hk := K1' h i' e hi
    subst e
    rw [KerPayload.pay2_apply _ _ _ _ _ (tl xr wr (h * 25 + (i' + 1))) (fun b r => yv b = (h * 25 + (i' + 1)) * 2000 + r.val)
        (fun b => runMax (lg xr wr b) h (i' + 1)) ha hp hk b,
      q1 h i' (by omega) (by omega) b, q2 h i' (by omega) (by omega) b,
      ← EReal.coe_sub, Coe.exp_coe', ← EReal.coe_mul, ← EReal.coe_add]
    rfl
  have K3 : ∀ (h i' : ℕ), g = h * 25 + (i' + 1) → i' + 1 < 25 → ∀ b : Fin 512,
      k0_pay14 (F := Ideal) (grid0.coords t) (wblk m c t) P.2.2.2.1 (lblk m c t) P.2.2.2.2.2.2 (ix2 b (0 : Fin 1))
        = ((runPick (cs xr wr b) (yv b) h (i' + 1) : ℝ) : EReal) := by
    intro h i' e hi b
    subst e
    rw [KerPayload.pay14_apply (grid0.coords t) (wblk m c t) P.2.2.2.1 (lblk m c t) P.2.2.2.2.2.2 (fun r k => wr ((h * 25 + (i' + 1)) * 2000 + r.val) k) xr X1 q0 yv I.hy X2 b,
      q3 h i' (by omega) (by omega) b, CO, ← EReal.coe_add]
    rfl
  by_cases h1 : t.val % 25 = 24
  · refine ⟨?_, ?_, ?_, ?_, ?_, ?_, ?_⟩
    · intro b k
      rw [outsAt0_C m c t h0 h1, hP]
      dsimp only
      rw [Cert.KernelIdeal.Pieces.sC0]
      exact q0 b k
    · intro h i hni hi b
      obtain ⟨i', rfl⟩ : ∃ i', i = i' + 1 := ⟨i - 1, by omega⟩
      rw [outsAt0_C m c t h0 h1, hP]
      dsimp only
      rw [Cert.KernelIdeal.Pieces.sC1]
      exact K1 h i' (by omega) hi b
    · intro h i hni hi b
      obtain ⟨i', rfl⟩ : ∃ i', i = i' + 1 := ⟨i - 1, by omega⟩
      rw [outsAt0_C m c t h0 h1, hP]
      dsimp only
      rw [Cert.KernelIdeal.Pieces.sC2]
      exact K2 h i' (by omega) hi b
    · intro h i hni hi b
      obtain ⟨i', rfl⟩ : ∃ i', i = i' + 1 := ⟨i - 1, by omega⟩
      rw [outsAt0_C m c t h0 h1, hP]
      dsimp only
      rw [Cert.KernelIdeal.Pieces.sC3]
      exact K3 h i' (by omega) hi b
    · intro h hn24 b
      rw [outsAt0_C m c t h0 h1, hP]
      dsimp only
      rw [Cert.KernelIdeal.Pieces.oC3, KerPayload.pay4_apply]
      exact K1 h 23 (by omega) (by omega) b
    · intro h hn24 b
      rw [outsAt0_C m c t h0 h1, hP]
      dsimp only
      rw [Cert.KernelIdeal.Pieces.oC4, KerPayload.pay5_apply]
      exact K2 h 23 (by omega) (by omega) b
    · intro h hn24 b
      rw [outsAt0_C m c t h0 h1, hP]
      dsimp only
      rw [Cert.KernelIdeal.Pieces.oC5, KerPayload.pay6_apply]
      exact K3 h 23 (by omega) (by omega) b
  · refine ⟨?_, ?_, ?_, ?_, fun h e => absurd e (by omega), fun h e => absurd e (by omega), fun h e => absurd e (by omega)⟩
    · intro b k
      rw [outsAt0_B m c t h0 h1, hP]
      dsimp only
      rw [Cert.KernelIdeal.Pieces.sB0]
      exact q0 b k
    · intro h i hni hi b
      obtain ⟨i', rfl⟩ : ∃ i', i = i' + 1 := ⟨i - 1, by omega⟩
      rw [outsAt0_B m c t h0 h1, hP]
      dsimp only
      rw [Cert.KernelIdeal.Pieces.sB1]
      exact K1 h i' (by omega) hi b
    · intro h i hni hi b
      obtain ⟨i', rfl⟩ : ∃ i', i = i' + 1 := ⟨i - 1, by omega⟩
      rw [outsAt0_B m c t h0 h1, hP]
      dsimp only
      rw [Cert.KernelIdeal.Pieces.sB2]
      exact K2 h i' (by omega) hi b
    · intro h i hni hi b
      obtain ⟨i', rfl⟩ : ∃ i', i = i' + 1 := ⟨i - 1, by omega⟩
      rw [outsAt0_B m c t h0 h1, hP]
      dsimp only
      rw [Cert.KernelIdeal.Pieces.sB3]
      exact K3 h i' (by omega) hi b

/-- After every point. -/
theorem state_all (c : Dev nD) (I : Inputs m xr wr yv c) : ∀ (n : ℕ) (hn : n < cfg0.N), State m xr wr yv c n hn
  | 0, hn => state_A m xr wr yv c I ⟨0, hn⟩ rfl
  | n + 1, hn => by
    by_cases h0 : (n + 1) % 25 = 0
    · exact state_A m xr wr yv c I ⟨n + 1, hn⟩ h0
    · exact state_BC m xr wr yv c I ⟨n + 1, hn⟩ h0 (state_all c I n (Nat.lt_of_succ_lt hn))

end ArcFace.KerInv

end
-- ==== Proof.KerOut.lean ====
/-
  The kernel's three result arrays after the run.

  Half `h` writes its scratches back once, at its last tile (point `25 h + 24`), into row block `h` of each
  2×512×1 result array; the two blocks tile the array. So entry `(h, b, 0)` of the three arrays is row `b`'s running
  maximum, running sum and accumulated label cosine over all 25 tiles of half `h`.
-/
import proofs.«406980_j40630390620832_2_alg».proof.Proof.KerInv

set_option maxRecDepth 16384

noncomputable section

namespace ArcFace.KerOut

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open ArcFace ArcFace.Consts ArcFace.KerInv

variable (m : (ℓ : Loc nD τ sig) → Buf (Elt Ideal) ℓ)
variable (xr : Fin 512 → Fin 512 → ℝ) (wr : ℕ → Fin 512 → ℝ) (yv : Fin 512 → ℕ)

/-- The result windows' block index at point `t` is the half `t / 25`. -/
theorem index3 : ∀ t : Fin cfg0.N, win0_3.index t (0 : Fin 3) = t.val / 25 ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val / 25 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val / 25 ∧ win0_5.index t (1 : Fin 3) = 0 ∧ win0_5.index t (2 : Fin 3) = 0 :=
  (by decide +kernel : ∀ t : Fin grid0.N, _)

/-- The array of running maxima: entry `(h, b, 0)`. -/
def maxArr : S2x512x1.Idx → EReal := fun i => ((runMax (lg xr wr (i 1)) (i 0).val 24 : ℝ) : EReal)
/-- The array of running sums. -/
def sumArr : S2x512x1.Idx → EReal := fun i => ((runSum (lg xr wr (i 1)) (yv (i 1)) (i 0).val 24 : ℝ) : EReal)
/-- The array of accumulated label cosines. -/
def pickArr : S2x512x1.Idx → EReal := fun i => ((runPick (cs xr wr (i 1)) (yv (i 1)) (i 0).val 24 : ℝ) : EReal)

/-- What a half's last point writes back of the running maxima is its block of `maxArr`. -/
theorem flushed3 (c : Dev nD) (I : Inputs m xr wr yv c) (t : Fin cfg0.N) (hf : (cfg0.win 3).flush t = true) :
    (dats m 0 c).flushed 3 t = ((cfg0.win 3).blk t).view.read (Elt Ideal) (maxArr xr wr) := by
  have h24 : t.val % 25 = 24 := (flush0_3 t).mp hf
  have S := state_all m xr wr yv c I t.val t.isLt
  show (cfg0.win 3).cut (grid0.coords t) ((dats m 0 c).after 3 t) = _
  rw [after0_3]
  funext j
  rw [View.read_apply]
  obtain ⟨u, b, v, rfl⟩ : ∃ (u : Fin 1) (b : Fin 512) (v : Fin 1), j = ix3 u b v := ⟨j 0, j 1, j 2, eq_ix3 j⟩
  obtain rfl : u = 0 := Subsingleton.elim _ _
  obtain rfl : v = 0 := Subsingleton.elim _ _
  have hn : t.val = t.val / 25 * 25 + 24 := by omega
  refine (S.o3 (t.val / 25) hn b).trans ?_
  have e0 : ((((cfg0.win 3).blk t).view.emb (ix3 (0 : Fin 1) b (0 : Fin 1))) 0).val = t.val / 25 := by
    show win0_3.index t 0 * 1 + 1 * 0 = t.val / 25
    rw [(index3 t).1]
    omega
  have e1 : (((cfg0.win 3).blk t).view.emb (ix3 (0 : Fin 1) b (0 : Fin 1))) 1 = b :=
    Fin.ext (by show win0_3.index t 1 * 512 + 1 * b.val = b.val; rw [(index3 t).2.1]; omega)
  show _ = maxArr xr wr _
  unfold maxArr
  rw [e0, e1]

/-- What a half's last point writes back of the running sums is its block of `sumArr`. -/
theorem flushed4 (c : Dev nD) (I : Inputs m xr wr yv c) (t : Fin cfg0.N) (hf : (cfg0.win 4).flush t = true) :
    (dats m 0 c).flushed 4 t = ((cfg0.win 4).blk t).view.read (Elt Ideal) (sumArr xr wr yv) := by
  have h24 : t.val % 25 = 24 := (flush0_4 t).mp hf
  have S := state_all m xr wr yv c I t.val t.isLt
  show (cfg0.win 4).cut (grid0.coords t) ((dats m 0 c).after 4 t) = _
  rw [after0_4]
  funext j
  rw [View.read_apply]
  obtain ⟨u, b, v, rfl⟩ : ∃ (u : Fin 1) (b : Fin 512) (v : Fin 1), j = ix3 u b v := ⟨j 0, j 1, j 2, eq_ix3 j⟩
  obtain rfl : u = 0 := Subsingleton.elim _ _
  obtain rfl : v = 0 := Subsingleton.elim _ _
  have hn : t.val = t.val / 25 * 25 + 24 := by omega
  refine (S.o4 (t.val / 25) hn b).trans ?_
  have e0 : ((((cfg0.win 4).blk t).view.emb (ix3 (0 : Fin 1) b (0 : Fin 1))) 0).val = t.val / 25 := by
    show win0_4.index t 0 * 1 + 1 * 0 = t.val / 25
    rw [(index4 t).1]
    omega
  have e1 : (((cfg0.win 4).blk t).view.emb (ix3 (0 : Fin 1) b (0 : Fin 1))) 1 = b :=
    Fin.ext (by show win0_4.index t 1 * 512 + 1 * b.val = b.val; rw [(index4 t).2.1]; omega)
  show _ = sumArr xr wr yv _
  unfold sumArr
  rw [e0, e1]

/-- What a half's last point writes back of the label cosines is its block of `pickArr`. -/
theorem flushed5 (c : Dev nD) (I : Inputs m xr wr yv c) (t : Fin cfg0.N) (hf : (cfg0.win 5).flush t = true) :
    (dats m 0 c).flushed 5 t = ((cfg0.win 5).blk t).view.read (Elt Ideal) (pickArr xr wr yv) := by
  have h24 : t.val % 25 = 24 := (flush0_5 t).mp hf
  have S := state_all m xr wr yv c I t.val t.isLt
  show (cfg0.win 5).cut (grid0.coords t) ((dats m 0 c).after 5 t) = _
  rw [after0_5]
  funext j
  rw [View.read_apply]
  obtain ⟨u, b, v, rfl⟩ : ∃ (u : Fin 1) (b : Fin 512) (v : Fin 1), j = ix3 u b v := ⟨j 0, j 1, j 2, eq_ix3 j⟩
  obtain rfl : u = 0 := Subsingleton.elim _ _
  obtain rfl : v = 0 := Subsingleton.elim _ _
  have hn : t.val = t.val / 25 * 25 + 24 := by omega
  refine (S.o5 (t.val / 25) hn b).trans ?_
  have e0 : ((((cfg0.win 5).blk t).view.emb (ix3 (0 : Fin 1) b (0 : Fin 1))) 0).val = t.val / 25 := by
    show win0_5.index t 0 * 1 + 1 * 0 = t.val / 25
    rw [(index5 t).1]
    omega
  have e1 : (((cfg0.win 5).blk t).view.emb (ix3 (0 : Fin 1) b (0 : Fin 1))) 1 = b :=
    Fin.ext (by show win0_5.index t 1 * 512 + 1 * b.val = b.val; rw [(index5 t).2.1]; omega)
  show _ = pickArr xr wr yv _
  unfold pickArr
  rw [e0, e1]

/-- Entry `(h, b, 0)` of the running-maximum array lies in the block of half `h`'s last point, which writes back. -/
theorem cover3 (i : S2x512x1.Idx) : ∃ t : Fin cfg0.N, (cfg0.win 3).flush t = true ∧ i ∈ ((cfg0.win 3).blk t).view.set := by
  have h0 : (i 0).val < 2 := (i 0).isLt
  have h1 : (i 1).val < 512 := (i 1).isLt
  have h2 : (i 2).val < 1 := (i 2).isLt
  have hN : cfg0.N = 50 := N_0
  let t : Fin cfg0.N := ⟨(i 0).val * 25 + 24, by rw [hN]; omega⟩
  refine ⟨t, (flush0_3 t).mpr (by show ((i 0).val * 25 + 24) % 25 = 24; omega), ?_⟩
  show i ∈ ((View.whole main_v1_0).slice (win0_3.rect t)).set
  rw [View.set_slice_whole, Rect.mem_set_unit]
  intro a
  obtain ⟨e0, e1, e2⟩ := index3 t
  have e0' : win0_3.index t (0 : Fin 3) = (i 0).val := by rw [e0]; show ((i 0).val * 25 + 24) / 25 = (i 0).val; omega
  match a with
  | ⟨0, _⟩ => show win0_3.index t (0 : Fin 3) * 1 ≤ (i 0).val ∧ (i 0).val < win0_3.index t (0 : Fin 3) * 1 + 1; rw [e0']; omega
  | ⟨1, _⟩ => show win0_3.index t (1 : Fin 3) * 512 ≤ (i 1).val ∧ (i 1).val < win0_3.index t (1 : Fin 3) * 512 + 512; rw [e1]; omega
  | ⟨2, _⟩ => show win0_3.index t (2 : Fin 3) * 1 ≤ (i 2).val ∧ (i 2).val < win0_3.index t (2 : Fin 3) * 1 + 1; rw [e2]; omega

/-- The running-maximum array after the run. -/
theorem final3 (c : Dev nD) (I : Inputs m xr wr yv c) : (dats m 0 c).arrAt 3 cfg0.N = maxArr xr wr :=
  (dats m 0 c).arrAt_eq_of_cover 3 (maxArr xr wr) (flushed3 m xr wr yv c I) cover3

/-- Entry `(h, b, 0)` of the running-sum array lies in the block of half `h`'s last point, which writes back. -/
theorem cover4 (i : S2x512x1.Idx) : ∃ t : Fin cfg0.N, (cfg0.win 4).flush t = true ∧ i ∈ ((cfg0.win 4).blk t).view.set := by
  have h0 : (i 0).val < 2 := (i 0).isLt
  have h1 : (i 1).val < 512 := (i 1).isLt
  have h2 : (i 2).val < 1 := (i 2).isLt
  have hN : cfg0.N = 50 := N_0
  let t : Fin cfg0.N := ⟨(i 0).val * 25 + 24, by rw [hN]; omega⟩
  refine ⟨t, (flush0_4 t).mpr (by show ((i 0).val * 25 + 24) % 25 = 24; omega), ?_⟩
  show i ∈ ((View.whole main_v1_1).slice (win0_4.rect t)).set
  rw [View.set_slice_whole, Rect.mem_set_unit]
  intro a
  obtain ⟨e0, e1, e2⟩ := index4 t
  have e0' : win0_4.index t (0 : Fin 3) = (i 0).val := by rw [e0]; show ((i 0).val * 25 + 24) / 25 = (i 0).val; omega
  match a with
  | ⟨0, _⟩ => show win0_4.index t (0 : Fin 3) * 1 ≤ (i 0).val ∧ (i 0).val < win0_4.index t (0 : Fin 3) * 1 + 1; rw [e0']; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 1 ≤ (i 2).val ∧ (i 2).val < win0_4.index t (2 : Fin 3) * 1 + 1; rw [e2]; omega

/-- The running-sum array after the run. -/
theorem final4 (c : Dev nD) (I : Inputs m xr wr yv c) : (dats m 0 c).arrAt 4 cfg0.N = sumArr xr wr yv :=
  (dats m 0 c).arrAt_eq_of_cover 4 (sumArr xr wr yv) (flushed4 m xr wr yv c I) cover4

/-- Entry `(h, b, 0)` of the label-cosine array lies in the block of half `h`'s last point, which writes back. -/
theorem cover5 (i : S2x512x1.Idx) : ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 1 := (i 2).isLt
  have hN : cfg0.N = 50 := N_0
  let t : Fin cfg0.N := ⟨(i 0).val * 25 + 24, by rw [hN]; omega⟩
  refine ⟨t, (flush0_5 t).mpr (by show ((i 0).val * 25 + 24) % 25 = 24; omega), ?_⟩
  show i ∈ ((View.whole main_v1_2).slice (win0_5.rect t)).set
  rw [View.set_slice_whole, Rect.mem_set_unit]
  intro a
  obtain ⟨e0, e1, e2⟩ := index5 t
  have e0' : win0_5.index t (0 : Fin 3) = (i 0).val := by rw [e0]; show ((i 0).val * 25 + 24) / 25 = (i 0).val; omega
  match a with
  | ⟨0, _⟩ => show win0_5.index t (0 : Fin 3) * 1 ≤ (i 0).val ∧ (i 0).val < win0_5.index t (0 : Fin 3) * 1 + 1; rw [e0']; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 1 ≤ (i 2).val ∧ (i 2).val < win0_5.index t (2 : Fin 3) * 1 + 1; rw [e2]; omega

/-- The label-cosine array after the run. -/
theorem final5 (c : Dev nD) (I : Inputs m xr wr yv c) : (dats m 0 c).arrAt 5 cfg0.N = pickArr xr wr yv :=
  (dats m 0 c).arrAt_eq_of_cover 5 (pickArr xr wr yv) (flushed5 m xr wr yv c I) cover5

end ArcFace.KerOut

end
-- ==== Proof.KerTail.lean ====
/-
  The value of the host lines that follow the kernel call, at the ideal instance.

  The kernel leaves three arrays of shape [2, 512, 1]: for each half h of the classes and each batch row b a running
  maximum m, a running sum l and the label's cosine c (zero in the half that does not hold the label). The host
  merges the halves row by row at the larger maximum,

    m_f = max m0 m1,   l_f = l0 · exp (m0 − m_f) + l1 · exp (m1 − m_f),   c_f = c0 + c1,

  applies the angular margin to the label's cosine,

    φ = if th < c_f then c_f · cos m − √(max (1 − c_f²) 0) · sin m else c_f − mm,

  and takes  nll = m_f + log (l_f + exp (120 · φ − m_f)) − 120 · φ,  whose mean over the 512 rows is the result.
  Over the reals √(max x 0) = √x, since the real square root of a non-positive number is 0; so φ is the
  specification's margin. Every intermediate value is a real number when the kernel's arrays hold reals and the
  argument of the logarithm is positive.
-/
import proofs.«406980_j40630390620832_2_alg».proof.Proof.Gen.KernelIdeal.Launch
import proofs.«406980_j40630390620832_2_alg».proof.Proof.Spec
import proofs.«406980_j40630390620832_2_alg».proof.Proof.Consts
import proofs.«406980_j40630390620832_2_alg».proof.Proof.Coe
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace ArcFace.KerTail

open Idealize.ShloMosaic Idealize.ShloMosaic.ValueIdx Cert.KernelIdeal Cert.KernelIdeal.Gen ArcFace ArcFace.Consts

variable [Cert.KernelIdeal.Facts]

/-! ## Reading the layout operations at a row

Each of the kernel's three result arrays has shape [2, 512, 1]: entry (h, b, 0) belongs to half h and batch row b.
The host takes half h by a slice and reshapes it to a vector over the 512 rows. -/

/-- Half 0 of a [2, 512, 1] array as a vector over the rows. -/
def half0 (X : S2x512x1.Idx → EReal) : S512.Idx → EReal :=
  shapeCast S512 (extractStridedSlice S1x512x1 ![0, 0, 0] X Gen.slices_S2x512x1_S1x512x1_0_0_0) Gen.shapeCasts_S1x512x1_S512

/-- Half 1 of a [2, 512, 1] array as a vector over the rows. -/
def half1 (X : S2x512x1.Idx → EReal) : S512.Idx → EReal :=
  shapeCast S512 (extractStridedSlice S1x512x1 ![1, 0, 0] X Gen.slices_S2x512x1_S1x512x1_1_0_0) Gen.shapeCasts_S1x512x1_S512

theorem half0_apply (X : S2x512x1.Idx → EReal) (b : Fin 512) :
    half0 X (ix1 b) = X (ix3 (0 : Fin 2) b (0 : Fin 1)) := by
  unfold half0
  rw [shapeCast_apply _ _ (ix1 b) (ix3 (0 : Fin 1) b (0 : Fin 1))
        (by rw [Shape.rowMajor_val_three, Shape.rowMajor_val_one]; show (0 * 512 + b.val) * 1 + 0 = b.val; omega),
      extractStridedSlice_apply _ _ _ (ix3 (0 : Fin 1) b (0 : Fin 1)) (ix3 (0 : Fin 2) b (0 : Fin 1))
        (fun a => match a with
          | ⟨0, _⟩ => rfl
          | ⟨1, _⟩ => by show b.val = 0 + b.val; omega
          | ⟨2, _⟩ => rfl)]

theorem half1_apply (X : S2x512x1.Idx → EReal) (b : Fin 512) :
    half1 X (ix1 b) = X (ix3 (1 : Fin 2) b (0 : Fin 1)) := by
  unfold half1
  rw [shapeCast_apply _ _ (ix1 b) (ix3 (0 : Fin 1) b (0 : Fin 1))
        (by rw [Shape.rowMajor_val_three, Shape.rowMajor_val_one]; show (0 * 512 + b.val) * 1 + 0 = b.val; omega),
      extractStridedSlice_apply _ _ _ (ix3 (0 : Fin 1) b (0 : Fin 1)) (ix3 (1 : Fin 2) b (0 : Fin 1))
        (fun a => match a with
          | ⟨0, _⟩ => rfl
          | ⟨1, _⟩ => by show b.val = 0 + b.val; omega
          | ⟨2, _⟩ => rfl)]

/-! ## The three stretches of host operations, as functions of the valuation they start from -/

section Stretches

variable (V : Valuation τ sig (Elt Ideal))

/-- The merged maximum. -/
theorem st1_v14 :
    (StableHlo.after hostOps1 V (Proc.devRef .tc main_v14) : S512.Idx → EReal)
      = fun i => max (half0 (V (Proc.devRef .tc main_v1_0)) i) (half1 (V (Proc.devRef .tc main_v1_0)) i) := by
  dsimp only [hostOps1]
  after_results_simp
  rfl

/-- The merged sum: each half's sum rescaled to the merged maximum. -/
theorem st1_v21 :
    (StableHlo.after hostOps1 V (Proc.devRef .tc main_v21) : S512.Idx → EReal)
      = fun i =>
          half0 (V (Proc.devRef .tc main_v1_1)) i
              * Ideal.exp (half0 (V (Proc.devRef .tc main_v1_0)) i
                  - max (half0 (V (Proc.devRef .tc main_v1_0)) i) (half1 (V (Proc.devRef .tc main_v1_0)) i))
            + half1 (V (Proc.devRef .tc main_v1_1)) i
              * Ideal.exp (half1 (V (Proc.devRef .tc main_v1_0)) i
                  - max (half0 (V (Proc.devRef .tc main_v1_0)) i) (half1 (V (Proc.devRef .tc main_v1_0)) i)) := by
  dsimp only [hostOps1]
  after_results_simp
  rfl

/-- The label's cosine: the sum of the two halves' entries. -/
def cosF : S512.Idx → EReal :=
  fun i => half0 (V (Proc.devRef .tc main_v1_2)) i + half1 (V (Proc.devRef .tc main_v1_2)) i

/-- The margin's branch above the threshold: c · cos m − √(max (1 − c²) 0) · sin m. -/
theorem st1_v33 :
    (StableHlo.after hostOps1 V (Proc.devRef .tc main_v33) : S512.Idx → EReal)
      = fun i =>
          cosF V i * Ideal.ofBits .f32 0x3F7490EF#32
            - Ideal.sqrt (max (Ideal.ofBits .f32 0x3F800000#32 - cosF V i * cosF V i) (Ideal.ofBits .f32 0x00000000#32))
              * Ideal.ofBits .f32 0x3E974E6D#32 := by
  dsimp only [hostOps1]
  after_results_simp
  rfl

/-- The comparison of the cosine with the threshold. -/
theorem st1_v35 :
    (StableHlo.after hostOps1 V (Proc.devRef .tc main_v35) : S512.Idx → BitVec 1)
      = fun i => Ideal.cmp .ogt (cosF V i) (Ideal.ofBits .f32 0xBF7490EF#32) := by
  dsimp only [hostOps1]
  after_results_simp
  rfl

/-- The margin's branch at or below the threshold: c − mm. -/
theorem st1_v37 :
    (StableHlo.after hostOps1 V (Proc.devRef .tc main_v37) : S512.Idx → EReal)
      = fun i => cosF V i - Ideal.ofBits .f32 0x3DB5914F#32 := by
  dsimp only [hostOps1]
  after_results_simp
  rfl

/-- The select chooses between the two branches by the comparison. -/
theorem st2_v38 :
    (StableHlo.after hostOps1_1 V (Proc.devRef .tc main_v38) : S512.Idx → EReal)
      = fun i => Scalar.select ((V (Proc.devRef .tc main_v35) : S512.Idx → BitVec 1) i)
          ((V (Proc.devRef .tc main_v33) : S512.Idx → EReal) i) ((V (Proc.devRef .tc main_v37) : S512.Idx → EReal) i) := by
  dsimp only [hostOps1_1]
  after_results
  rfl

/-- The select leaves the merged maximum as it was. -/
theorem st2_v14 :
    StableHlo.after hostOps1_1 V (Proc.devRef .tc main_v14) = V (Proc.devRef .tc main_v14) := by
  dsimp only [hostOps1_1]
  after_results

/-- The select leaves the merged sum as it was. -/
theorem st2_v21 :
    StableHlo.after hostOps1_1 V (Proc.devRef .tc main_v21) = V (Proc.devRef .tc main_v21) := by
  dsimp only [hostOps1_1]
  after_results

/-- A row's loss from the merged maximum `m`, the merged sum `l` and the margin-adjusted cosine `p`:
    m + log (l + exp (120 p − m)) − 120 p. -/
def nllOf (m l p : S512.Idx → EReal) : S512.Idx → EReal := fun i =>
  (m i + Ideal.log (l i + Ideal.exp (Ideal.ofBits .f32 0x42F00000#32 * p i - m i)))
    - Ideal.ofBits .f32 0x42F00000#32 * p i

/-- The result: the host's sum of the rows' losses from the initial value 0, divided by 512. -/
theorem st3_v48 :
    (StableHlo.after hostOps1_2 V (Proc.devRef .tc main_v48) : S_.Idx → EReal)
      = fun j => Ideal.div
          (Ideal.hostReduceAdd Gen.reducesTo_S512_S_d0
            (nllOf (V (Proc.devRef .tc main_v14)) (V (Proc.devRef .tc main_v21)) (V (Proc.devRef .tc main_v38)))
            (Ideal.ofBits .f32 0x00000000#32) j)
          (Ideal.ofBits .f32 0x44000000#32) := by
  dsimp only [hostOps1_2]
  after_results
  rfl

end Stretches

/-! ## The arithmetic of one row, over the reals -/

/-- The real square root of a non-positive number is 0, so clamping its argument below at 0 changes nothing. -/
private theorem sqrt_max_zero (x : ℝ) : Real.sqrt (max x 0) = Real.sqrt x := by
  rcases le_total x 0 with h | h
  · rw [max_eq_right h, Real.sqrt_zero, Real.sqrt_eq_zero_of_nonpos h]
  · rw [max_eq_left h]

/-- The host's margin on a real cosine is the specification's: above the threshold the clamped root is the root,
    and the select follows the comparison. -/
theorem phi_value (c : ℝ) :
    Scalar.select (Ideal.cmp .ogt ((c : ℝ) : EReal) (Ideal.ofBits .f32 0xBF7490EF#32))
      (((c : ℝ) : EReal) * Ideal.ofBits .f32 0x3F7490EF#32
        - Ideal.sqrt (max (Ideal.ofBits .f32 0x3F800000#32 - ((c : ℝ) : EReal) * ((c : ℝ) : EReal))
            (Ideal.ofBits .f32 0x00000000#32))
          * Ideal.ofBits .f32 0x3E974E6D#32)
      (((c : ℝ) : EReal) - Ideal.ofBits .f32 0x3DB5914F#32)
      = ((margin cmR smR thR mmR c : ℝ) : EReal) := by
  rw [ofBits_th, ofBits_cm, ofBits_one, ofBits_zero, ofBits_sm, ofBits_mm]
  have hs : Ideal.sqrt (max (((1 : ℝ) : EReal) - ((c : ℝ) : EReal) * ((c : ℝ) : EReal)) ((0 : ℝ) : EReal))
      = ((Real.sqrt (1 - c * c) : ℝ) : EReal) := by
    rw [← EReal.coe_mul, ← EReal.coe_sub, Coe.max_coe, Coe.sqrt_coe_of_nonneg (le_max_right _ _), sqrt_max_zero]
  have hc : Ideal.cmp .ogt ((c : ℝ) : EReal) ((thR : ℝ) : EReal) = BitVec.ofBool (decide (thR < c)) := by
    show BitVec.ofBool (decide (((thR : ℝ) : EReal) < ((c : ℝ) : EReal))) = _
    simp only [EReal.coe_lt_coe_iff]
  rw [hs, hc, ← EReal.coe_mul, ← EReal.coe_mul, ← EReal.coe_sub, ← EReal.coe_sub]
  unfold margin
  by_cases h : thR < c
  · rw [if_pos h, decide_eq_true h]; exact select_one _ _
  · rw [if_neg h, decide_eq_false h]; exact select_zero _ _

/-- One row's loss on real data: every operation stays among the reals, the logarithm because its argument is
    positive. -/
theorem row_value (M0 M1 L0 L1 p : ℝ)
    (hpos : 0 < (L0 * Real.exp (M0 - max M0 M1) + L1 * Real.exp (M1 - max M0 M1)) + Real.exp (120 * p - max M0 M1)) :
    (((max M0 M1 : ℝ) : EReal)
        + Ideal.log ((((L0 : ℝ) : EReal) * Ideal.exp (((M0 : ℝ) : EReal) - ((max M0 M1 : ℝ) : EReal))
              + ((L1 : ℝ) : EReal) * Ideal.exp (((M1 : ℝ) : EReal) - ((max M0 M1 : ℝ) : EReal)))
            + Ideal.exp (Ideal.ofBits .f32 0x42F00000#32 * ((p : ℝ) : EReal) - ((max M0 M1 : ℝ) : EReal))))
      - Ideal.ofBits .f32 0x42F00000#32 * ((p : ℝ) : EReal)
    = (((max M0 M1 + Real.log ((L0 * Real.exp (M0 - max M0 M1) + L1 * Real.exp (M1 - max M0 M1))
          + Real.exp (120 * p - max M0 M1))) - 120 * p : ℝ) : EReal) := by
  rw [ofBits_scale]
  simp only [← EReal.coe_sub, ← EReal.coe_mul, ← EReal.coe_add, Coe.exp_coe']
  rw [Coe.log_coe_of_pos hpos]
  simp only [← EReal.coe_sub, ← EReal.coe_add]

/-- The loss of one batch row from the two halves' running maxima `M0`, `M1`, running sums `L0`, `L1` and label
    cosines `C0`, `C1`. -/
def tailRow (M0 M1 L0 L1 C0 C1 : ℝ) : ℝ :=
  (max M0 M1 + Real.log ((L0 * Real.exp (M0 - max M0 M1) + L1 * Real.exp (M1 - max M0 M1)) + Real.exp (120 * margin cmR smR thR mmR (C0 + C1) - max M0 M1))) - 120 * margin cmR smR thR mmR (C0 + C1)

/-- A row's loss read where the three vectors hold the merged maximum, the merged sum and the margin of real data. -/
theorem nllOf_value (m l p : S512.Idx → EReal) (i : S512.Idx) (M0 M1 L0 L1 q : ℝ)
    (hm : m i = ((max M0 M1 : ℝ) : EReal))
    (hl : l i = ((L0 : ℝ) : EReal) * Ideal.exp (((M0 : ℝ) : EReal) - ((max M0 M1 : ℝ) : EReal))
        + ((L1 : ℝ) : EReal) * Ideal.exp (((M1 : ℝ) : EReal) - ((max M0 M1 : ℝ) : EReal)))
    (hp : p i = ((q : ℝ) : EReal))
    (hpos : 0 < (L0 * Real.exp (M0 - max M0 M1) + L1 * Real.exp (M1 - max M0 M1)) + Real.exp (120 * q - max M0 M1)) :
    nllOf m l p i
      = (((max M0 M1 + Real.log ((L0 * Real.exp (M0 - max M0 M1) + L1 * Real.exp (M1 - max M0 M1))
            + Real.exp (120 * q - max M0 M1))) - 120 * q : ℝ) : EReal) := by
  show (m i + Ideal.log (l i + Ideal.exp (Ideal.ofBits .f32 0x42F00000#32 * p i - m i)))
      - Ideal.ofBits .f32 0x42F00000#32 * p i = _
  rw [hm, hl, hp]
  exact row_value _ _ _ _ _ hpos

/-! ## The rows on real data -/

/-- The rows of a vector are its entries at `ix1 b`. -/
private def rowEquiv : Fin 512 ≃ S512.Idx where
  toFun := ix1
  invFun i := i 0
  left_inv _ := rfl
  right_inv i := (eq_ix1 i).symm

section Rows

variable (W : Valuation τ sig (Elt Ideal)) (M L C : Fin 2 → Fin 512 → ℝ)
  (hM : ∀ h b, (W (Proc.devRef .tc main_v1_0) : S2x512x1.Idx → EReal) (ix3 h b (0 : Fin 1)) = ((M h b : ℝ) : EReal))
  (hL : ∀ h b, (W (Proc.devRef .tc main_v1_1) : S2x512x1.Idx → EReal) (ix3 h b (0 : Fin 1)) = ((L h b : ℝ) : EReal))
  (hC : ∀ h b, (W (Proc.devRef .tc main_v1_2) : S2x512x1.Idx → EReal) (ix3 h b (0 : Fin 1)) = ((C h b : ℝ) : EReal))

include hM in
theorem v14_at (b : Fin 512) :
    (StableHlo.after hostOps1 W (Proc.devRef .tc main_v14) : S512.Idx → EReal) (ix1 b)
      = ((max (M 0 b) (M 1 b) : ℝ) : EReal) := by
  refine (congrFun (st1_v14 W) (ix1 b)).trans ?_
  show max (half0 _ (ix1 b)) (half1 _ (ix1 b)) = _
  rw [half0_apply, half1_apply, hM, hM, Coe.max_coe]

include hM hL in
theorem v21_at (b : Fin 512) :
    (StableHlo.after hostOps1 W (Proc.devRef .tc main_v21) : S512.Idx → EReal) (ix1 b)
      = ((L 0 b : ℝ) : EReal) * Ideal.exp (((M 0 b : ℝ) : EReal) - ((max (M 0 b) (M 1 b) : ℝ) : EReal))
        + ((L 1 b : ℝ) : EReal) * Ideal.exp (((M 1 b : ℝ) : EReal) - ((max (M 0 b) (M 1 b) : ℝ) : EReal)) := by
  refine (congrFun (st1_v21 W) (ix1 b)).trans ?_
  show half0 _ (ix1 b) * Ideal.exp (half0 _ (ix1 b) - max (half0 _ (ix1 b)) (half1 _ (ix1 b)))
      + half1 _ (ix1 b) * Ideal.exp (half1 _ (ix1 b) - max (half0 _ (ix1 b)) (half1 _ (ix1 b))) = _
  rw [half0_apply, half1_apply, half0_apply, half1_apply, hM, hM, hL, hL, Coe.max_coe]

include hC in
theorem cosF_at (b : Fin 512) : cosF W (ix1 b) = ((C 0 b + C 1 b : ℝ) : EReal) := by
  show half0 _ (ix1 b) + half1 _ (ix1 b) = _
  rw [half0_apply, half1_apply, hC, hC, ← EReal.coe_add]

include hC in
/-- After the select a row holds the specification's margin of its label cosine. -/
theorem v38_at (b : Fin 512) :
    (StableHlo.after hostOps1_1 (StableHlo.after hostOps1 W) (Proc.devRef .tc main_v38) : S512.Idx → EReal) (ix1 b)
      = ((margin cmR smR thR mmR (C 0 b + C 1 b) : ℝ) : EReal) := by
  refine (congrFun (st2_v38 _) (ix1 b)).trans ?_
  show Scalar.select
      ((StableHlo.after hostOps1 W (Proc.devRef .tc main_v35) : S512.Idx → BitVec 1) (ix1 b))
      ((StableHlo.after hostOps1 W (Proc.devRef .tc main_v33) : S512.Idx → EReal) (ix1 b))
      ((StableHlo.after hostOps1 W (Proc.devRef .tc main_v37) : S512.Idx → EReal) (ix1 b)) = _
  rw [congrFun (st1_v35 W) (ix1 b), congrFun (st1_v33 W) (ix1 b), congrFun (st1_v37 W) (ix1 b)]
  show Scalar.select (Ideal.cmp .ogt (cosF W (ix1 b)) _)
      (cosF W (ix1 b) * _ - Ideal.sqrt (max (_ - cosF W (ix1 b) * cosF W (ix1 b)) _) * _) (cosF W (ix1 b) - _) = _
  rw [cosF_at W C hC b]
  exact phi_value _

end Rows

/-! ## The value of the host lines -/

theorem tail_value (W : Valuation τ sig (Elt Ideal)) (M L C : Fin 2 → Fin 512 → ℝ)
    (hM : ∀ h b, (W (Proc.devRef .tc main_v1_0) : S2x512x1.Idx → EReal) (ix3 h b (0 : Fin 1)) = ((M h b : ℝ) : EReal))
    (hL : ∀ h b, (W (Proc.devRef .tc main_v1_1) : S2x512x1.Idx → EReal) (ix3 h b (0 : Fin 1)) = ((L h b : ℝ) : EReal))
    (hC : ∀ h b, (W (Proc.devRef .tc main_v1_2) : S2x512x1.Idx → EReal) (ix3 h b (0 : Fin 1)) = ((C h b : ℝ) : EReal))
    (hpos : ∀ b, 0 < (L 0 b * Real.exp (M 0 b - max (M 0 b) (M 1 b)) + L 1 b * Real.exp (M 1 b - max (M 0 b) (M 1 b)))
        + Real.exp (120 * margin cmR smR thR mmR (C 0 b + C 1 b) - max (M 0 b) (M 1 b))) :
    (StableHlo.after (List.flatten [hostOps1, hostOps1_1, hostOps1_2]) W (Proc.devRef .tc main_v48) : S_.Idx → EReal)
      = fun _ => (((0 + ∑ b : Fin 512, tailRow (M 0 b) (M 1 b) (L 0 b) (L 1 b) (C 0 b) (C 1 b)) / 512 : ℝ) : EReal) := by
  have e : StableHlo.after (List.flatten [hostOps1, hostOps1_1, hostOps1_2]) W
      = StableHlo.after hostOps1_2 (StableHlo.after hostOps1_1 (StableHlo.after hostOps1 W)) := by
    rw [List.flatten_cons, List.flatten_cons, List.flatten_cons, List.flatten_nil, List.append_nil,
      StableHlo.after_append, StableHlo.after_append]
  rw [e]
  refine (st3_v48 _).trans ?_
  funext j
  have hrow : ∀ b : Fin 512,
      nllOf (StableHlo.after hostOps1_1 (StableHlo.after hostOps1 W) (Proc.devRef .tc main_v14))
          (StableHlo.after hostOps1_1 (StableHlo.after hostOps1 W) (Proc.devRef .tc main_v21))
          (StableHlo.after hostOps1_1 (StableHlo.after hostOps1 W) (Proc.devRef .tc main_v38)) (ix1 b)
        = ((tailRow (M 0 b) (M 1 b) (L 0 b) (L 1 b) (C 0 b) (C 1 b) : ℝ) : EReal) := by
    intro b
    unfold tailRow
    refine nllOf_value _ _ _ (ix1 b) (M 0 b) (M 1 b) (L 0 b) (L 1 b) _ ?_ ?_ ?_ (hpos b)
    · rw [st2_v14]; exact v14_at W M hM b
    · rw [st2_v21]; exact v21_at W M L hM hL b
    · exact v38_at W C hC b
  show Ideal.div (Ideal.hostReduceAdd _ _ _ j) _ = _
  rw [Ideal.hostReduceAdd_total _ (fun a => a.elim0), ← Equiv.sum_comp rowEquiv]
  show Ideal.div (_ + ∑ b : Fin 512, nllOf _ _ _ (ix1 b)) _ = _
  simp only [hrow]
  rw [Coe.sum_coe, ofBits_zero, ← EReal.coe_add, ofBits_512, Coe.div_coe_coe _ _ (by norm_num)]

end ArcFace.KerTail
end
-- ==== Proof.KerRun.lean ====
/-
  The kernel program's result as a real number.

  After the grid run the three result arrays hold, per half and row, the running maximum, the running sum and the
  accumulated label cosine over the half's 25 tiles. The host lines after the call merge the two halves, put back the
  label's margin-adjusted term and average the rows: the result is the batch mean of the rows' losses as the kernel
  computes them. The label's cosine over both halves is the cosine at the label, because the label lies in exactly one
  tile.
-/
import proofs.«406980_j40630390620832_2_alg».proof.Proof.KerOut
import proofs.«406980_j40630390620832_2_alg».proof.Proof.KerTail

set_option maxRecDepth 16384

noncomputable section

namespace ArcFace.KerRun

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open ArcFace ArcFace.Consts ArcFace.KerInv ArcFace.KerOut

variable (m : (ℓ : Loc nD τ sig) → Buf (Elt Ideal) ℓ)
variable (xr : Fin 512 → Fin 512 → ℝ) (wr : ℕ → Fin 512 → ℝ) (yv : Fin 512 → ℕ)

/-- A row's loss from the merged halves is the kernel's row loss of Spec: the two halves' label cosines add up to the
    cosine at the label. -/
theorem tailRow_eq (hy : ∀ b, yv b < 100000) (b : Fin 512) :
    KerTail.tailRow (runMax (lg xr wr b) 0 24) (runMax (lg xr wr b) 1 24)
        (runSum (lg xr wr b) (yv b) 0 24) (runSum (lg xr wr b) (yv b) 1 24)
        (runPick (cs xr wr b) (yv b) 0 24) (runPick (cs xr wr b) (yv b) 1 24)
      = kerRow (fun j => 120 * cosine epsR (xr b) (wr j)) (yv b)
          (120 * margin cmR smR thR mmR (cosine epsR (xr b) (wr (yv b)))) := by
  unfold KerTail.tailRow kerRow
  rw [runPick_total (cs xr wr b) (yv b) (hy b)]
  rfl

/-- The scalar the host lines after the call compute from the three result arrays. -/
theorem ker_value (c : Dev nD) (I : Inputs m xr wr yv c) :
    (Pipeline.afterTail₀ cfgs (dats m) 0 (V0 m) [hostOps1, hostOps1_1, hostOps1_2] c main_v48 : S_.Idx → EReal)
      = fun _ => ((loss epsR 120 cmR smR thR mmR xr wr yv kerRow : ℝ) : EReal) := by
  unfold Pipeline.afterTail₀
  have hM : ∀ (h : Fin 2) (b : Fin 512),
      (Pipeline.withArrays spec0 c (V0 m c) (fun w => (dats m 0 c).arrAt w cfg0.N) (Proc.devRef .tc main_v1_0) : S2x512x1.Idx → EReal) (ix3 h b (0 : Fin 1))
        = ((runMax (lg xr wr b) h.val 24 : ℝ) : EReal) := by
    intro h b
    have e := (Pipeline.withArrays_arr spec0 launch0.win.arr_inj c (V0 m c) (fun w => (dats m 0 c).arrAt w cfg0.N) 3).trans (final3 m xr wr yv c I)
    exact congrFun e (ix3 h b 0)
  have hL : ∀ (h : Fin 2) (b : Fin 512),
      (Pipeline.withArrays spec0 c (V0 m c) (fun w => (dats m 0 c).arrAt w cfg0.N) (Proc.devRef .tc main_v1_1) : S2x512x1.Idx → EReal) (ix3 h b (0 : Fin 1))
        = ((runSum (lg xr wr b) (yv b) h.val 24 : ℝ) : EReal) := by
    intro h b
    have e := (Pipeline.withArrays_arr spec0 launch0.win.arr_inj c (V0 m c) (fun w => (dats m 0 c).arrAt w cfg0.N) 4).trans (final4 m xr wr yv c I)
    exact congrFun e (ix3 h b 0)
  have hC : ∀ (h : Fin 2) (b : Fin 512),
      (Pipeline.withArrays spec0 c (V0 m c) (fun w => (dats m 0 c).arrAt w cfg0.N) (Proc.devRef .tc main_v1_2) : S2x512x1.Idx → EReal) (ix3 h b (0 : Fin 1))
        = ((runPick (cs xr wr b) (yv b) h.val 24 : ℝ) : EReal) := by
    intro h b
    have e := (Pipeline.withArrays_arr spec0 launch0.win.arr_inj c (V0 m c) (fun w => (dats m 0 c).arrAt w cfg0.N) 5).trans (final5 m xr wr yv c I)
    exact congrFun e (ix3 h b 0)
  rw [KerTail.tail_value _ (fun h b => runMax (lg xr wr b) h.val 24) (fun h b => runSum (lg xr wr b) (yv b) h.val 24)
      (fun h b => runPick (cs xr wr b) (yv b) h.val 24) hM hL hC
      (fun b => ker_log_arg_pos (lg xr wr b) (yv b) (120 * margin cmR smR thR mmR (runPick (cs xr wr b) (yv b) 0 24 + runPick (cs xr wr b) (yv b) 1 24)))]
  funext _
  unfold loss
  refine congrArg (fun s : ℝ => (((0 + s) / 512 : ℝ) : EReal)) (Finset.sum_congr rfl fun b _ => ?_)
  exact tailRow_eq xr wr yv I.hy b

/-- The kernel program runs to completion with, on each core, its result at the batch mean of the kernel's row
    losses of that core's inputs, and its arguments unchanged. -/
theorem ker_run (ρ : Dev nD → PrngReg) (xs : Dev nD → Fin 512 → Fin 512 → ℝ) (ws : Dev nD → ℕ → Fin 512 → ℝ)
    (ys : Dev nD → Fin 512 → ℕ) (hI : ∀ c, Inputs m (xs c) (ws c) (ys c) c) :
    θ_run defs (onTc (τ := τ) (main (F := Ideal))) ⟨m, fun _ => 0, ρ⟩ (fun r => ∀ c : Dev nD,
      r.2.mem ((c.tc : Thread nD τ).loc main_v48) = (fun _ => ((loss epsR 120 cmR smR thR mmR (xs c) (ws c) (ys c) kerRow : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v48 (Pipeline.mem_restRefs_of main_v48 (by decide) (by decide))).trans (ker_value m (xs c) (ws c) (ys c) c (hI c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c)))⟩) (run_main m ρ)

end ArcFace.KerRun

end
-- ==== Proof.RefValueA.lean ====
/-
  The reference's first stretch as real numbers: each input row divided by its Euclidean norm clamped below by eps, and
  the product of the normalised batch rows with the normalised class rows, which at batch row b and class j is the
  cosine of the two rows.
-/
import proofs.«406980_j40630390620832_2_alg».proof.Proof.RefRead
import proofs.«406980_j40630390620832_2_alg».proof.Proof.Spec
import proofs.«406980_j40630390620832_2_alg».proof.Proof.Consts
import proofs.«406980_j40630390620832_2_alg».proof.Proof.Coe
import proofs.«406980_j40630390620832_2_alg».proof.Proof.RealMath

noncomputable section

namespace ArcFace.RefValue

open Cert.ReferenceIdeal Cert.ReferenceIdeal.Read ArcFace ArcFace.Consts ArcFace.Coe Idealize.ShloMosaic Idealize.ShloMosaic.ValueIdx

open scoped BigOperators

variable [Cert.ReferenceIdeal.Facts]

/-- The clamped norm of a real row: the root of the sum of squares started from the zero word, then the maximum with
    the eps word. -/
theorem norm_coe {n : ℕ} (v : Fin n → ℝ) :
    max (Ideal.sqrt (Ideal.ofBits .f32 0x00000000#32 + ∑ k, ((v k : ℝ) : EReal) * ((v k : ℝ) : EReal)))
        (Ideal.ofBits .f32 0x2B8CBCCC#32)
      = ((den epsR v : ℝ) : EReal) := by
  have hs : (0 : ℝ) ≤ ∑ k, v k * v k := Finset.sum_nonneg (fun k _ => mul_self_nonneg (v k))
  rw [ofBits_zero, ofBits_eps]
  simp only [← EReal.coe_mul]
  rw [sum_coe, ← EReal.coe_add, zero_add, sqrt_coe_of_nonneg hs, max_coe]
  rfl

/-- The clamped norm of batch row b. -/
theorem xnorm_row (x : (⟨S512x512, .f32⟩ : BufTy).Contents (Elt Ideal)) (xr : Fin 512 → Fin 512 → ℝ)
    (hx : ∀ b k : Fin 512, x (ix2 b k) = ((xr b k : ℝ) : EReal)) (b : Fin 512) :
    val_main_v2 (F := Ideal) x (ix2 b 0) = ((den epsR (xr b) : ℝ) : EReal) := by
  rw [val_main_v2_apply, val_main_v0_apply, val_main_call0_v2_apply, val_main_call0_v1_apply, val_main_v1_apply,
    val_main_cst_apply, val_main_call0_cst_apply]
  have e : ∀ k : Fin 512, idx_main_call0_v1 (idx_main_call0_v2 (ix2 b (0 : Fin 1))) k = ix2 b k := fun k =>
    funext fun a => match a with | ⟨0, _⟩ => rfl | ⟨1, _⟩ => rfl
  simp only [val_main_call0_v0_apply, e, hx, Ideal.mulf_def, Ideal.ofBits_def, Ideal.hostUnary_sqrt_def, Ideal.maximumf_def]
  exact norm_coe (xr b)

/-- Batch row b divided by its clamped norm. -/
theorem xn_apply (x : (⟨S512x512, .f32⟩ : BufTy).Contents (Elt Ideal)) (xr : Fin 512 → Fin 512 → ℝ)
    (hx : ∀ b k : Fin 512, x (ix2 b k) = ((xr b k : ℝ) : EReal)) (b k : Fin 512) :
    val_main_v4 (F := Ideal) x (ix2 b k) = ((xr b k / den epsR (xr b) : ℝ) : EReal) := by
  rw [val_main_v4_apply, val_main_v3_apply]
  have e : idx_main_v3 (ix2 b k) = ix2 b (0 : Fin 1) :=
    funext fun a => match a with | ⟨0, _⟩ => rfl | ⟨1, _⟩ => rfl
  rw [e, xnorm_row x xr hx b, hx, Ideal.hostDivf_def, div_coe_coe _ _ (den_pos epsR_pos (xr b)).ne']

/-- The clamped norm of class row j. -/
theorem wnorm_row (w : (⟨S100000x512, .f32⟩ : BufTy).Contents (Elt Ideal)) (wr : ℕ → Fin 512 → ℝ)
    (hw : ∀ (j : Fin 100000) (k : Fin 512), w (ix2 j k) = ((wr j.val k : ℝ) : EReal)) (j : Fin 100000) :
    val_main_v7 (F := Ideal) w (ix2 j 0) = ((den epsR (wr j.val) : ℝ) : EReal) := by
  rw [val_main_v7_apply, val_main_v5_apply, val_main_call1_v2_apply, val_main_call1_v1_apply, val_main_v6_apply,
    val_main_cst_0_apply, val_main_call1_cst_apply]
  have e : ∀ k : Fin 512, idx_main_call1_v1 (idx_main_call1_v2 (ix2 j (0 : Fin 1))) k = ix2 j k := fun k =>
    funext fun a => match a with | ⟨0, _⟩ => rfl | ⟨1, _⟩ => rfl
  simp only [val_main_call1_v0_apply, e, hw, Ideal.mulf_def, Ideal.ofBits_def, Ideal.hostUnary_sqrt_def, Ideal.maximumf_def]
  exact norm_coe (wr j.val)

/-- Class row j divided by its clamped norm. -/
theorem wn_apply (w : (⟨S100000x512, .f32⟩ : BufTy).Contents (Elt Ideal)) (wr : ℕ → Fin 512 → ℝ)
    (hw : ∀ (j : Fin 100000) (k : Fin 512), w (ix2 j k) = ((wr j.val k : ℝ) : EReal)) (j : Fin 100000) (k : Fin 512) :
    val_main_v9 (F := Ideal) w (ix2 j k) = ((wr j.val k / den epsR (wr j.val) : ℝ) : EReal) := by
  rw [val_main_v9_apply, val_main_v8_apply]
  have e : idx_main_v8 (ix2 j k) = ix2 j (0 : Fin 1) :=
    funext fun a => match a with | ⟨0, _⟩ => rfl | ⟨1, _⟩ => rfl
  rw [e, wnorm_row w wr hw j, hw, Ideal.hostDivf_def, div_coe_coe _ _ (den_pos epsR_pos (wr j.val)).ne']

/-- THE COSINE: the product of the normalised batch rows with the normalised class rows, at batch row b and class j. -/
theorem cos_apply (x : (⟨S512x512, .f32⟩ : BufTy).Contents (Elt Ideal)) (w : (⟨S100000x512, .f32⟩ : BufTy).Contents (Elt Ideal))
    (xr : Fin 512 → Fin 512 → ℝ) (wr : ℕ → Fin 512 → ℝ)
    (hx : ∀ b k : Fin 512, x (ix2 b k) = ((xr b k : ℝ) : EReal))
    (hw : ∀ (j : Fin 100000) (k : Fin 512), w (ix2 j k) = ((wr j.val k : ℝ) : EReal)) (b : Fin 512) (j : Fin 100000) :
    val_main_v11 (F := Ideal) x w (ix2 b j) = ((cosine epsR (xr b) (wr j.val) : ℝ) : EReal) := by
  rw [val_main_v11_apply]
  have el : ∀ k : Fin 512, lidx_main_v11 (ix2 b j) k = ix2 b k := fun k =>
    funext fun a => match a with | ⟨0, _⟩ => rfl | ⟨1, _⟩ => rfl
  have er : ∀ k : Fin 512, idx_main_v10 (ridx_main_v11 (ix2 b j) k) = ix2 j k := fun k =>
    funext fun a => match a with | ⟨0, _⟩ => rfl | ⟨1, _⟩ => rfl
  simp only [val_main_v10_apply, el, er, xn_apply x xr hx, wn_apply w wr hw, ← EReal.coe_mul]
  rw [sum_coe]
  rfl

end ArcFace.RefValue

end
-- ==== Proof.RefValueB.lean ====
/-
  The reference's second stretch as real numbers: the sine from the cosine, the angular margin with its threshold
  select, the one-hot row of the label, and the blend of the two scaled by 120: at batch row b and class j the
  adjusted logit, 120 times the margin of the cosine at the label's class and 120 times the cosine elsewhere.
-/
import proofs.«406980_j40630390620832_2_alg».proof.Proof.RefValueA

noncomputable section

namespace ArcFace.RefValue

open Cert.ReferenceIdeal Cert.ReferenceIdeal.Read ArcFace ArcFace.Consts ArcFace.Coe Idealize.ShloMosaic Idealize.ShloMosaic.ValueIdx

open scoped BigOperators

variable [Cert.ReferenceIdeal.Facts]

/-- The logits of batch row b: 120 times its cosines with the class rows. -/
abbrev logit (xr : Fin 512 → Fin 512 → ℝ) (wr : ℕ → Fin 512 → ℝ) (b : Fin 512) : ℕ → ℝ :=
  fun j => 120 * cosine epsR (xr b) (wr j)

/-- The margin-adjusted logit of batch row b at its label. -/
abbrev phiAt (xr : Fin 512 → Fin 512 → ℝ) (wr : ℕ → Fin 512 → ℝ) (yv : Fin 512 → ℕ) (b : Fin 512) : ℝ :=
  120 * margin cmR smR thR mmR (cosine epsR (xr b) (wr (yv b)))

/-- The ordered "greater than" of two reals is the bit of the reversed strict inequality. -/
theorem cmpf_ogt_coe (a c : ℝ) :
    FloatOps.cmpf (F := Ideal) (φ := .f32) .ogt ((a : ℝ) : EReal) ((c : ℝ) : EReal) = if c < a then 1#1 else 0#1 := by
  show BitVec.ofBool (decide (((c : ℝ) : EReal) < ((a : ℝ) : EReal))) = _
  by_cases h : c < a
  · rw [if_pos h, decide_eq_true (EReal.coe_lt_coe_iff.mpr h)]; rfl
  · rw [if_neg h, decide_eq_false (fun h' => h (EReal.coe_lt_coe_iff.mp h'))]; rfl

/-- Two words of naturals below 100000 are equal exactly when the naturals are. -/
theorem cmpi_eq_ofNat (a c : ℕ) (ha : a < 100000) (hc : c < 100000) :
    IntOp.cmpi .eq (BitVec.ofNat 32 a) (BitVec.ofNat 32 c) = if a = c then 1#1 else 0#1 := by
  show BitVec.ofBool (BitVec.ofNat 32 a == BitVec.ofNat 32 c) = _
  by_cases h : a = c
  · subst h; rw [if_pos rfl, beq_self_eq_true]; rfl
  · rw [if_neg h]
    have hne : BitVec.ofNat 32 a ≠ BitVec.ofNat 32 c := by
      intro e
      have e' := congrArg BitVec.toNat e
      simp only [BitVec.toNat_ofNat] at e'
      rw [Nat.mod_eq_of_lt (by omega), Nat.mod_eq_of_lt (by omega)] at e'
      exact h e'
    rw [beq_eq_false_iff_ne.mpr hne]; rfl

/-- A decided bit read as an unsigned integer is 1 or 0. -/
theorem uitofp_ite (p : Prop) [Decidable p] :
    FloatOps.uitofp (F := Ideal) .f32 (if p then 1#1 else 0#1) = (((if p then 1 else 0 : ℝ)) : EReal) := by
  by_cases h : p
  · rw [if_pos h, if_pos h]; show (((1#1 : BitVec 1).toNat : ℝ) : EReal) = _; simp
  · rw [if_neg h, if_neg h]; show (((0#1 : BitVec 1).toNat : ℝ) : EReal) = _; simp

/-- The margin of the cosine at batch row b and class j: the select between the rotated cosine and the linear fallback. -/
theorem margin_apply (x : (⟨S512x512, .f32⟩ : BufTy).Contents (Elt Ideal)) (w : (⟨S100000x512, .f32⟩ : BufTy).Contents (Elt Ideal))
    (xr : Fin 512 → Fin 512 → ℝ) (wr : ℕ → Fin 512 → ℝ)
    (hx : ∀ b k : Fin 512, x (ix2 b k) = ((xr b k : ℝ) : EReal))
    (hw : ∀ (j : Fin 100000) (k : Fin 512), w (ix2 j k) = ((wr j.val k : ℝ) : EReal)) (b : Fin 512) (j : Fin 100000) :
    val_main_v25 (F := Ideal) x w (ix2 b j)
      = ((margin cmR smR thR mmR (cosine epsR (xr b) (wr j.val)) : ℝ) : EReal) := by
  have hc := cos_apply x w xr wr hx hw b j
  have h1 : (0 : ℝ) ≤ 1 - cosine epsR (xr b) (wr j.val) * cosine epsR (xr b) (wr j.val) :=
    sub_nonneg.mpr (cosine_mul_self_le_one epsR_pos _ _)
  simp only [val_main_v25_apply, val_main_v22_apply, val_main_v20_apply, val_main_v24_apply, val_main_v17_apply,
    val_main_v19_apply, val_main_v15_apply, val_main_v14_apply, val_main_v12_apply, val_main_v13_apply,
    val_main_v16_apply, val_main_v18_apply, val_main_v21_apply, val_main_v23_apply, val_main_cst_1_apply,
    val_main_cst_2_apply, val_main_cst_3_apply, val_main_cst_4_apply, val_main_cst_5_apply, hc, Ideal.ofBits_def,
    ofBits_one, ofBits_cm, ofBits_sm, ofBits_th, ofBits_mm, Ideal.mulf_def, Ideal.subf_def, Ideal.hostUnary_sqrt_def,
    ← EReal.coe_mul, ← EReal.coe_sub, sqrt_coe_of_nonneg h1, cmpf_ogt_coe]
  unfold margin
  by_cases h : thR < cosine epsR (xr b) (wr j.val)
  · rw [if_pos h, if_pos h, select_one]
  · rw [if_neg h, if_neg h, select_zero]

/-- The one-hot row of the label: at batch row b and class j, 1 if the label is j and 0 otherwise. -/
theorem onehot_apply (lab : (⟨S512, .i32⟩ : BufTy).Contents (Elt Ideal)) (yv : Fin 512 → ℕ)
    (hy : ∀ b, yv b < 100000) (hl : ∀ b : Fin 512, lab (ix1 b) = BitVec.ofNat 32 (yv b)) (b : Fin 512) (j : Fin 100000) :
    val_main_v26 (F := Ideal) lab (ix2 b j) = (((if yv b = j.val then 1 else 0 : ℝ)) : EReal) := by
  rw [val_main_v26_apply, val_main_call3_v4_apply, val_main_call3_v2_apply, val_main_call3_v0_apply,
    val_main_call3_v3_apply, val_main_call3_v1_apply]
  have e : idx_main_call3_v0 (idx_main_call3_v2 (ix2 b j)) = ix1 b :=
    funext fun a => match a with | ⟨0, _⟩ => rfl
  rw [e, hl]
  show FloatOps.uitofp (F := Ideal) .f32 (IntOp.cmpi .eq (BitVec.ofNat 32 (yv b)) (BitVec.ofNat 32 j.val)) = _
  rw [cmpi_eq_ofNat _ _ (hy b) j.isLt, uitofp_ite]

/-- THE ADJUSTED LOGIT: the blend of the margin and the cosine by the one-hot row, times 120. -/
theorem adj_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) (j : Fin 100000) :
    val_main_v33 (F := Ideal) x lab w (ix2 b j)
      = ((adj (logit xr wr b) (yv b) (phiAt xr wr yv b) j.val : ℝ) : EReal) := by
  simp only [val_main_v33_apply, val_main_v31_apply, val_main_v27_apply, val_main_v30_apply, val_main_v29_apply,
    val_main_v28_apply, val_main_v32_apply, val_main_cst_6_apply, val_main_cst_7_apply,
    cos_apply x w xr wr hx hw b j, margin_apply x w xr wr hx hw b j, onehot_apply lab yv hy hl b j,
    Ideal.ofBits_def, ofBits_one, ofBits_scale, Ideal.mulf_def, Ideal.subf_def, Ideal.addf_def,
    ← EReal.coe_mul, ← EReal.coe_sub, ← EReal.coe_add]
  unfold adj logit phiAt
  by_cases h : yv b = j.val
  · rw [if_pos h, if_pos h, h]; congr 1; ring
  · rw [if_neg h, if_neg h]; congr 1; ring

end ArcFace.RefValue

end
-- ==== Proof.RefValueC.lean ====
/-
  The reference's third stretch as real numbers: the log-softmax of the adjusted logits along the classes. The row
  maximum folded from minus infinity is the largest adjusted logit; the shifted logits are exponentiated and summed
  from zero, a positive sum; its logarithm is subtracted from the shifted logits.
-/
import proofs.«406980_j40630390620832_2_alg».proof.Proof.RefValueB

noncomputable section

namespace ArcFace.RefValue

open Cert.ReferenceIdeal Cert.ReferenceIdeal.Read ArcFace ArcFace.Consts ArcFace.Coe Idealize.ShloMosaic Idealize.ShloMosaic.ValueIdx

open scoped BigOperators

variable [Cert.ReferenceIdeal.Facts]

/-- Batch row b with class k put back on the reduced axis is the index (b, k). -/
theorem lift_row (h : S512x100000.Reduces [1] S512) (b : Fin 512) (k : Fin (S512x100000.size 1)) :
    h.lift (ix1 b) k = ix2 b (⟨k.val, k.isLt⟩ : Fin 100000) := by
  funext c; apply Fin.ext
  match c with
  | ⟨0, _⟩ => rfl
  | ⟨1, _⟩ => rfl

/-- THE ROW MAXIMUM: the fold of the maximum from minus infinity over the classes, then the maximum with minus infinity
    again, is the largest adjusted logit of the row. -/
theorem rowmax_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) :
    val_main_call4_v2 (F := Ideal) x lab w (ix1 b)
      = ((adjMax (logit xr wr b) (yv b) (phiAt xr wr yv b) : ℝ) : EReal) := by
  rw [val_main_call4_v2_apply, val_main_call4_v1_apply, val_main_call4_cst_0_apply]
  unfold val_main_call4_v0
  have hR : S512x100000.Reduces [1] S512 := by decide
  rw [Host.reduce_eq_fold_single (FloatOps.maximumf (F := Ideal) (φ := .f32)) _ _ _ hR]
  have hf : (val_main_v33 (F := Ideal) x lab w ∘ hR.lift (ix1 b))
      = fun k : Fin 100000 => ((adj (logit xr wr b) (yv b) (phiAt xr wr yv b) k.val : ℝ) : EReal) :=
    funext fun k => (congrArg (val_main_v33 (F := Ideal) x lab w) (lift_row hR b k)).trans
      (adj_apply x lab w xr wr yv hx hw hy hl b ⟨k.val, k.isLt⟩)
  rw [hf, val_main_call4_cst_apply, Ideal.ofBits_def, ofBits_neg_inf]
  show max ⊥ (Finset.univ.fold max ⊥
    (fun k : Fin (99999 + 1) => ((adj (logit xr wr b) (yv b) (phiAt xr wr yv b) k.val : ℝ) : EReal))) = _
  rw [fold_max_coe, max_bot_coe]
  rfl

/-- The shifted logit: the adjusted logit minus the row maximum. -/
theorem shifted_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) (j : Fin 100000) :
    val_main_call4_v5 (F := Ideal) x lab w (ix2 b j)
      = ((adj (logit xr wr b) (yv b) (phiAt xr wr yv b) j.val
          - adjMax (logit xr wr b) (yv b) (phiAt xr wr yv b) : ℝ) : EReal) := by
  rw [val_main_call4_v5_apply, val_main_call4_v4_apply, val_main_call4_v3_apply]
  have e : idx_main_call4_v3 (idx_main_call4_v4 (ix2 b j)) = ix1 b :=
    funext fun a => match a with | ⟨0, _⟩ => rfl
  rw [e, rowmax_apply x lab w xr wr yv hx hw hy hl, adj_apply x lab w xr wr yv hx hw hy hl, Ideal.subf_def, ← EReal.coe_sub]

/-- The sum of the exponentials of the shifted logits over the classes, started from the zero word. -/
theorem sumexp_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) :
    val_main_call4_v7 (F := Ideal) x lab w (ix1 b)
      = ((∑ j : Fin 100000, Real.exp (adj (logit xr wr b) (yv b) (phiAt xr wr yv b) j.val
          - adjMax (logit xr wr b) (yv b) (phiAt xr wr yv b)) : ℝ) : EReal) := by
  rw [val_main_call4_v7_apply, val_main_call4_cst_1_apply]
  have e : ∀ k : Fin 100000, idx_main_call4_v7 (ix1 b) k = ix2 b k := fun k =>
    funext fun a => match a with | ⟨0, _⟩ => rfl | ⟨1, _⟩ => rfl
  simp only [e, val_main_call4_v6_apply, shifted_apply x lab w xr wr yv hx hw hy hl, Ideal.hostUnary_exp_def, Ideal.exp_coe,
    Ideal.ofBits_def, ofBits_zero]
  rw [sum_coe, ← EReal.coe_add, zero_add]

/-- THE LOG-SOFTMAX at batch row b and class j: the shifted logit minus the logarithm of the row's sum of exponentials. -/
theorem logsoftmax_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) (j : Fin 100000) :
    val_main_v34 (F := Ideal) x lab w (ix2 b j)
      = (((adj (logit xr wr b) (yv b) (phiAt xr wr yv b) j.val - adjMax (logit xr wr b) (yv b) (phiAt xr wr yv b))
          - Real.log (∑ j : Fin 100000, Real.exp (adj (logit xr wr b) (yv b) (phiAt xr wr yv b) j.val
              - adjMax (logit xr wr b) (yv b) (phiAt xr wr yv b))) : ℝ) : EReal) := by
  rw [val_main_v34_apply, val_main_call4_v10_apply, val_main_call4_v9_apply, val_main_call4_v8_apply]
  have e : idx_main_call4_v8 (idx_main_call4_v10 (ix2 b j)) = ix1 b :=
    funext fun a => match a with | ⟨0, _⟩ => rfl
  rw [e, sumexp_apply x lab w xr wr yv hx hw hy hl, shifted_apply x lab w xr wr yv hx hw hy hl, Ideal.hostUnary_log_def,
    log_coe_of_pos (ref_log_arg_pos _ _ _), Ideal.subf_def, ← EReal.coe_sub]

end ArcFace.RefValue

end
-- ==== Proof.RefValueD.lean ====
/-
  The reference's last stretch as real numbers: the label's log-softmax entry taken along the class axis (the label is
  not negative, so the wrap-around select keeps it; it is at most 99999, so the in-bounds mask is true and the fill is
  never selected; the batched gather at row b reads column label b), negated, and the mean over the 512 rows.
-/
import proofs.«406980_j40630390620832_2_alg».proof.Proof.RefValueC
import Idealize.ShloMosaic.Lib.ValueIdxRank1

noncomputable section

namespace ArcFace.RefValue

open Cert.ReferenceIdeal Cert.ReferenceIdeal.Read ArcFace ArcFace.Consts ArcFace.Coe Idealize.ShloMosaic Idealize.ShloMosaic.ValueIdx

open scoped BigOperators

variable [Cert.ReferenceIdeal.Facts]

/-! ### Words of labels -/

/-- A natural below 100000 as a 32-bit word reads back, signed, as itself. -/
theorem toInt_ofNat_small (a : ℕ) (ha : a < 100000) : (BitVec.ofNat 32 a).toInt = (a : ℤ) := by
  have h1 : (BitVec.ofNat 32 a).toNat = a := by
    rw [BitVec.toNat_ofNat]; exact Nat.mod_eq_of_lt (by omega)
  rw [BitVec.toInt_eq_toNat_of_lt (by rw [h1]; omega), h1]

/-- Such a word is not below zero … -/
theorem cmpi_slt_zero (a : ℕ) (ha : a < 100000) : IntOp.cmpi .slt (BitVec.ofNat 32 a) 0#32 = 0#1 := by
  show BitVec.ofBool ((BitVec.ofNat 32 a).slt 0#32) = _
  have h : (BitVec.ofNat 32 a).slt 0#32 = false := by
    rw [BitVec.slt_eq_decide, toInt_ofNat_small a ha, decide_eq_false_iff_not]
    show ¬ ((a : ℤ) < (0#32 : BitVec 32).toInt)
    rw [show (0#32 : BitVec 32).toInt = 0 from by decide]; omega
  rw [h]; rfl

/-- … it is at least zero … -/
theorem cmpi_sge_zero (a : ℕ) (ha : a < 100000) : IntOp.cmpi .sge (BitVec.ofNat 32 a) 0#32 = 1#1 := by
  show BitVec.ofBool ((0#32 : BitVec 32).sle (BitVec.ofNat 32 a)) = _
  have h : (0#32 : BitVec 32).sle (BitVec.ofNat 32 a) = true := by
    rw [BitVec.sle_eq_decide, toInt_ofNat_small a ha, decide_eq_true_iff]
    rw [show (0#32 : BitVec 32).toInt = 0 from by decide]; omega
  rw [h]; rfl

/-- … and at most 99999. -/
theorem cmpi_sle_top (a : ℕ) (ha : a < 100000) : IntOp.cmpi .sle (BitVec.ofNat 32 a) 99999#32 = 1#1 := by
  show BitVec.ofBool ((BitVec.ofNat 32 a).sle 99999#32) = _
  have h : (BitVec.ofNat 32 a).sle 99999#32 = true := by
    rw [BitVec.sle_eq_decide, toInt_ofNat_small a ha, decide_eq_true_iff]
    rw [show (99999#32 : BitVec 32).toInt = 99999 from by decide]; omega
  rw [h]; rfl

/-! ### The start index of the gather -/

/-- The start index of batch row b: the label (the select on "label below zero" keeps it). -/
theorem start_apply (lab : (⟨S512, .i32⟩ : BufTy).Contents (Elt Ideal)) (yv : Fin 512 → ℕ)
    (hy : ∀ b, yv b < 100000) (hl : ∀ b : Fin 512, lab (ix1 b) = BitVec.ofNat 32 (yv b)) (b : Fin 512) :
    val_main_call5_v5 (F := Ideal) lab (ix3 b (0 : Fin 1) (0 : Fin 1)) = BitVec.ofNat 32 (yv b) := by
  rw [val_main_call5_v5_apply]
  have e5 : idx_main_call5_v5 (ix3 b (0 : Fin 1) (0 : Fin 1)) = ix2 b (0 : Fin 1) :=
    funext fun a => match a with
      | ⟨0, _⟩ => Fin.ext (by show ((b.val * 1 + 0) * 1 + 0) / 1 = b.val; omega)
      | ⟨1, _⟩ => rfl
  rw [e5, val_main_call5_v4_apply, val_main_call5_v1_apply, val_main_v35_apply, val_main_call5_v0_apply,
    val_main_call5_c_apply]
  have e : idx_main_v35 (ix2 b (0 : Fin 1)) = ix1 b := funext fun a => match a with | ⟨0, _⟩ => rfl
  rw [e, hl, cmpi_slt_zero _ (hy b), select_zero]

/-- The in-bounds bit of batch row b is set. -/
theorem inb_apply (lab : (⟨S512, .i32⟩ : BufTy).Contents (Elt Ideal)) (yv : Fin 512 → ℕ)
    (hy : ∀ b, yv b < 100000) (hl : ∀ b : Fin 512, lab (ix1 b) = BitVec.ofNat 32 (yv b)) (b : Fin 512) :
    val_main_call5_v11 (F := Ideal) lab (ix3 b (0 : Fin 1) (0 : Fin 1)) = 1#1 := by
  rw [val_main_call5_v11_apply, val_main_call5_v7_apply, val_main_call5_v10_apply, val_main_call5_v6_apply,
    val_main_call5_c_2_apply, val_main_call5_v9_apply, val_main_call5_v8_apply, val_main_call5_c_1_apply,
    start_apply lab yv hy hl b, cmpi_sge_zero _ (hy b), cmpi_sle_top _ (hy b)]
  rfl

/-! ### The in-bounds mask over the unit axis -/

/-- Batch row b's index with the unit axis put back. -/
theorem lift_unit (h : S512x1x1.Reduces [2] S512x1) (b : Fin 512) (k : Fin (S512x1x1.size 2)) :
    h.lift (ix2 b (0 : Fin 1)) k = ix3 b (0 : Fin 1) (0 : Fin 1) := by
  funext c; apply Fin.ext
  match c with
  | ⟨0, _⟩ => rfl
  | ⟨1, _⟩ => rfl
  | ⟨2, _⟩ =>
    have hk : k.val < 1 := k.isLt
    show k.val = 0
    omega

/-- The "and" of the in-bounds bits over the unit axis, from the true bit, is set. -/
theorem mask_apply (lab : (⟨S512, .i32⟩ : BufTy).Contents (Elt Ideal)) (yv : Fin 512 → ℕ)
    (hy : ∀ b, yv b < 100000) (hl : ∀ b : Fin 512, lab (ix1 b) = BitVec.ofNat 32 (yv b)) (b : Fin 512) :
    val_main_call5_v12 (F := Ideal) lab (ix2 b (0 : Fin 1)) = 1#1 := by
  unfold val_main_call5_v12
  have hR : S512x1x1.Reduces [2] S512x1 := by decide
  rw [Host.reduce_eq_fold_single (IntOp.andi (w := 1)) _ _ _ hR]
  have hf : (val_main_call5_v11 (F := Ideal) lab ∘ hR.lift (ix2 b (0 : Fin 1))) = fun _ : Fin 1 => 1#1 :=
    funext fun k => (congrArg (val_main_call5_v11 (F := Ideal) lab) (lift_unit hR b k)).trans
      (inb_apply lab yv hy hl b)
  rw [hf, val_main_call5_c_3_apply]
  rfl

/-! ### The batched gather -/

local notation "gd" => gather_S512x100000_S512x1x1_S512x1_n_1_0_0_1_2_11

/-- THE GATHER at batch row b: the operand's row b (the batching axis) at the column the start index names, which is
    the label, already inside the class range. -/
theorem gather_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) :
    val_main_call5_v13 (F := Ideal) x lab w (ix2 b (0 : Fin 1))
      = val_main_v34 (F := Ideal) x lab w (ix2 b (⟨yv b, hy b⟩ : Fin 100000)) := by
  unfold val_main_call5_v13 Host.gather
  congr 1
  funext a
  refine Fin.ext ?_
  match a with
  | ⟨0, _⟩ =>
    show (GatherDims.start gd) (ix2 b (0 : Fin 1)) (val_main_call5_v5 (F := Ideal) lab) 0 + (GatherDims.batchCoord gd) (ix2 b (0 : Fin 1)) 0
        + (GatherDims.offCoord gd) (ix2 b (0 : Fin 1)) 0 = b.val
    rw [GatherDims.start_batching gd _ _ 0 (List.mem_singleton.mpr rfl),
      GatherDims.offCoord_eq_zero gd _ 0 (fun h => ((GatherDims.mem_sKept gd 0).mp h).2 (List.mem_singleton.mpr rfl))]
    simp only [Nat.zero_add, Nat.add_zero]
    unfold GatherDims.batchCoord
    rw [dif_pos (show (0 : Fin 2) ∈ (GatherDims.operandBatchingDims gd) from List.mem_singleton.mpr rfl)]
    rfl
  | ⟨1, _⟩ =>
    show (GatherDims.start gd) (ix2 b (0 : Fin 1)) (val_main_call5_v5 (F := Ideal) lab) 1 + (GatherDims.batchCoord gd) (ix2 b (0 : Fin 1)) 1
        + (GatherDims.offCoord gd) (ix2 b (0 : Fin 1)) 1 = yv b
    rw [GatherDims.batchCoord_eq_zero gd _ 1 (fun h => absurd (congrArg Fin.val (List.mem_singleton.mp h)) Nat.one_ne_zero),
      GatherDims.offCoord_eq_zero gd _ 1 (fun h => ((GatherDims.mem_sKept gd 1).mp h).1 (List.mem_singleton.mpr rfl))]
    simp only [Nat.add_zero]
    unfold GatherDims.start
    rw [dif_pos (show (1 : Fin 2) ∈ (GatherDims.startIndexMap gd) from List.mem_singleton.mpr rfl)]
    have hsi : (GatherDims.siIdx gd) (ix2 b (0 : Fin 1)) ⟨List.idxOf (1 : Fin 2) (GatherDims.startIndexMap gd),
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi, start_apply lab yv hy hl b, toInt_ofNat_small _ (hy b)]
    show min ((yv b : ℤ).toNat) (100000 - 1) = yv b
    rw [Int.toNat_natCast]
    have := hy b
    omega

/-! ### The row losses and their mean -/

/-- THE ROW LOSS of batch row b: minus the label's log-softmax entry. -/
theorem nll_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (b : Fin 512) :
    val_main_v38 (F := Ideal) x lab w (ix1 b)
      = ((refRow (logit xr wr b) (yv b) (phiAt xr wr yv b) : ℝ) : EReal) := by
  rw [val_main_v38_apply, val_main_v37_apply]
  have e : idx_main_v37 (ix1 b) = ix2 b (0 : Fin 1) :=
    funext fun a => match a with
      | ⟨0, _⟩ => Fin.ext (by show b.val / 1 = b.val; omega)
      | ⟨1, _⟩ => rfl
  rw [e, val_main_v36_apply, mask_apply lab yv hy hl b, select_one, gather_apply x lab w xr wr yv hx hw hy hl,
    logsoftmax_apply x lab w xr wr yv hx hw hy hl, Ideal.hostNegf_def, Ideal.negf_def, ← EReal.coe_neg]
  have hadj : adj (logit xr wr b) (yv b) (phiAt xr wr yv b) (⟨yv b, hy b⟩ : Fin 100000).val = phiAt xr wr yv b :=
    if_pos rfl
  rw [hadj]
  rfl

/-- THE MEAN: the sum of the row losses from the zero word, divided by the word of 512. -/
theorem mean_apply (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ b k : Fin 512, x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) (i : S_.Idx) :
    val_main_v40 (F := Ideal) x lab w i = ((loss epsR 120 cmR smR thR mmR xr wr yv refRow : ℝ) : EReal) := by
  rw [val_main_v40_apply, val_main_v39_apply, val_main_cst_9_apply, val_main_cst_8_apply,
    ← Equiv.sum_comp (idxEquiv1 (n := 512)).symm (val_main_v38 (F := Ideal) x lab w)]
  have e : ∀ b : Fin 512, (idxEquiv1 (n := 512)).symm b = ix1 b := fun _ => rfl
  simp only [e, nll_apply x lab w xr wr yv hx hw hy hl, Ideal.ofBits_def, ofBits_zero, ofBits_512, Ideal.hostDivf_def]
  rw [sum_coe, ← EReal.coe_add, div_coe_coe _ _ (by norm_num)]
  rfl

end ArcFace.RefValue

end
-- ==== Proof.RefValue.lean ====
/-
  The reference's result as a real number: every stage of its program is real-valued on finite inputs with in-range
  labels, and its final scalar is the batch mean of the rows' log-softmax losses.

  The stages are read in four stretches: the two normalisations and the cosine; the angular margin and its blend with
  the cosine by the one-hot row of the label, times 120; the log-softmax along the classes; the label's entry taken
  along the class axis, negated, and the mean over the batch.
-/
import proofs.«406980_j40630390620832_2_alg».proof.Proof.RefRead
import proofs.«406980_j40630390620832_2_alg».proof.Proof.Spec
import proofs.«406980_j40630390620832_2_alg».proof.Proof.Consts
import proofs.«406980_j40630390620832_2_alg».proof.Proof.RefValueA
import proofs.«406980_j40630390620832_2_alg».proof.Proof.RefValueB
import proofs.«406980_j40630390620832_2_alg».proof.Proof.RefValueC
import proofs.«406980_j40630390620832_2_alg».proof.Proof.RefValueD

noncomputable section

namespace ArcFace.RefValue

open Cert.ReferenceIdeal Cert.ReferenceIdeal.Read ArcFace ArcFace.Consts Idealize.ShloMosaic Idealize.ShloMosaic.ValueIdx

variable [Cert.ReferenceIdeal.Facts]

/-- THE REFERENCE'S VALUE: on real inputs `xr`, `wr` and labels `yv` below 100000 the program's last stage is, at its
    one index, the batch loss with the reference's row loss. -/
theorem ref_value (x : (⟨S512x512, .f32⟩ : BufTy).Contents (Elt Ideal)) (lab : (⟨S512, .i32⟩ : BufTy).Contents (Elt Ideal))
    (w : (⟨S100000x512, .f32⟩ : BufTy).Contents (Elt Ideal))
    (xr : Fin 512 → Fin 512 → ℝ) (wr : ℕ → Fin 512 → ℝ) (yv : Fin 512 → ℕ)
    (hx : ∀ (b k : Fin 512), x (ix2 b k) = ((xr b k : ℝ) : EReal))
    (hw : ∀ (j : Fin 100000) (k : Fin 512), w (ix2 j k) = ((wr j.val k : ℝ) : EReal))
    (hy : ∀ b, yv b < 100000) (hl : ∀ b : Fin 512, lab (ix1 b) = BitVec.ofNat 32 (yv b)) :
    val_main_v40 (F := Ideal) x lab w = fun _ => ((loss epsR 120 cmR smR thR mmR xr wr yv refRow : ℝ) : EReal) :=
  funext fun i => mean_apply x lab w xr wr yv hx hw hy hl i

end ArcFace.RefValue

end
-- ==== Proof.RefLinkA.lean ====
/-
  The reference program's hundred host operations cut into twelve consecutive stretches, each the
  operations of one stage group (a normalisation, the cosine product, the margin arithmetic, the one-hot
  mask, the logit blend, the log-softmax in two halves, the index clamp, the range test, the gather
  and the mean). `ops_eq` says the program's list is their concatenation; `after_ops` that running the
  list is running the stretches in turn. For each stretch: the references it writes, and that a reference
  outside that list keeps its contents through the stretch.
-/
import proofs.«406980_j40630390620832_2_alg».proof.Proof.RefRead

noncomputable section

namespace ArcFace.RefLink

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Operations 0 to 9 of @main. -/
abbrev s1 : List (HloOp τ sig (Elt F)) :=
  [ TRef.binary (TRef.of (T := ⟨S512x512, .f32⟩) main_arg0) (TRef.of (T := ⟨S512x512, .f32⟩) main_arg0) (TRef.of (T := ⟨S512x512, .f32⟩) main_call0_v0) mulf,
    TRef.nullary (TRef.of (T := ⟨S_, .f32⟩) main_call0_cst) (constant S_ .f32 0x00000000#32),
    TRef.binary (TRef.of (T := ⟨S512x512, .f32⟩) main_call0_v0) (TRef.of (T := ⟨S_, .f32⟩) main_call0_cst) (TRef.of (T := ⟨S512, .f32⟩) main_call0_v1) (fun x v => Host.reduceAdd x v reducesTo_S512x512_S512_d1 h_S_),
    TRef.unary (TRef.of (T := ⟨S512, .f32⟩) main_call0_v1) (TRef.of (T := ⟨S512x1, .f32⟩) main_call0_v2) (broadcastInDim S512x1 ![0] bcast_S512_S512x1_0),
    TRef.unary (TRef.of (T := ⟨S512x1, .f32⟩) main_call0_v2) (TRef.of (T := ⟨S512x1, .f32⟩) main_v0) Host.sqrt,
    nullary main_cst (constant S_ .f32 0x2B8CBCCC#32),
    unary main_cst main_v1 (broadcastInDim S512x1 ![] bcast_S_S512x1 : (⟨S_, .f32⟩ : BufTy).Contents (Elt F) → (⟨S512x1, .f32⟩ : BufTy).Contents (Elt F)),
    binary main_v0 main_v1 main_v2 (maximumf : (⟨S512x1, .f32⟩ : BufTy).Contents (Elt F) → (⟨S512x1, .f32⟩ : BufTy).Contents (Elt F) → (⟨S512x1, .f32⟩ : BufTy).Contents (Elt F)),
    unary main_v2 main_v3 (broadcastInDim S512x512 ![0, 1] bcast_S512x1_S512x512_0_1 : (⟨S512x1, .f32⟩ : BufTy).Contents (Elt F) → (⟨S512x512, .f32⟩ : BufTy).Contents (Elt F)),
    binary main_arg0 main_v3 main_v4 (Host.divf : (⟨S512x512, .f32⟩ : BufTy).Contents (Elt F) → (⟨S512x512, .f32⟩ : BufTy).Contents (Elt F) → (⟨S512x512, .f32⟩ : BufTy).Contents (Elt F)) ]

/-- Operations 10 to 20 of @main. -/
abbrev s2 : List (HloOp τ sig (Elt F)) :=
  [ TRef.binary (TRef.of (T := ⟨S100000x512, .f32⟩) main_arg2) (TRef.of (T := ⟨S100000x512, .f32⟩) main_arg2) (TRef.of (T := ⟨S100000x512, .f32⟩) main_call1_v0) mulf,
    TRef.nullary (TRef.of (T := ⟨S_, .f32⟩) main_call1_cst) (constant S_ .f32 0x00000000#32),
    TRef.binary (TRef.of (T := ⟨S100000x512, .f32⟩) main_call1_v0) (TRef.of (T := ⟨S_, .f32⟩) main_call1_cst) (TRef.of (T := ⟨S100000, .f32⟩) main_call1_v1) (fun x v => Host.reduceAdd x v reducesTo_S100000x512_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v5) Host.sqrt,
    nullary main_cst_0 (constant S_ .f32 0x2B8CBCCC#32),
    unary main_cst_0 main_v6 (broadcastInDim S100000x1 ![] bcast_S_S100000x1 : (⟨S_, .f32⟩ : BufTy).Contents (Elt F) → (⟨S100000x1, .f32⟩ : BufTy).Contents (Elt F)),
    binary main_v5 main_v6 main_v7 (maximumf : (⟨S100000x1, .f32⟩ : BufTy).Contents (Elt F) → (⟨S100000x1, .f32⟩ : BufTy).Contents (Elt F) → (⟨S100000x1, .f32⟩ : BufTy).Contents (Elt F)),
    unary main_v7 main_v8 (broadcastInDim S100000x512 ![0, 1] bcast_S100000x1_S100000x512_0_1 : (⟨S100000x1, .f32⟩ : BufTy).Contents (Elt F) → (⟨S100000x512, .f32⟩ : BufTy).Contents (Elt F)),
    binary main_arg2 main_v8 main_v9 (Host.divf : (⟨S100000x512, .f32⟩ : BufTy).Contents (Elt F) → (⟨S100000x512, .f32⟩ : BufTy).Contents (Elt F) → (⟨S100000x512, .f32⟩ : BufTy).Contents (Elt F)),
    unary main_v9 main_v10 ((transpose S512x100000 [1, 0] · transposes_S100000x512_S512x100000_1_0) : (⟨S100000x512, .f32⟩ : BufTy).Contents (Elt F) → (⟨S512x100000, .f32⟩ : BufTy).Contents (Elt F)) ]

/-- Operations 21 to 26 of @main. -/
abbrev s3 : List (HloOp τ sig (Elt F)) :=
  [ binary main_v4 main_v10 main_v11 ((fun l r => Host.dotGeneral dot_S512x512_S512x100000_S512x100000_1_0_0_1_n_n none l r) : (⟨S512x512, .f32⟩ : BufTy).Contents (Elt F) → (⟨S512x100000, .f32⟩ : BufTy).Contents (Elt F) → (⟨S512x100000, .f32⟩ : BufTy).Contents (Elt F)),
    binary main_v11 main_v11 main_v12 (mulf : (⟨S512x100000, .f32⟩ : BufTy).Contents (Elt F) → (⟨S512x100000, .f32⟩ : BufTy).Contents (Elt F) → (⟨S512x100000, .f32⟩ : BufTy).Contents (Elt F)),
    nullary main_cst_1 (constant S_ .f32 0x3F800000#32),
    unary main_cst_1 main_v13 (broadcastInDim S512x100000 ![] bcast_S_S512x100000 : (⟨S_, .f32⟩ : BufTy).Contents (Elt F) → (⟨S512x100000, .f32⟩ : BufTy).Contents (Elt F)),
    binary main_v13 main_v12 main_v14 (subf : (⟨S512x100000, .f32⟩ : BufTy).Contents (Elt F) → (⟨S512x100000, .f32⟩ : BufTy).Contents (Elt F) → (⟨S512x100000, .f32⟩ : BufTy).Contents (Elt F)),
    unary main_v14 main_v15 (Host.sqrt : (⟨S512x100000, .f32⟩ : BufTy).Contents (Elt F) → (⟨S512x100000, .f32⟩ : BufTy).Contents (Elt F)) ]

/-- Operations 27 to 33 of @main. -/
abbrev s4 : List (HloOp τ sig (Elt F)) :=
  [ nullary main_cst_2 (constant S_ .f32 0x3F7490EF#32),
    unary main_cst_2 main_v16 (broadcastInDim S512x100000 ![] bcast_S_S512x100000 : (⟨S_, .f32⟩ : BufTy).Contents (Elt F) → (⟨S512x100000, .f32⟩ : BufTy).Contents (Elt F)),
    binary main_v11 main_v16 main_v17 (mulf : (⟨S512x100000, .f32⟩ : BufTy).Contents (Elt F) → (⟨S512x100000, .f32⟩ : BufTy).Contents (Elt F) → (⟨S512x100000, .f32⟩ : BufTy).Contents (Elt F)),
    nullary main_cst_3 (constant S_ .f32 0x3E974E6D#32),
    unary main_cst_3 main_v18 (broadcastInDim S512x100000 ![] bcast_S_S512x100000 : (⟨S_, .f32⟩ : BufTy).Contents (Elt F) → (⟨S512x100000, .f32⟩ : BufTy).Contents (Elt F)),
    binary main_v15 main_v18 main_v19 (mulf : (⟨S512x100000, .f32⟩ : BufTy).Contents (Elt F) → (⟨S512x100000, .f32⟩ : BufTy).Contents (Elt F) → (⟨S512x100000, .f32⟩ : BufTy).Contents (Elt F)),
    binary main_v17 main_v19 main_v20 (subf : (⟨S512x100000, .f32⟩ : BufTy).Contents (Elt F) → (⟨S512x100000, .f32⟩ : BufTy).Contents (Elt F) → (⟨S512x100000, .f32⟩ : BufTy).Contents (Elt F)) ]

/-- Operations 34 to 40 of @main. -/
abbrev s5 : List (HloOp τ sig (Elt F)) :=
  [ nullary main_cst_4 (constant S_ .f32 0xBF7490EF#32),
    unary main_cst_4 main_v21 (broadcastInDim S512x100000 ![] bcast_S_S512x100000 : (⟨S_, .f32⟩ : BufTy).Contents (Elt F) → (⟨S512x100000, .f32⟩ : BufTy).Contents (Elt F)),
    binary main_v11 main_v21 main_v22 (cmpf .ogt : (⟨S512x100000, .f32⟩ : BufTy).Contents (Elt F) → (⟨S512x100000, .f32⟩ : BufTy).Contents (Elt F) → (⟨S512x100000, .i1⟩ : BufTy).Contents (Elt F)),
    nullary main_cst_5 (constant S_ .f32 0x3DB5914F#32),
    unary main_cst_5 main_v23 (broadcastInDim S512x100000 ![] bcast_S_S512x100000 : (⟨S_, .f32⟩ : BufTy).Contents (Elt F) → (⟨S512x100000, .f32⟩ : BufTy).Contents (Elt F)),
    binary main_v11 main_v23 main_v24 (subf : (⟨S512x100000, .f32⟩ : BufTy).Contents (Elt F) → (⟨S512x100000, .f32⟩ : BufTy).Contents (Elt F) → (⟨S512x100000, .f32⟩ : BufTy).Contents (Elt F)),
    TRef.ternary (TRef.of (T := ⟨S512x100000, .i1⟩) main_v22) (TRef.of (T := ⟨S512x100000, .f32⟩) main_v20) (TRef.of (T := ⟨S512x100000, .f32⟩) main_v24) (TRef.of (T := ⟨S512x100000, .f32⟩) main_v25) select ]

/-- Operations 41 to 46 of @main. -/
abbrev s6 : List (HloOp τ sig (Elt F)) :=
  [ TRef.unary (TRef.of (T := ⟨S512, .i32⟩) main_arg1) (TRef.of (T := ⟨S512x1, .i32⟩) main_call3_v0) (broadcastInDim S512x1 ![0] bcast_S512_S512x1_0),
    TRef.nullary (TRef.of (T := ⟨S1x100000, .i32⟩) main_call3_v1) (iotaInDim S1x100000 32 1),
    TRef.unary (TRef.of (T := ⟨S512x1, .i32⟩) main_call3_v0) (TRef.of (T := ⟨S512x100000, .i32⟩) main_call3_v2) (broadcastInDim S512x100000 ![0, 1] bcast_S512x1_S512x100000_0_1),
    TRef.unary (TRef.of (T := ⟨S1x100000, .i32⟩) main_call3_v1) (TRef.of (T := ⟨S512x100000, .i32⟩) main_call3_v3) (broadcastInDim S512x100000 ![0, 1] bcast_S1x100000_S512x100000_0_1),
    TRef.binary (TRef.of (T := ⟨S512x100000, .i32⟩) main_call3_v2) (TRef.of (T := ⟨S512x100000, .i32⟩) main_call3_v3) (TRef.of (T := ⟨S512x100000, .i1⟩) main_call3_v4) (cmpi .eq),
    TRef.unary (TRef.of (T := ⟨S512x100000, .i1⟩) main_call3_v4) (TRef.of (T := ⟨S512x100000, .f32⟩) main_v26) (uitofp .f32) ]

/-- Operations 47 to 55 of @main. -/
abbrev s7 : List (HloOp τ sig (Elt F)) :=
  [ binary main_v26 main_v25 main_v27 (mulf : (⟨S512x100000, .f32⟩ : BufTy).Contents (Elt F) → (⟨S512x100000, .f32⟩ : BufTy).Contents (Elt F) → (⟨S512x100000, .f32⟩ : BufTy).Contents (Elt F)),
    nullary main_cst_6 (constant S_ .f32 0x3F800000#32),
    unary main_cst_6 main_v28 (broadcastInDim S512x100000 ![] bcast_S_S512x100000 : (⟨S_, .f32⟩ : BufTy).Contents (Elt F) → (⟨S512x100000, .f32⟩ : BufTy).Contents (Elt F)),
    binary main_v28 main_v26 main_v29 (subf : (⟨S512x100000, .f32⟩ : BufTy).Contents (Elt F) → (⟨S512x100000, .f32⟩ : BufTy).Contents (Elt F) → (⟨S512x100000, .f32⟩ : BufTy).Contents (Elt F)),
    binary main_v29 main_v11 main_v30 (mulf : (⟨S512x100000, .f32⟩ : BufTy).Contents (Elt F) → (⟨S512x100000, .f32⟩ : BufTy).Contents (Elt F) → (⟨S512x100000, .f32⟩ : BufTy).Contents (Elt F)),
    binary main_v27 main_v30 main_v31 (addf : (⟨S512x100000, .f32⟩ : BufTy).Contents (Elt F) → (⟨S512x100000, .f32⟩ : BufTy).Contents (Elt F) → (⟨S512x100000, .f32⟩ : BufTy).Contents (Elt F)),
    nullary main_cst_7 (constant S_ .f32 0x42F00000#32),
    unary main_cst_7 main_v32 (broadcastInDim S512x100000 ![] bcast_S_S512x100000 : (⟨S_, .f32⟩ : BufTy).Contents (Elt F) → (⟨S512x100000, .f32⟩ : BufTy).Contents (Elt F)),
    binary main_v31 main_v32 main_v33 (mulf : (⟨S512x100000, .f32⟩ : BufTy).Contents (Elt F) → (⟨S512x100000, .f32⟩ : BufTy).Contents (Elt F) → (⟨S512x100000, .f32⟩ : BufTy).Contents (Elt F)) ]

/-- Operations 56 to 63 of @main. -/
abbrev s8 : List (HloOp τ sig (Elt F)) :=
  [ TRef.nullary (TRef.of (T := ⟨S_, .f32⟩) main_call4_cst) (constant S_ .f32 0xFF800000#32),
    TRef.binary (TRef.of (T := ⟨S512x100000, .f32⟩) main_v33) (TRef.of (T := ⟨S_, .f32⟩) main_call4_cst) (TRef.of (T := ⟨S512, .f32⟩) main_call4_v0) (fun x v => Host.reduce FloatOps.maximumf x v reducesTo_S512x100000_S512_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S512, .f32⟩) main_call4_v1) (broadcastInDim S512 ![] bcast_S_S512),
    TRef.binary (TRef.of (T := ⟨S512, .f32⟩) main_call4_v1) (TRef.of (T := ⟨S512, .f32⟩) main_call4_v0) (TRef.of (T := ⟨S512, .f32⟩) main_call4_v2) maximumf,
    TRef.unary (TRef.of (T := ⟨S512, .f32⟩) main_call4_v2) (TRef.of (T := ⟨S512x1, .f32⟩) main_call4_v3) (broadcastInDim S512x1 ![0] bcast_S512_S512x1_0),
    TRef.unary (TRef.of (T := ⟨S512x1, .f32⟩) main_call4_v3) (TRef.of (T := ⟨S512x100000, .f32⟩) main_call4_v4) (broadcastInDim S512x100000 ![0, 1] bcast_S512x1_S512x100000_0_1),
    TRef.binary (TRef.of (T := ⟨S512x100000, .f32⟩) main_v33) (TRef.of (T := ⟨S512x100000, .f32⟩) main_call4_v4) (TRef.of (T := ⟨S512x100000, .f32⟩) main_call4_v5) subf ]

/-- Operations 64 to 70 of @main. -/
abbrev s9 : List (HloOp τ sig (Elt F)) :=
  [ TRef.unary (TRef.of (T := ⟨S512x100000, .f32⟩) main_call4_v5) (TRef.of (T := ⟨S512x100000, .f32⟩) main_call4_v6) Host.exp,
    TRef.nullary (TRef.of (T := ⟨S_, .f32⟩) main_call4_cst_1) (constant S_ .f32 0x00000000#32),
    TRef.binary (TRef.of (T := ⟨S512x100000, .f32⟩) main_call4_v6) (TRef.of (T := ⟨S_, .f32⟩) main_call4_cst_1) (TRef.of (T := ⟨S512, .f32⟩) main_call4_v7) (fun x v => Host.reduceAdd x v reducesTo_S512x100000_S512_d1 h_S_),
    TRef.unary (TRef.of (T := ⟨S512, .f32⟩) main_call4_v7) (TRef.of (T := ⟨S512x1, .f32⟩) main_call4_v8) (broadcastInDim S512x1 ![0] bcast_S512_S512x1_0),
    TRef.unary (TRef.of (T := ⟨S512x1, .f32⟩) main_call4_v8) (TRef.of (T := ⟨S512x1, .f32⟩) main_call4_v9) Host.log,
    TRef.unary (TRef.of (T := ⟨S512x1, .f32⟩) main_call4_v9) (TRef.of (T := ⟨S512x100000, .f32⟩) main_call4_v10) (broadcastInDim S512x100000 ![0, 1] bcast_S512x1_S512x100000_0_1),
    TRef.binary (TRef.of (T := ⟨S512x100000, .f32⟩) main_call4_v5) (TRef.of (T := ⟨S512x100000, .f32⟩) main_call4_v10) (TRef.of (T := ⟨S512x100000, .f32⟩) main_v34) subf ]

/-- Operations 71 to 79 of @main. -/
abbrev s10 : List (HloOp τ sig (Elt F)) :=
  [ unary main_arg1 main_v35 (broadcastInDim S512x1 ![0] bcast_S512_S512x1_0 : (⟨S512, .i32⟩ : BufTy).Contents (Elt F) → (⟨S512x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S512x1, .i32⟩) main_call5_v0) (broadcastInDim S512x1 ![] bcast_S_S512x1),
    TRef.binary (TRef.of (T := ⟨S512x1, .i32⟩) main_v35) (TRef.of (T := ⟨S512x1, .i32⟩) main_call5_v0) (TRef.of (T := ⟨S512x1, .i1⟩) main_call5_v1) (cmpi .slt),
    TRef.nullary (TRef.of (T := ⟨S_, .i32⟩) main_call5_c_0) (constantI S_ 32 100000#32),
    TRef.unary (TRef.of (T := ⟨S_, .i32⟩) main_call5_c_0) (TRef.of (T := ⟨S512x1, .i32⟩) main_call5_v2) (broadcastInDim S512x1 ![] bcast_S_S512x1),
    TRef.binary (TRef.of (T := ⟨S512x1, .i32⟩) main_v35) (TRef.of (T := ⟨S512x1, .i32⟩) main_call5_v2) (TRef.of (T := ⟨S512x1, .i32⟩) main_call5_v3) addi,
    TRef.ternary (TRef.of (T := ⟨S512x1, .i1⟩) main_call5_v1) (TRef.of (T := ⟨S512x1, .i32⟩) main_call5_v3) (TRef.of (T := ⟨S512x1, .i32⟩) main_v35) (TRef.of (T := ⟨S512x1, .i32⟩) main_call5_v4) select,
    TRef.reshape (TRef.of (T := ⟨S512x1, .i32⟩) main_call5_v4) (TRef.of (T := ⟨S512x1x1, .i32⟩) main_call5_v5) rfl shapeCasts_S512x1_S512x1x1 ]

/-- Operations 80 to 89 of @main. -/
abbrev s11 : List (HloOp τ sig (Elt F)) :=
  [ TRef.nullary (TRef.of (T := ⟨S1, .i32⟩) main_call5_c_1) (constantI S1 32 99999#32),
    TRef.nullary (TRef.of (T := ⟨S_, .i32⟩) main_call5_c_2) (constantI S_ 32 0#32),
    TRef.unary (TRef.of (T := ⟨S_, .i32⟩) main_call5_c_2) (TRef.of (T := ⟨S512x1x1, .i32⟩) main_call5_v6) (broadcastInDim S512x1x1 ![] bcast_S_S512x1x1),
    TRef.binary (TRef.of (T := ⟨S512x1x1, .i32⟩) main_call5_v5) (TRef.of (T := ⟨S512x1x1, .i32⟩) main_call5_v6) (TRef.of (T := ⟨S512x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S512x1x1, .i32⟩) main_call5_v9) (broadcastInDim S512x1x1 ![0, 1, 2] bcast_S1x1x1_S512x1x1_0_1_2),
    TRef.binary (TRef.of (T := ⟨S512x1x1, .i32⟩) main_call5_v5) (TRef.of (T := ⟨S512x1x1, .i32⟩) main_call5_v9) (TRef.of (T := ⟨S512x1x1, .i1⟩) main_call5_v10) (cmpi .sle),
    TRef.binary (TRef.of (T := ⟨S512x1x1, .i1⟩) main_call5_v7) (TRef.of (T := ⟨S512x1x1, .i1⟩) main_call5_v10) (TRef.of (T := ⟨S512x1x1, .i1⟩) main_call5_v11) andi,
    TRef.nullary (TRef.of (T := ⟨S_, .i1⟩) main_call5_c_3) (constantI S_ 1 1#1),
    TRef.binary (TRef.of (T := ⟨S512x1x1, .i1⟩) main_call5_v11) (TRef.of (T := ⟨S_, .i1⟩) main_call5_c_3) (TRef.of (T := ⟨S512x1, .i1⟩) main_call5_v12) (fun x v => Host.reduce IntOp.andi x v reducesTo_S512x1x1_S512x1_d2 h_S_) ]

/-- Operations 90 to 99 of @main. -/
abbrev s12 : List (HloOp τ sig (Elt F)) :=
  [ TRef.binary (TRef.of (T := ⟨S512x100000, .f32⟩) main_v34) (TRef.of (T := ⟨S512x1x1, .i32⟩) main_call5_v5) (TRef.of (T := ⟨S512x1, .f32⟩) main_call5_v13) (fun x i => Host.gather gather_S512x100000_S512x1x1_S512x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S512x1, .f32⟩) main_call5_v14) (broadcastInDim S512x1 ![] bcast_S_S512x1),
    TRef.ternary (TRef.of (T := ⟨S512x1, .i1⟩) main_call5_v12) (TRef.of (T := ⟨S512x1, .f32⟩) main_call5_v13) (TRef.of (T := ⟨S512x1, .f32⟩) main_call5_v14) (TRef.of (T := ⟨S512x1, .f32⟩) main_v36) select,
    reshape main_v36 main_v37 rfl shapeCasts_S512x1_S512,
    unary main_v37 main_v38 (Host.negf : (⟨S512, .f32⟩ : BufTy).Contents (Elt F) → (⟨S512, .f32⟩ : BufTy).Contents (Elt F)),
    nullary main_cst_8 (constant S_ .f32 0x00000000#32),
    binary main_v38 main_cst_8 main_v39 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_9 (constant S_ .f32 0x44000000#32),
    binary main_v39 main_cst_9 main_v40 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main's operations are the twelve stretches in a row. -/
theorem ops_eq : (ops : List (HloOp τ sig (Elt F))) = s1 ++ (s2 ++ (s3 ++ (s4 ++ (s5 ++ (s6 ++ (s7 ++ (s8 ++ (s9 ++ (s10 ++ (s11 ++ s12)))))))))) := rfl

/-- Running @main's operations is running the stretches one after the other. -/
theorem after_ops (V : Valuation τ sig (Elt F)) :
    after ops V = after s12 (after s11 (after s10 (after s9 (after s8 (after s7 (after s6 (after s5 (after s4 (after s3 (after s2 (after s1 V))))))))))) := by
  rw [ops_eq]; simp only [StableHlo.after_append]

/-- The references stretch 1 writes. -/
abbrev s1_W : List (Ref sig .tc) := [main_call0_v0, main_call0_cst, main_call0_v1, main_call0_v2, main_v0, main_cst, main_v1, main_v2, main_v3, main_v4]
theorem s1_writes : (s1 : List (HloOp τ sig (Elt F))).Forall fun op => op.writes ⊆ (s1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 1 does not write keeps its contents through it. -/
theorem s1_keep (W : Valuation τ sig (Elt F)) (r : Ref sig .tc) (h : r ∉ s1_W) :
    after (s1 (F := F)) W (Proc.devRef .tc r) = W (Proc.devRef .tc r) :=
  after_of_writes_sub s1 W s1_writes h

/-- The references stretch 2 writes. -/
abbrev s2_W : List (Ref sig .tc) := [main_call1_v0, main_call1_cst, main_call1_v1, main_call1_v2, main_v5, main_cst_0, main_v6, main_v7, main_v8, main_v9, main_v10]
theorem s2_writes : (s2 : List (HloOp τ sig (Elt F))).Forall fun op => op.writes ⊆ (s2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 2 does not write keeps its contents through it. -/
theorem s2_keep (W : Valuation τ sig (Elt F)) (r : Ref sig .tc) (h : r ∉ s2_W) :
    after (s2 (F := F)) W (Proc.devRef .tc r) = W (Proc.devRef .tc r) :=
  after_of_writes_sub s2 W s2_writes h

/-- The references stretch 3 writes. -/
abbrev s3_W : List (Ref sig .tc) := [main_v11, main_v12, main_cst_1, main_v13, main_v14, main_v15]
theorem s3_writes : (s3 : List (HloOp τ sig (Elt F))).Forall fun op => op.writes ⊆ (s3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 3 does not write keeps its contents through it. -/
theorem s3_keep (W : Valuation τ sig (Elt F)) (r : Ref sig .tc) (h : r ∉ s3_W) :
    after (s3 (F := F)) W (Proc.devRef .tc r) = W (Proc.devRef .tc r) :=
  after_of_writes_sub s3 W s3_writes h

/-- The references stretch 4 writes. -/
abbrev s4_W : List (Ref sig .tc) := [main_cst_2, main_v16, main_v17, main_cst_3, main_v18, main_v19, main_v20]
theorem s4_writes : (s4 : List (HloOp τ sig (Elt F))).Forall fun op => op.writes ⊆ (s4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 4 does not write keeps its contents through it. -/
theorem s4_keep (W : Valuation τ sig (Elt F)) (r : Ref sig .tc) (h : r ∉ s4_W) :
    after (s4 (F := F)) W (Proc.devRef .tc r) = W (Proc.devRef .tc r) :=
  after_of_writes_sub s4 W s4_writes h

/-- The references stretch 5 writes. -/
abbrev s5_W : List (Ref sig .tc) := [main_cst_4, main_v21, main_v22, main_cst_5, main_v23, main_v24, main_v25]
theorem s5_writes : (s5 : List (HloOp τ sig (Elt F))).Forall fun op => op.writes ⊆ (s5_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 5 does not write keeps its contents through it. -/
theorem s5_keep (W : Valuation τ sig (Elt F)) (r : Ref sig .tc) (h : r ∉ s5_W) :
    after (s5 (F := F)) W (Proc.devRef .tc r) = W (Proc.devRef .tc r) :=
  after_of_writes_sub s5 W s5_writes h

/-- The references stretch 6 writes. -/
abbrev s6_W : List (Ref sig .tc) := [main_call3_v0, main_call3_v1, main_call3_v2, main_call3_v3, main_call3_v4, main_v26]
theorem s6_writes : (s6 : List (HloOp τ sig (Elt F))).Forall fun op => op.writes ⊆ (s6_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 6 does not write keeps its contents through it. -/
theorem s6_keep (W : Valuation τ sig (Elt F)) (r : Ref sig .tc) (h : r ∉ s6_W) :
    after (s6 (F := F)) W (Proc.devRef .tc r) = W (Proc.devRef .tc r) :=
  after_of_writes_sub s6 W s6_writes h

/-- The references stretch 7 writes. -/
abbrev s7_W : List (Ref sig .tc) := [main_v27, main_cst_6, main_v28, main_v29, main_v30, main_v31, main_cst_7, main_v32, main_v33]
theorem s7_writes : (s7 : List (HloOp τ sig (Elt F))).Forall fun op => op.writes ⊆ (s7_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 7 does not write keeps its contents through it. -/
theorem s7_keep (W : Valuation τ sig (Elt F)) (r : Ref sig .tc) (h : r ∉ s7_W) :
    after (s7 (F := F)) W (Proc.devRef .tc r) = W (Proc.devRef .tc r) :=
  after_of_writes_sub s7 W s7_writes h

/-- The references stretch 8 writes. -/
abbrev s8_W : List (Ref sig .tc) := [main_call4_cst, main_call4_v0, main_call4_cst_0, main_call4_v1, main_call4_v2, main_call4_v3, main_call4_v4, main_call4_v5]
theorem s8_writes : (s8 : List (HloOp τ sig (Elt F))).Forall fun op => op.writes ⊆ (s8_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 8 does not write keeps its contents through it. -/
theorem s8_keep (W : Valuation τ sig (Elt F)) (r : Ref sig .tc) (h : r ∉ s8_W) :
    after (s8 (F := F)) W (Proc.devRef .tc r) = W (Proc.devRef .tc r) :=
  after_of_writes_sub s8 W s8_writes h

/-- The references stretch 9 writes. -/
abbrev s9_W : List (Ref sig .tc) := [main_call4_v6, main_call4_cst_1, main_call4_v7, main_call4_v8, main_call4_v9, main_call4_v10, main_v34]
theorem s9_writes : (s9 : List (HloOp τ sig (Elt F))).Forall fun op => op.writes ⊆ (s9_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 9 does not write keeps its contents through it. -/
theorem s9_keep (W : Valuation τ sig (Elt F)) (r : Ref sig .tc) (h : r ∉ s9_W) :
    after (s9 (F := F)) W (Proc.devRef .tc r) = W (Proc.devRef .tc r) :=
  after_of_writes_sub s9 W s9_writes h

/-- The references stretch 10 writes. -/
abbrev s10_W : List (Ref sig .tc) := [main_v35, main_call5_c, main_call5_v0, main_call5_v1, main_call5_c_0, main_call5_v2, main_call5_v3, main_call5_v4, main_call5_v5]
theorem s10_writes : (s10 : List (HloOp τ sig (Elt F))).Forall fun op => op.writes ⊆ (s10_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 10 does not write keeps its contents through it. -/
theorem s10_keep (W : Valuation τ sig (Elt F)) (r : Ref sig .tc) (h : r ∉ s10_W) :
    after (s10 (F := F)) W (Proc.devRef .tc r) = W (Proc.devRef .tc r) :=
  after_of_writes_sub s10 W s10_writes h

/-- The references stretch 11 writes. -/
abbrev s11_W : List (Ref sig .tc) := [main_call5_c_1, main_call5_c_2, main_call5_v6, main_call5_v7, main_call5_v8, main_call5_v9, main_call5_v10, main_call5_v11, main_call5_c_3, main_call5_v12]
theorem s11_writes : (s11 : List (HloOp τ sig (Elt F))).Forall fun op => op.writes ⊆ (s11_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 11 does not write keeps its contents through it. -/
theorem s11_keep (W : Valuation τ sig (Elt F)) (r : Ref sig .tc) (h : r ∉ s11_W) :
    after (s11 (F := F)) W (Proc.devRef .tc r) = W (Proc.devRef .tc r) :=
  after_of_writes_sub s11 W s11_writes h

/-- The references stretch 12 writes. -/
abbrev s12_W : List (Ref sig .tc) := [main_call5_v13, main_call5_cst, main_call5_v14, main_v36, main_v37, main_v38, main_cst_8, main_v39, main_cst_9, main_v40]
theorem s12_writes : (s12 : List (HloOp τ sig (Elt F))).Forall fun op => op.writes ⊆ (s12_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference stretch 12 does not write keeps its contents through it. -/
theorem s12_keep (W : Valuation τ sig (Elt F)) (r : Ref sig .tc) (h : r ∉ s12_W) :
    after (s12 (F := F)) W (Proc.devRef .tc r) = W (Proc.devRef .tc r) :=
  after_of_writes_sub s12 W s12_writes h

end ArcFace.RefLink

end
-- ==== Proof.RefLinkB.lean ====
/-
  The first six stretches of the reference program, each read at an arbitrary valuation: given what the
  buffers a stretch reads hold on entry (a stage of the reference, by name), the buffer it hands on holds
  the next stage. Every proof unfolds the stretch's own operations only: the entry facts are rewritten in
  as they stand, and the closing comparison opens the stages written inside the stretch, one level each.
-/
import proofs.«406980_j40630390620832_2_alg».proof.Proof.RefLinkA

noncomputable section

namespace ArcFace.RefLink

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

variable (W : Valuation τ sig (Elt F))
variable (x0 : (⟨S512x512, .f32⟩ : BufTy).Contents (Elt F)) (x1 : (⟨S512, .i32⟩ : BufTy).Contents (Elt F))
  (x2 : (⟨S100000x512, .f32⟩ : BufTy).Contents (Elt F))

/-- Row norms of the embeddings, clamped below, and the embeddings divided by them. -/
theorem s1_v4 (h0 : W (Proc.devRef .tc main_arg0) = x0) :
    after (s1 (F := F)) W (Proc.devRef .tc main_v4) = val_main_v4 (F := F) x0 := by
  after_results
  rw [h0]
  rfl

/-- The same for the class weights, then the transpose. -/
theorem s2_v10 (h2 : W (Proc.devRef .tc main_arg2) = x2) :
    after (s2 (F := F)) W (Proc.devRef .tc main_v10) = val_main_v10 (F := F) x2 := by
  after_results
  rw [h2]
  rfl

/-- The cosines: the product of the two normalised arrays. -/
theorem s3_v11 (h4 : W (Proc.devRef .tc main_v4) = val_main_v4 (F := F) x0)
    (h10 : W (Proc.devRef .tc main_v10) = val_main_v10 (F := F) x2) :
    after (s3 (F := F)) W (Proc.devRef .tc main_v11) = val_main_v11 (F := F) x0 x2 := by
  after_results
  rw [h4, h10]
  rfl

/-- The sines: the root of one minus the squared cosine. -/
theorem s3_v15 (h4 : W (Proc.devRef .tc main_v4) = val_main_v4 (F := F) x0)
    (h10 : W (Proc.devRef .tc main_v10) = val_main_v10 (F := F) x2) :
    after (s3 (F := F)) W (Proc.devRef .tc main_v15) = val_main_v15 (F := F) x0 x2 := by
  after_results
  rw [h4, h10]
  rfl

/-- The cosine of the angle plus the margin: cos θ · cos m − sin θ · sin m. -/
theorem s4_v20 (h11 : W (Proc.devRef .tc main_v11) = val_main_v11 (F := F) x0 x2)
    (h15 : W (Proc.devRef .tc main_v15) = val_main_v15 (F := F) x0 x2) :
    after (s4 (F := F)) W (Proc.devRef .tc main_v20) = val_main_v20 (F := F) x0 x2 := by
  after_results
  rw [h11, h15]
  rfl

/-- The margin logit: the shifted cosine where the angle stays below π − m, the linear fallback elsewhere. -/
theorem s5_v25 (h11 : W (Proc.devRef .tc main_v11) = val_main_v11 (F := F) x0 x2)
    (h20 : W (Proc.devRef .tc main_v20) = val_main_v20 (F := F) x0 x2) :
    after (s5 (F := F)) W (Proc.devRef .tc main_v25) = val_main_v25 (F := F) x0 x2 := by
  after_results
  rw [h11, h20]
  rfl

/-- The one-hot mask of the labels. -/
theorem s6_v26 (h1 : W (Proc.devRef .tc main_arg1) = x1) :
    after (s6 (F := F)) W (Proc.devRef .tc main_v26) = val_main_v26 (F := F) x1 := by
  after_results
  rw [h1]
  rfl

end ArcFace.RefLink

end
-- ==== Proof.RefLinkC.lean ====
/-
  The last six stretches of the reference program, read at an arbitrary valuation in the same way: the
  blend of margin logit and cosine under the one-hot mask and its scaling, the log-softmax (row maximum
  and shifted logits; then the log of the row sum), the label index brought into range, the range test,
  and the gather at the label with the mean of the negated picks.
-/
import proofs.«406980_j40630390620832_2_alg».proof.Proof.RefLinkA

noncomputable section

namespace ArcFace.RefLink

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

variable (W : Valuation τ sig (Elt F))
variable (x0 : (⟨S512x512, .f32⟩ : BufTy).Contents (Elt F)) (x1 : (⟨S512, .i32⟩ : BufTy).Contents (Elt F))
  (x2 : (⟨S100000x512, .f32⟩ : BufTy).Contents (Elt F))

/-- The scaled logits: the margin logit at the label's column, the cosine elsewhere, times the scale. -/
theorem s7_v33 (h26 : W (Proc.devRef .tc main_v26) = val_main_v26 (F := F) x1)
    (h25 : W (Proc.devRef .tc main_v25) = val_main_v25 (F := F) x0 x2)
    (h11 : W (Proc.devRef .tc main_v11) = val_main_v11 (F := F) x0 x2) :
    after (s7 (F := F)) W (Proc.devRef .tc main_v33) = val_main_v33 (F := F) x0 x1 x2 := by
  after_results
  rw [h26, h25, h11]
  rfl

/-- Contents carried to a typed reference's buffer and back are the contents. -/
theorem ofBuf_toBuf {Val : EltTy → Type} {T : BufTy} (x : TRef sig T) (v : T.Contents Val) :
    x.ofBuf (x.toBuf v) = v := by
  obtain ⟨r, h, _, _⟩ := x
  subst h
  rfl

/-- The logits less their row maximum. The row maximum is a fold over a row of 100000 entries: the transports
    to and from the intermediate buffers are cancelled by rewriting before the two sides are compared, so that
    the comparison meets the fold with equal arguments and never opens it. -/
theorem s8_call4_v5 (h33 : W (Proc.devRef .tc main_v33) = val_main_v33 (F := F) x0 x1 x2) :
    after (s8 (F := F)) W (Proc.devRef .tc main_call4_v5) = val_main_call4_v5 (F := F) x0 x1 x2 := by
  after_results
  repeat rw [ofBuf_toBuf]
  rw [h33]
  rfl

/-- The log-softmax: the shifted logits less the log of the row sum of their exponentials. -/
theorem s9_v34 (h5 : W (Proc.devRef .tc main_call4_v5) = val_main_call4_v5 (F := F) x0 x1 x2) :
    after (s9 (F := F)) W (Proc.devRef .tc main_v34) = val_main_v34 (F := F) x0 x1 x2 := by
  after_results
  rw [h5]
  rfl

/-- The label as a gather index: a negative label moved up by the class count. -/
theorem s10_call5_v5 (h1 : W (Proc.devRef .tc main_arg1) = x1) :
    after (s10 (F := F)) W (Proc.devRef .tc main_call5_v5) = val_main_call5_v5 (F := F) x1 := by
  after_results
  rw [h1]
  rfl

/-- Whether the index lies in range. -/
theorem s11_call5_v12 (h5 : W (Proc.devRef .tc main_call5_v5) = val_main_call5_v5 (F := F) x1) :
    after (s11 (F := F)) W (Proc.devRef .tc main_call5_v12) = val_main_call5_v12 (F := F) x1 := by
  after_results
  rw [h5]
  rfl

/-- The loss: the log-probability picked at the label (a NaN out of range), negated, summed over the rows and divided by their number. -/
theorem s12_v40 (h34 : W (Proc.devRef .tc main_v34) = val_main_v34 (F := F) x0 x1 x2)
    (h5 : W (Proc.devRef .tc main_call5_v5) = val_main_call5_v5 (F := F) x1)
    (h12 : W (Proc.devRef .tc main_call5_v12) = val_main_call5_v12 (F := F) x1) :
    after (s12 (F := F)) W (Proc.devRef .tc main_v40) = val_main_v40 (F := F) x0 x1 x2 := by
  after_results
  rw [h34, h5, h12]
  rfl

end ArcFace.RefLink

end
-- ==== Proof.RefLink.lean ====
/-
  The reference program's run and its stages. The run leaves every buffer at the fold of the hundred host
  operations over the launch contents; here that fold, at the result buffer, is the last stage of the
  reference as a function of @main's three arguments, and at an argument it is the argument's launch
  contents. The fold is never composed into one term: it is run stretch by stretch, and across a stretch
  only the equations that later stretches read are carried, each naming a stage and none opening one.
-/
import proofs.«406980_j40630390620832_2_alg».proof.Proof.RefLinkB
import proofs.«406980_j40630390620832_2_alg».proof.Proof.RefLinkC

noncomputable section

namespace ArcFace.RefLink

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ## The valuation after each stretch -/

def V1 (V : Valuation τ sig (Elt F)) : Valuation τ sig (Elt F) := after s1 V
def V2 (V : Valuation τ sig (Elt F)) : Valuation τ sig (Elt F) := after s2 (V1 V)
def V3 (V : Valuation τ sig (Elt F)) : Valuation τ sig (Elt F) := after s3 (V2 V)
def V4 (V : Valuation τ sig (Elt F)) : Valuation τ sig (Elt F) := after s4 (V3 V)
def V5 (V : Valuation τ sig (Elt F)) : Valuation τ sig (Elt F) := after s5 (V4 V)
def V6 (V : Valuation τ sig (Elt F)) : Valuation τ sig (Elt F) := after s6 (V5 V)
def V7 (V : Valuation τ sig (Elt F)) : Valuation τ sig (Elt F) := after s7 (V6 V)
def V8 (V : Valuation τ sig (Elt F)) : Valuation τ sig (Elt F) := after s8 (V7 V)
def V9 (V : Valuation τ sig (Elt F)) : Valuation τ sig (Elt F) := after s9 (V8 V)
def V10 (V : Valuation τ sig (Elt F)) : Valuation τ sig (Elt F) := after s10 (V9 V)
def V11 (V : Valuation τ sig (Elt F)) : Valuation τ sig (Elt F) := after s11 (V10 V)
def V12 (V : Valuation τ sig (Elt F)) : Valuation τ sig (Elt F) := after s12 (V11 V)

/-- The whole run is the twelfth of them. -/
theorem after_ops_eq (V : Valuation τ sig (Elt F)) : after ops V = V12 V := after_ops V

/-- A reference no stretch writes keeps its contents through the whole run. -/
theorem after_keep (V : Valuation τ sig (Elt F)) (r : Ref sig .tc)
    (h1 : r ∉ s1_W) (h2 : r ∉ s2_W) (h3 : r ∉ s3_W) (h4 : r ∉ s4_W) (h5 : r ∉ s5_W) (h6 : r ∉ s6_W)
    (h7 : r ∉ s7_W) (h8 : r ∉ s8_W) (h9 : r ∉ s9_W) (h10 : r ∉ s10_W) (h11 : r ∉ s11_W) (h12 : r ∉ s12_W) :
    after (ops (F := F)) V (Proc.devRef .tc r) = V (Proc.devRef .tc r) := by
  rw [after_ops, s12_keep _ r h12, s11_keep _ r h11, s10_keep _ r h10, s9_keep _ r h9, s8_keep _ r h8, s7_keep _ r h7,
    s6_keep _ r h6, s5_keep _ r h5, s4_keep _ r h4, s3_keep _ r h3, s2_keep _ r h2, s1_keep _ r h1]

/-! ## What the live buffers hold after each stretch

`V` is the valuation the run starts from and `x0`, `x1`, `x2` what it holds at the three arguments. -/

section Chain

variable (V : Valuation τ sig (Elt F))
variable (x0 : (⟨S512x512, .f32⟩ : BufTy).Contents (Elt F)) (x1 : (⟨S512, .i32⟩ : BufTy).Contents (Elt F))
  (x2 : (⟨S100000x512, .f32⟩ : BufTy).Contents (Elt F))

/-- The labels are still in place when the one-hot mask reads them. -/
theorem V5_arg1 : V5 V (Proc.devRef .tc main_arg1) = V (Proc.devRef .tc main_arg1) := by
  unfold V5 V4 V3 V2 V1
  rw [s5_keep _ _ (by decide), s4_keep _ _ (by decide), s3_keep _ _ (by decide), s2_keep _ _ (by decide), s1_keep _ _ (by decide)]

/-- And when the gather index reads them. -/
theorem V9_arg1 : V9 V (Proc.devRef .tc main_arg1) = V (Proc.devRef .tc main_arg1) := by
  unfold V9 V8 V7 V6
  rw [s9_keep _ _ (by decide), s8_keep _ _ (by decide), s7_keep _ _ (by decide), s6_keep _ _ (by decide)]
  exact V5_arg1 V

theorem V1_v4 (h0 : V (Proc.devRef .tc main_arg0) = x0) :
    V1 V (Proc.devRef .tc main_v4) = val_main_v4 (F := F) x0 :=
  s1_v4 V x0 h0

theorem V2_v10 (h2 : V (Proc.devRef .tc main_arg2) = x2) :
    V2 V (Proc.devRef .tc main_v10) = val_main_v10 (F := F) x2 :=
  s2_v10 (V1 V) x2 ((s1_keep V main_arg2 (by decide)).trans h2)

theorem V2_v4 (h0 : V (Proc.devRef .tc main_arg0) = x0) :
    V2 V (Proc.devRef .tc main_v4) = val_main_v4 (F := F) x0 :=
  (s2_keep (V1 V) main_v4 (by decide)).trans (V1_v4 V x0 h0)

theorem V3_v11 (h0 : V (Proc.devRef .tc main_arg0) = x0) (h2 : V (Proc.devRef .tc main_arg2) = x2) :
    V3 V (Proc.devRef .tc main_v11) = val_main_v11 (F := F) x0 x2 :=
  s3_v11 (V2 V) x0 x2 (V2_v4 V x0 h0) (V2_v10 V x2 h2)

theorem V3_v15 (h0 : V (Proc.devRef .tc main_arg0) = x0) (h2 : V (Proc.devRef .tc main_arg2) = x2) :
    V3 V (Proc.devRef .tc main_v15) = val_main_v15 (F := F) x0 x2 :=
  s3_v15 (V2 V) x0 x2 (V2_v4 V x0 h0) (V2_v10 V x2 h2)

theorem V4_v11 (h0 : V (Proc.devRef .tc main_arg0) = x0) (h2 : V (Proc.devRef .tc main_arg2) = x2) :
    V4 V (Proc.devRef .tc main_v11) = val_main_v11 (F := F) x0 x2 :=
  (s4_keep (V3 V) main_v11 (by decide)).trans (V3_v11 V x0 x2 h0 h2)

theorem V4_v20 (h0 : V (Proc.devRef .tc main_arg0) = x0) (h2 : V (Proc.devRef .tc main_arg2) = x2) :
    V4 V (Proc.devRef .tc main_v20) = val_main_v20 (F := F) x0 x2 :=
  s4_v20 (V3 V) x0 x2 (V3_v11 V x0 x2 h0 h2) (V3_v15 V x0 x2 h0 h2)

theorem V5_v11 (h0 : V (Proc.devRef .tc main_arg0) = x0) (h2 : V (Proc.devRef .tc main_arg2) = x2) :
    V5 V (Proc.devRef .tc main_v11) = val_main_v11 (F := F) x0 x2 :=
  (s5_keep (V4 V) main_v11 (by decide)).trans (V4_v11 V x0 x2 h0 h2)

theorem V5_v25 (h0 : V (Proc.devRef .tc main_arg0) = x0) (h2 : V (Proc.devRef .tc main_arg2) = x2) :
    V5 V (Proc.devRef .tc main_v25) = val_main_v25 (F := F) x0 x2 :=
  s5_v25 (V4 V) x0 x2 (V4_v11 V x0 x2 h0 h2) (V4_v20 V x0 x2 h0 h2)

theorem V6_v11 (h0 : V (Proc.devRef .tc main_arg0) = x0) (h2 : V (Proc.devRef .tc main_arg2) = x2) :
    V6 V (Proc.devRef .tc main_v11) = val_main_v11 (F := F) x0 x2 :=
  (s6_keep (V5 V) main_v11 (by decide)).trans (V5_v11 V x0 x2 h0 h2)

theorem V6_v25 (h0 : V (Proc.devRef .tc main_arg0) = x0) (h2 : V (Proc.devRef .tc main_arg2) = x2) :
    V6 V (Proc.devRef .tc main_v25) = val_main_v25 (F := F) x0 x2 :=
  (s6_keep (V5 V) main_v25 (by decide)).trans (V5_v25 V x0 x2 h0 h2)

theorem V6_v26 (h1 : V (Proc.devRef .tc main_arg1) = x1) :
    V6 V (Proc.devRef .tc main_v26) = val_main_v26 (F := F) x1 :=
  s6_v26 (V5 V) x1 ((V5_arg1 V).trans h1)

theorem V7_v33 (h0 : V (Proc.devRef .tc main_arg0) = x0) (h1 : V (Proc.devRef .tc main_arg1) = x1)
    (h2 : V (Proc.devRef .tc main_arg2) = x2) :
    V7 V (Proc.devRef .tc main_v33) = val_main_v33 (F := F) x0 x1 x2 :=
  s7_v33 (V6 V) x0 x1 x2 (V6_v26 V x1 h1) (V6_v25 V x0 x2 h0 h2) (V6_v11 V x0 x2 h0 h2)

theorem V8_call4_v5 (h0 : V (Proc.devRef .tc main_arg0) = x0) (h1 : V (Proc.devRef .tc main_arg1) = x1)
    (h2 : V (Proc.devRef .tc main_arg2) = x2) :
    V8 V (Proc.devRef .tc main_call4_v5) = val_main_call4_v5 (F := F) x0 x1 x2 :=
  s8_call4_v5 (V7 V) x0 x1 x2 (V7_v33 V x0 x1 x2 h0 h1 h2)

theorem V9_v34 (h0 : V (Proc.devRef .tc main_arg0) = x0) (h1 : V (Proc.devRef .tc main_arg1) = x1)
    (h2 : V (Proc.devRef .tc main_arg2) = x2) :
    V9 V (Proc.devRef .tc main_v34) = val_main_v34 (F := F) x0 x1 x2 :=
  s9_v34 (V8 V) x0 x1 x2 (V8_call4_v5 V x0 x1 x2 h0 h1 h2)

theorem V10_v34 (h0 : V (Proc.devRef .tc main_arg0) = x0) (h1 : V (Proc.devRef .tc main_arg1) = x1)
    (h2 : V (Proc.devRef .tc main_arg2) = x2) :
    V10 V (Proc.devRef .tc main_v34) = val_main_v34 (F := F) x0 x1 x2 :=
  (s10_keep (V9 V) main_v34 (by decide)).trans (V9_v34 V x0 x1 x2 h0 h1 h2)

theorem V10_call5_v5 (h1 : V (Proc.devRef .tc main_arg1) = x1) :
    V10 V (Proc.devRef .tc main_call5_v5) = val_main_call5_v5 (F := F) x1 :=
  s10_call5_v5 (V9 V) x1 ((V9_arg1 V).trans h1)

theorem V11_v34 (h0 : V (Proc.devRef .tc main_arg0) = x0) (h1 : V (Proc.devRef .tc main_arg1) = x1)
    (h2 : V (Proc.devRef .tc main_arg2) = x2) :
    V11 V (Proc.devRef .tc main_v34) = val_main_v34 (F := F) x0 x1 x2 :=
  (s11_keep (V10 V) main_v34 (by decide)).trans (V10_v34 V x0 x1 x2 h0 h1 h2)

theorem V11_call5_v5 (h1 : V (Proc.devRef .tc main_arg1) = x1) :
    V11 V (Proc.devRef .tc main_call5_v5) = val_main_call5_v5 (F := F) x1 :=
  (s11_keep (V10 V) main_call5_v5 (by decide)).trans (V10_call5_v5 V x1 h1)

theorem V11_call5_v12 (h1 : V (Proc.devRef .tc main_arg1) = x1) :
    V11 V (Proc.devRef .tc main_call5_v12) = val_main_call5_v12 (F := F) x1 :=
  s11_call5_v12 (V10 V) x1 (V10_call5_v5 V x1 h1)

theorem V12_v40 (h0 : V (Proc.devRef .tc main_arg0) = x0) (h1 : V (Proc.devRef .tc main_arg1) = x1)
    (h2 : V (Proc.devRef .tc main_arg2) = x2) :
    V12 V (Proc.devRef .tc main_v40) = val_main_v40 (F := F) x0 x1 x2 :=
  s12_v40 (V11 V) x0 x1 x2 (V11_v34 V x0 x1 x2 h0 h1 h2) (V11_call5_v5 V x1 h1) (V11_call5_v12 V x1 h1)

end Chain

/-! ## The run's result and arguments -/

variable (m : (ℓ : Loc nD τ sig) → Buf (Elt F) ℓ) (c : Dev nD)

/-- The result buffer ends at the reference's last stage, read at the arguments' launch contents. -/
theorem after_v40 :
    after ops (launchContents m c) (Proc.devRef .tc main_v40)
      = val_main_v40 (F := F) (m ((c.tc : Thread nD τ).loc main_arg0)) (m ((c.tc : Thread nD τ).loc main_arg1))
          (m ((c.tc : Thread nD τ).loc main_arg2)) := by
  rw [after_ops_eq]
  exact V12_v40 (launchContents m c) _ _ _ rfl rfl rfl

/-- No operation writes an argument: each ends at its launch contents. -/
theorem after_arg0 :
    after (ops (F := F)) (launchContents m c) (Proc.devRef .tc main_arg0) = m ((c.tc : Thread nD τ).loc main_arg0) :=
  after_keep (launchContents m c) main_arg0 (by decide) (by decide) (by decide) (by decide) (by decide) (by decide)
    (by decide) (by decide) (by decide) (by decide) (by decide) (by decide)

theorem after_arg1 :
    after (ops (F := F)) (launchContents m c) (Proc.devRef .tc main_arg1) = m ((c.tc : Thread nD τ).loc main_arg1) :=
  after_keep (launchContents m c) main_arg1 (by decide) (by decide) (by decide) (by decide) (by decide) (by decide)
    (by decide) (by decide) (by decide) (by decide) (by decide) (by decide)

theorem after_arg2 :
    after (ops (F := F)) (launchContents m c) (Proc.devRef .tc main_arg2) = m ((c.tc : Thread nD τ).loc main_arg2) :=
  after_keep (launchContents m c) main_arg2 (by decide) (by decide) (by decide) (by decide) (by decide) (by decide)
    (by decide) (by decide) (by decide) (by decide) (by decide) (by decide)

end ArcFace.RefLink

end
-- ==== Proof.lean ====
/-
  The certificate: an ArcFace loss kernel against its jnp reference, over the extended reals.

  Precondition: every float input finite and every label in [0, 100000). Under it both programs are real-valued
  throughout. The reference normalises the rows, takes cosines, applies the margin at the label, and returns the mean of
  minus the log-softmax at the label, the logits shifted by their maximum. The kernel streams the classes in 2 × 25 tiles
  with a running maximum and a rescaled running sum per half, leaves the label out of the sums, and puts its adjusted
  term back after merging the halves. Per row both are `log (∑_{j ≠ y} exp aⱼ + exp φ) − φ`: a log-sum-exp does not
  depend on the shift it is computed at, and the label's cosine, accumulated tile by tile, is the cosine at the label.
  The frames of the two kernel programs are the generated ones; the reference's is its run with the result dropped.
-/
import proofs.«406980_j40630390620832_2_alg».proof.Defs
import proofs.«406980_j40630390620832_2_alg».proof.Proof.Gen.Kernel
import proofs.«406980_j40630390620832_2_alg».proof.Proof.Gen.Kernel.Frame
import proofs.«406980_j40630390620832_2_alg».proof.Proof.Gen.KernelIdeal
import proofs.«406980_j40630390620832_2_alg».proof.Proof.Gen.KernelIdeal.Frame
import proofs.«406980_j40630390620832_2_alg».proof.Proof.Gen.ReferenceIdeal
import proofs.«406980_j40630390620832_2_alg».proof.Proof.Gen.Pre_finite_inputs
import proofs.«406980_j40630390620832_2_alg».proof.Proof.PreFacts
import proofs.«406980_j40630390620832_2_alg».proof.Proof.KerRun
import proofs.«406980_j40630390620832_2_alg».proof.Proof.RefValue
import proofs.«406980_j40630390620832_2_alg».proof.Proof.RefLink
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open ArcFace ArcFace.Consts

theorem frame_k : Cert.frame_Kernel := fun m ρ _ => Cert.Kernel.Gen.frame m ρ

theorem frame_ki : Cert.frame_KernelIdeal := fun m ρ _ => Cert.KernelIdeal.Gen.frame m ρ

/-- The reference terminates with every buffer at the fold of its operations, and no operation writes an argument. -/
theorem frame_ri : Cert.frame_ReferenceIdeal := fun m ρ _ =>
  (θ_run Cert.ReferenceIdeal.defs _ _).mono (fun _ h c =>
    ⟨(h c Cert.ReferenceIdeal.main_arg0).trans (ArcFace.RefLink.after_arg0 m c),
      (h c Cert.ReferenceIdeal.main_arg1).trans (ArcFace.RefLink.after_arg1 m c),
      (h c Cert.ReferenceIdeal.main_arg2).trans (ArcFace.RefLink.after_arg2 m c)⟩)
    (Cert.ReferenceIdeal.Value.run (F := Ideal) m ρ)

/-- The two row losses agree on in-range labels, so the two batch losses do. -/
theorem loss_eq (xr : Fin 512 → Fin 512 → ℝ) (wr : ℕ → Fin 512 → ℝ) (yv : Fin 512 → ℕ) (hy : ∀ b, yv b < 100000) :
    loss epsR 120 cmR smR thR mmR xr wr yv kerRow = loss epsR 120 cmR smR thR mmR xr wr yv refRow := by
  unfold loss
  exact congrArg (fun s => (0 + s) / 512) (Finset.sum_congr rfl fun b _ => kerRow_eq_refRow _ _ (hy b) _)

/-- The reference's result buffer after its run, on real inputs with in-range labels. -/
theorem ref_post (m' : (ℓ : Loc Cert.ReferenceIdeal.nD Cert.ReferenceIdeal.τ Cert.ReferenceIdeal.sig) → Buf (Elt Ideal) ℓ)
    (c : Dev Cert.ReferenceIdeal.nD) (xr : Fin 512 → Fin 512 → ℝ) (wr : ℕ → Fin 512 → ℝ) (yv : Fin 512 → ℕ)
    (hx : ∀ (b k : Fin 512), (m' ((c.tc : Thread Cert.ReferenceIdeal.nD Cert.ReferenceIdeal.τ).loc Cert.ReferenceIdeal.main_arg0) : Cert.ReferenceIdeal.S512x512.Idx → EReal) (ix2 b k) = ((xr b k : ℝ) : EReal))
    (hw : ∀ (j : Fin 100000) (k : Fin 512), (m' ((c.tc : Thread Cert.ReferenceIdeal.nD Cert.ReferenceIdeal.τ).loc Cert.ReferenceIdeal.main_arg2) : Cert.ReferenceIdeal.S100000x512.Idx → EReal) (ix2 j k) = ((wr j.val k : ℝ) : EReal))
    (hy : ∀ b, yv b < 100000)
    (hl : ∀ b : Fin 512, (m' ((c.tc : Thread Cert.ReferenceIdeal.nD Cert.ReferenceIdeal.τ).loc Cert.ReferenceIdeal.main_arg1) : Cert.ReferenceIdeal.S512.Idx → BitVec 32) (ix1 b) = BitVec.ofNat 32 (yv b)) :
    (StableHlo.after Cert.ReferenceIdeal.Value.ops (StableHlo.launchContents m' c) (Proc.devRef .tc Cert.ReferenceIdeal.main_v40) : Cert.ReferenceIdeal.S_.Idx → EReal)
      = fun _ => ((loss epsR 120 cmR smR thR mmR xr wr yv refRow : ℝ) : EReal) :=
  (ArcFace.RefLink.after_v40 m' c).trans (ArcFace.RefValue.ref_value _ _ _ xr wr yv hx hw hy hl)

theorem algebraic : Cert.algebraic_KernelIdeal_ReferenceIdeal := by
  intro m ρ m' ρ' hpre hagree
  -- the real inputs behind the precondition, core by core
  have D := fun c => ArcFace.PreFacts.decode _ _ _ (hpre c)
  choose xs hxs using fun c => (D c).1
  choose ws hws using fun c => (D c).2.1
  choose ys hys using fun c => (D c).2.2
  have hI : ∀ c, ArcFace.KerInv.Inputs m (xs c) (ws c) (ys c) c := fun c => ⟨hxs c, hws c, (hys c).1, (hys c).2⟩
  refine ⟨fun c _ => ((loss epsR 120 cmR smR thR mmR (xs c) (ws c) (ys c) kerRow : ℝ) : EReal),
    ArcFace.KerRun.ker_run m ρ xs ws ys hI, ?_⟩
  refine (θ_run Cert.ReferenceIdeal.defs _ _).mono (fun _ h c => ⟨?_, (h c Cert.ReferenceIdeal.main_arg0).trans (ArcFace.RefLink.after_arg0 m' c),
    (h c Cert.ReferenceIdeal.main_arg1).trans (ArcFace.RefLink.after_arg1 m' c),
    (h c Cert.ReferenceIdeal.main_arg2).trans (ArcFace.RefLink.after_arg2 m' c)⟩)
    (Cert.ReferenceIdeal.Value.run (F := Ideal) m' ρ')
  refine (h c Cert.ReferenceIdeal.main_v40).trans ?_
  have hx' := hxs c
  have hw' := hws c
  have hl' := (hys c).2
  rw [← (hagree c).1] at hx'
  rw [← (hagree c).2.2] at hw'
  rw [← (hagree c).2.1] at hl'
  refine (ref_post m' c (xs c) (ws c) (ys c) hx' hw' (hys c).1 hl').trans ?_
  funext _
  show ((loss epsR 120 cmR smR thR mmR (xs c) (ws c) (ys c) refRow : ℝ) : EReal)
    = ((loss epsR 120 cmR smR thR mmR (xs c) (ws c) (ys c) kerRow : ℝ) : EReal)
  rw [loss_eq (xs c) (ws c) (ys c) (hys c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
